-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S262144x32 : Shape := ⟨2, ![262144, 32]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S262144 : S_.BroadcastsInDim S262144 (![] : Fin 0 → Fin S262144.rank)
  reducesTo_S262144_S_d0 : S262144.ReducesTo [0] S_
  bcast_S_S16x4096 : S_.BroadcastsInDim S16x4096 (![] : Fin 0 → Fin S16x4096.rank)
  reducesTo_S16x4096_S_d0_1 : S16x4096.ReducesTo [0, 1] S_
  bcast_S_S4096x16 : S_.BroadcastsInDim S4096x16 (![] : Fin 0 → Fin S4096x16.rank)
  reducesTo_S4096x16_S_d0_1 : S4096x16.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_arg5 : FVec F S4096 .f32) (main_v13 : IVec S_ 1) (main_v16 : IVec S4096x16 1) : IVec S_ 1 :=
  let main_c_5 : IVec S_ 1 := constantI S_ 1 1#1
  let main_v17 : IVec S_ 1 := (fun x v => Host.reduce IntOp.andi x v reducesTo_S4096x16_S_d0_1 h_S_) main_v16 main_c_5
  let main_v18 : IVec S_ 1 := andi main_v13 main_v17
  let main_v19 : FVec F S4096 .f32 := Host.absf main_arg5
  let main_cst_6 : FVec F S_ .f32 := constant S_ .f32 0x7F800000#32
  let main_v20 : FVec F S4096 .f32 := broadcastInDim S4096 ![] bcast_S_S4096 main_cst_6
  let main_v21 : IVec S4096 1 := cmpf .olt main_v19 main_v20
  let main_c_7 : IVec S_ 1 := constantI S_ 1 1#1
  let main_v22 : IVec S_ 1 := (fun x v => Host.reduce IntOp.andi x v reducesTo_S4096_S_d0 h_S_) main_v21 main_c_7
  let main_v23 : IVec S_ 1 := andi main_v18 main_v22
  main_v23

def fn {F : FTy → Type} [FloatOps F] (main_arg0 : FVec F S4x2048x4096 .f32) (main_arg1 : IVec S262144x32 32) (main_arg2 : FVec F S262144 .f32) (main_arg3 : FVec F S16x4096 .f32) (main_arg4 : FVec F S4096x16 .f32) (main_arg5 : FVec F S4096 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S262144 .f32 := Host.absf main_arg2
  let main_cst_0 : FVec F S_ .f32 := constant S_ .f32 0x7F800000#32
  let main_v5 : FVec F S262144 .f32 := broadcastInDim S262144 ![] bcast_S_S262144 main_cst_0
  let main_v6 : IVec S262144 1 := cmpf .olt main_v4 main_v5
  let main_c_1 : IVec S_ 1 := constantI S_ 1 1#1
  let main_v7 : IVec S_ 1 := (fun x v => Host.reduce IntOp.andi x v reducesTo_S262144_S_d0 h_S_) main_v6 main_c_1
  let main_v8 : IVec S_ 1 := andi main_v3 main_v7
  let main_v9 : FVec F S16x4096 .f32 := Host.absf main_arg3
  let main_cst_2 : FVec F S_ .f32 := constant S_ .f32 0x7F800000#32
  let main_v10 : FVec F S16x4096 .f32 := broadcastInDim S16x4096 ![] bcast_S_S16x4096 main_cst_2
  let main_v11 : IVec S16x4096 1 := cmpf .olt main_v9 main_v10
  let main_c_3 : IVec S_ 1 := constantI S_ 1 1#1
  let main_v12 : IVec S_ 1 := (fun x v => Host.reduce IntOp.andi x v reducesTo_S16x4096_S_d0_1 h_S_) main_v11 main_c_3
  let main_v13 : IVec S_ 1 := andi main_v8 main_v12
  let main_v14 : FVec F S4096x16 .f32 := Host.absf main_arg4
  let main_cst_4 : FVec F S_ .f32 := constant S_ .f32 0x7F800000#32
  let main_v15 : FVec F S4096x16 .f32 := broadcastInDim S4096x16 ![] bcast_S_S4096x16 main_cst_4
  let main_v16 : IVec S4096x16 1 := cmpf .olt main_v14 main_v15
  fn_part1 (F := F) main_arg5 main_v13 main_v16
-- ==== Kernel.lean ====
abbrev S4x2048x4096 : Shape := ⟨3, ![4, 2048, 4096]⟩
abbrev S262144x32 : Shape := ⟨2, ![262144, 32]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S16 : Shape := ⟨1, ![16]⟩
abbrev S4096x2048 : Shape := ⟨2, ![4096, 2048]⟩
abbrev S4096x64 : Shape := ⟨2, ![4096, 64]⟩
abbrev S64 : Shape := ⟨1, ![64]⟩
abbrev S64x1 : Shape := ⟨2, ![64, 1]⟩
abbrev S2048 : Shape := ⟨1, ![2048]⟩
abbrev S1x2048 : Shape := ⟨2, ![1, 2048]⟩
abbrev S_ : Shape := ⟨0, ![]⟩
abbrev S64x2048 : Shape := ⟨2, ![64, 2048]⟩
abbrev S128x2048 : Shape := ⟨2, ![128, 2048]⟩
abbrev S128x64 : Shape := ⟨2, ![128, 64]⟩
abbrev S1 : Shape := ⟨1, ![1]⟩
abbrev S4096x2048x1 : Shape := ⟨3, ![4096, 2048, 1]⟩
abbrev S4096x2048x2 : Shape := ⟨3, ![4096, 2048, 2]⟩
abbrev S4096x4096 : Shape := ⟨2, ![4096, 4096]⟩
abbrev S8192x4096 : Shape := ⟨2, ![8192, 4096]⟩
abbrev S8192x16 : Shape := ⟨2, ![8192, 16]⟩
abbrev S1x4096 : Shape := ⟨2, ![1, 4096]⟩
abbrev S1024x256 : Shape := ⟨2, ![1024, 256]⟩
abbrev S2048x256 : Shape := ⟨2, ![2048, 256]⟩
abbrev S1024x16 : Shape := ⟨2, ![1024, 16]⟩
abbrev S2048x16 : Shape := ⟨2, ![2048, 16]⟩
abbrev S1024x2048 : Shape := ⟨2, ![1024, 2048]⟩

abbrev nBuf : Space → Nat
  | .hbm => 49
  | .vmem => 22
  | .smem => 0
  | _ => 0

abbrev bufTy : (tb : Table) → Fin (tcTables nBuf tb) → BufTy
  | .hbm, ⟨0, _⟩ => ⟨S4x2048x4096, .f32⟩
  | .hbm, ⟨1, _⟩ => ⟨S262144x32, .i32⟩
  | .hbm, ⟨2, _⟩ => ⟨S262144, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S16, .f32⟩
  | .hbm, ⟨7, _⟩ => ⟨S4096x2048, .i32⟩
  | .hbm, ⟨8, _⟩ => ⟨S4096x64, .f32⟩
  | .hbm, ⟨9, _⟩ => ⟨S64, .i32⟩
  | .hbm, ⟨10, _⟩ => ⟨S64x1, .i32⟩
  | .hbm, ⟨11, _⟩ => ⟨S2048, .i32⟩
  | .hbm, ⟨12, _⟩ => ⟨S1x2048, .i32⟩
  | .hbm, ⟨13, _⟩ => ⟨S_, .i32⟩
  | .hbm, ⟨14, _⟩ => ⟨S_, .i32⟩
  | .hbm, ⟨15, _⟩ => ⟨S1x2048, .i32⟩
  | .hbm, ⟨16, _⟩ => ⟨S1x2048, .i32⟩
  | .hbm, ⟨17, _⟩ => ⟨S1x2048, .i32⟩
  | .hbm, ⟨18, _⟩ => ⟨S_, .i32⟩
  | .hbm, ⟨19, _⟩ => ⟨S1x2048, .i32⟩
  | .hbm, ⟨20, _⟩ => ⟨S1x2048, .i1⟩
  | .hbm, ⟨21, _⟩ => ⟨S1x2048, .i32⟩
  | .hbm, ⟨22, _⟩ => ⟨S1x2048, .i32⟩
  | .hbm, ⟨23, _⟩ => ⟨S_, .i32⟩
  | .hbm, ⟨24, _⟩ => ⟨S1x2048, .i32⟩
  | .hbm, ⟨25, _⟩ => ⟨S1x2048, .i1⟩
  | .hbm, ⟨26, _⟩ => ⟨S1x2048, .i1⟩
  | .hbm, ⟨27, _⟩ => ⟨S_, .i32⟩
  | .hbm, ⟨28, _⟩ => ⟨S1x2048, .i32⟩
  | .hbm, ⟨29, _⟩ => ⟨S1x2048, .i32⟩
  | .hbm, ⟨30, _⟩ => ⟨S1x2048, .i32⟩
  | .hbm, ⟨31, _⟩ => ⟨S64x2048, .i32⟩
  | .hbm, ⟨32, _⟩ => ⟨S64x2048, .i32⟩
  | .hbm, ⟨33, _⟩ => ⟨S64x2048, .i1⟩
  | .hbm, ⟨34, _⟩ => ⟨S64x2048, .f32⟩
  | .hbm, ⟨35, _⟩ => ⟨S4096x2048, .bf16⟩
  | .hbm, ⟨36, _⟩ => ⟨S4096x2048, .bf16⟩
  | .hbm, ⟨37, _⟩ => ⟨S4096x2048x1, .bf16⟩
  | .hbm, ⟨38, _⟩ => ⟨S4096x2048x1, .bf16⟩
  | .hbm, ⟨39, _⟩ => ⟨S4096x2048x2, .bf16⟩
  | .hbm, ⟨40, _⟩ => ⟨S4096x4096, .bf16⟩
  | .hbm, ⟨41, _⟩ => ⟨S8192x4096, .f32⟩
  | .hbm, ⟨42, _⟩ => ⟨S8192x4096, .bf16⟩
  | .hbm, ⟨43, _⟩ => ⟨S16x4096, .bf16⟩
  | .hbm, ⟨44, _⟩ => ⟨S4096x16, .bf16⟩
  | .hbm, ⟨45, _⟩ => ⟨S8192x16, .f32⟩
  | .hbm, ⟨46, _⟩ => ⟨S1x4096, .f32⟩
  | .hbm, ⟨47, _⟩ => ⟨S8192x4096, .f32⟩
  | .hbm, ⟨48, _⟩ => ⟨S4x2048x4096, .f32⟩
  | .local _ .vmem, ⟨0, _⟩ => ⟨S16, .f32⟩
  | .local _ .vmem, ⟨1, _⟩ => ⟨S64x2048, .f32⟩
  | .local _ .vmem, ⟨2, _⟩ => ⟨S128x2048, .i32⟩
  | .local _ .vmem, ⟨3, _⟩ => ⟨S128x2048, .i32⟩
  | .local _ .vmem, ⟨4, _⟩ => ⟨S128x64, .f32⟩
  | .local _ .vmem, ⟨5, _⟩ => ⟨S128x64, .f32⟩
  | .local _ .vmem, ⟨6, _⟩ => ⟨S128x2048, .bf16⟩
  | .local _ .vmem, ⟨7, _⟩ => ⟨S128x2048, .bf16⟩
  | .local _ .vmem, ⟨8, _⟩ => ⟨S128x2048, .bf16⟩
  | .local _ .vmem, ⟨9, _⟩ => ⟨S128x2048, .bf16⟩
  | .local _ .vmem, ⟨10, _⟩ => ⟨S1024x256, .bf16⟩
  | .local _ .vmem, ⟨11, _⟩ => ⟨S1024x256, .bf16⟩
  | .local _ .vmem, ⟨12, _⟩ => ⟨S2048x256, .bf16⟩
  | .local _ .vmem, ⟨13, _⟩ => ⟨S2048x256, .bf16⟩
  | .local _ .vmem, ⟨14, _⟩ => ⟨S1024x16, .f32⟩
  | .local _ .vmem, ⟨15, _⟩ => ⟨S1024x16, .f32⟩
  | .local _ .vmem, ⟨16, _⟩ => ⟨S2048x16, .f32⟩
  | .local _ .vmem, ⟨17, _⟩ => ⟨S2048x16, .f32⟩
  | .local _ .vmem, ⟨18, _⟩ => ⟨S1x2048, .f32⟩
  | .local _ .vmem, ⟨19, _⟩ => ⟨S1x2048, .f32⟩
  | .local _ .vmem, ⟨20, _⟩ => ⟨S1024x2048, .f32⟩
  | .local _ .vmem, ⟨21, _⟩ => ⟨S1024x2048, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_call0_v8 : Ref sig .tc := ⟨.hbm, 22, rfl⟩
abbrev main_call0_c : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_0 : Ref sig .tc := ⟨.hbm, 27, rfl⟩
abbrev main_call0_v12 : Ref sig .tc := ⟨.hbm, 28, rfl⟩
abbrev main_call0_v13 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11_0 : Ref sig .tc := ⟨.hbm, 35, rfl⟩
abbrev main_v11_1 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19
abbrev cc1_sem5_0 : DmaSem sig := 20
abbrev cc1_sem5_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S64x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x2048 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨3, ![8, 2, 16], ![false, false, false]⟩

def cc1_transform_0 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 2 → Memref sig .tc .vmem S1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false, true]

abbrev stage1_1 : Fin 2 → Memref sig .tc .vmem S2048x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true, true]

abbrev stage1_2 : Fin 2 → Memref sig .tc .vmem S1024x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 2 → Memref sig .tc .vmem S2048x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true, false]

abbrev stage1_4 : Fin 2 → Memref sig .tc .vmem S1x2048 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true, false]

abbrev stage1_5 : Fin 2 → Memref sig .tc .vmem S1024x2048 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S262144x32_S4096x2048 : S262144x32.ShapeCasts S4096x2048
  shapeCasts_S262144_S4096x64 : S262144.ShapeCasts S4096x64
  bcast_S64_S64x1_0 : S64.BroadcastsInDim S64x1 (![0] : Fin 1 → Fin S64x1.rank)
  bcast_S2048_S1x2048_1 : S2048.BroadcastsInDim S1x2048 (![1] : Fin 1 → Fin S1x2048.rank)
  bcast_S_S1x2048 : S_.BroadcastsInDim S1x2048 (![] : Fin 0 → Fin S1x2048.rank)
  bcast_S1x2048_S64x2048_0_1 : S1x2048.BroadcastsInDim S64x2048 (![0, 1] : Fin 2 → Fin S64x2048.rank)
  bcast_S64x1_S64x2048_0_1 : S64x1.BroadcastsInDim S64x2048 (![0, 1] : Fin 2 → Fin S64x2048.rank)
  inb_S128x2048_S128x2048_0_0 : ∀ a, (![0, 0] : Fin 2 → Nat) a + S128x2048.size a ≤ S128x2048.size a
  h_S128x2048 : 0 < S128x2048.numel
  shapeCasts_S128x2048_S128x2048 : S128x2048.ShapeCasts S128x2048
  inb_S128x64_S128x64_0_0 : ∀ a, (![0, 0] : Fin 2 → Nat) a + S128x64.size a ≤ S128x64.size a
  h_S128x64 : 0 < S128x64.numel
  shapeCasts_S128x64_S128x64 : S128x64.ShapeCasts S128x64
  bitsLt_bf16_f32 : FTy.bits .bf16 < FTy.bits .f32
  inb_S64x2048_S64x2048_0_0 : ∀ a, (![0, 0] : Fin 2 → Nat) a + S64x2048.size a ≤ S64x2048.size a
  h_S64x2048 : 0 < S64x2048.numel
  shapeCasts_S64x2048_S64x2048 : S64x2048.ShapeCasts S64x2048
  inb_S16_S1_0 : ∀ a, (![0] : Fin 1 → Nat) a + S1.size a ≤ S16.size a
  h_S1 : 0 < S1.numel
  inpos_S1_p0 : ∀ a, (![0] : Fin 1 → Nat) a < S1.size a
  inb_S16_S1_1 : ∀ a, (![1] : Fin 1 → Nat) a + S1.size a ≤ S16.size a
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  packedbf16_S128x2048_S128x2048_0_0 : (Rect.unit (s := S128x2048) ![0, 0] S128x2048.size inb_S128x2048_S128x2048_0_0).PackedRows (EltTy.packing .bf16)
  bcast_S4096x2048_S4096x2048x1_0_1 : S4096x2048.BroadcastsInDim S4096x2048x1 (![0, 1] : Fin 2 → Fin S4096x2048x1.rank)
  concatenates_S4096x2048x1_S4096x2048x1_S4096x2048x2_d2 : Shape.Concatenates [S4096x2048x1, S4096x2048x1] S4096x2048x2 2
  shapeCasts_S4096x2048x2_S4096x4096 : S4096x2048x2.ShapeCasts S4096x4096
  shapeCasts_S4x2048x4096_S8192x4096 : S4x2048x4096.ShapeCasts S8192x4096
  transposes_S16x4096_S4096x16_1_0 : S16x4096.Transposes [1, 0] S4096x16
  shapeCasts_S4096_S1x4096 : S4096.ShapeCasts S1x4096
  inb_S1024x2048_S1024x2048_0_0 : ∀ a, (![0, 0] : Fin 2 → Nat) a + S1024x2048.size a ≤ S1024x2048.size a
  h_S1024x2048 : 0 < S1024x2048.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  shapeCasts_S1024x2048_S1024x2048 : S1024x2048.ShapeCasts S1024x2048
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2048x16_S2048x16_0_0 : ∀ a, (![0, 0] : Fin 2 → Nat) a + S2048x16.size a ≤ S2048x16.size a
  h_S2048x16 : 0 < S2048x16.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S1024x2048 : S1x2048.Broadcasts S1024x2048
  shapeCasts_S8192x4096_S4x2048x4096 : S8192x4096.ShapeCasts S4x2048x4096
  dot_S128x64_S64x2048_S128x2048_1_0_0_1_n_n_wf : DotDims.WF S128x64 S64x2048 S128x2048 [1] [0] [0] [1] [] []
  dot_S8192x4096_S4096x16_S8192x16_1_0_0_1_n_n_wf : DotDims.WF S8192x4096 S4096x16 S8192x16 [1] [0] [0] [1] [] []
  dot_S1024x256_S2048x256_S1024x2048_1_1_0_0_n_n_wf : DotDims.WF S1024x256 S2048x256 S1024x2048 [1] [1] [0] [0] [] []
  dot_S1024x16_S2048x16_S1024x2048_1_1_0_0_n_n_wf : DotDims.WF S1024x16 S2048x16 S1024x2048 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S16.size a ≤ S16.size a
  hwx0_0 : ∀ i : grid0.Coords, EltTy.bits .f32 = 32 ∨ (Rect.block (s := S16) S16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x2048.size a ≤ S64x2048.size a
  hwx0_1 : ∀ i : grid0.Coords, EltTy.bits .f32 = 32 ∨ (Rect.block (s := S64x2048) S64x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x2048.size a ≤ S4096x2048.size a
  hwx0_2 : ∀ i : grid0.Coords, EltTy.bits .i32 = 32 ∨ (Rect.block (s := S4096x2048) S128x2048.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S4096x64.size a
  hwx0_3 : ∀ i : grid0.Coords, EltTy.bits .f32 = 32 ∨ (Rect.block (s := S4096x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x2048.size a ≤ S4096x2048.size a
  hwx0_4 : ∀ i : grid0.Coords, EltTy.bits .bf16 = 32 ∨ (Rect.block (s := S4096x2048) S128x2048.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x2048.size a ≤ S4096x2048.size a
  hwx0_5 : ∀ i : grid0.Coords, EltTy.bits .bf16 = 32 ∨ (Rect.block (s := S4096x2048) S128x2048.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x256.size a ≤ S8192x4096.size a
  hwx1_0 : ∀ i : grid1.Coords, EltTy.bits .bf16 = 32 ∨ (Rect.block (s := S8192x4096) S1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x256.size a ≤ S4096x4096.size a
  hwx1_1 : ∀ i : grid1.Coords, EltTy.bits .bf16 = 32 ∨ (Rect.block (s := S4096x4096) S2048x256.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x16.size a ≤ S8192x16.size a
  hwx1_2 : ∀ i : grid1.Coords, EltTy.bits .f32 = 32 ∨ (Rect.block (s := S8192x16) S1024x16.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2048x16.size a ≤ S4096x16.size a
  hwx1_3 : ∀ i : grid1.Coords, EltTy.bits .f32 = 32 ∨ (Rect.block (s := S4096x16) S2048x16.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x2048.size a ≤ S1x4096.size a
  hwx1_4 : ∀ i : grid1.Coords, EltTy.bits .f32 = 32 ∨ (Rect.block (s := S1x4096) S1x2048.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1024x2048.size a ≤ S8192x4096.size a
  hwx1_5 : ∀ i : grid1.Coords, EltTy.bits .f32 = 32 ∨ (Rect.block (s := S8192x4096) S1024x2048.size (cc1_transform_5 i) (hinb1_5 i)).WholeWords (EltTy.packing .f32)

variable [Facts₀]

def dot_S128x64_S64x2048_S128x2048_1_0_0_1_n_n : DotDims S128x64 S64x2048 S128x2048 where
  lhsContracting := [1]
  rhsContracting := [0]
  lhsNonContracting := [0]
  rhsNonContracting := [1]
  lhsBatch := []
  rhsBatch := []
  wf := dot_S128x64_S64x2048_S128x2048_1_0_0_1_n_n_wf
def dot_S8192x4096_S4096x16_S8192x16_1_0_0_1_n_n : DotDims S8192x4096 S4096x16 S8192x16 where
  lhsContracting := [1]
  rhsContracting := [0]
  lhsNonContracting := [0]
  rhsNonContracting := [1]
  lhsBatch := []
  rhsBatch := []
  wf := dot_S8192x4096_S4096x16_S8192x16_1_0_0_1_n_n_wf
def dot_S1024x256_S2048x256_S1024x2048_1_1_0_0_n_n : DotDims S1024x256 S2048x256 S1024x2048 where
  lhsContracting := [1]
  rhsContracting := [1]
  lhsNonContracting := [0]
  rhsNonContracting := [0]
  lhsBatch := []
  rhsBatch := []
  wf := dot_S1024x256_S2048x256_S1024x2048_1_1_0_0_n_n_wf
def dot_S1024x16_S2048x16_S1024x2048_1_1_0_0_n_n : DotDims S1024x16 S2048x16 S1024x2048 where
  lhsContracting := [1]
  rhsContracting := [1]
  lhsNonContracting := [0]
  rhsNonContracting := [0]
  lhsBatch := []
  rhsBatch := []
  wf := dot_S1024x16_S2048x16_S1024x2048_1_1_0_0_n_n_wf

abbrev win0_0 : Pipeline.Window sig grid0 :=
  Pipeline.Window.ofSpec (Memref.whole main_cst) S16.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v10) S64x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S128x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11_0) S128x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v11_1) S128x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v17) S1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2048x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x16.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg4) S2048x16.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v21) S1x2048.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v22) S1024x2048.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S4x2048x4096 : Shape := ⟨3, ![4, 2048, 4096]⟩
abbrev S262144x32 : Shape := ⟨2, ![262144, 32]⟩
abbrev S262144 : Shape := ⟨1, ![262144]⟩
abbrev S16x4096 : Shape := ⟨2, ![16, 4096]⟩
abbrev S4096x16 : Shape := ⟨2, ![4096, 16]⟩
abbrev S4096 : Shape := ⟨1, ![4096]⟩
abbrev S16 : Shape := ⟨1, ![16]⟩
abbrev S_ : Shape := ⟨0, ![]⟩
abbrev S262144x32x1 : Shape := ⟨3, ![262144, 32, 1]⟩
abbrev S262144x32x2 : Shape := ⟨3, ![262144, 32, 2]⟩
abbrev S262144x64 : Shape := ⟨2, ![262144, 64]⟩
abbrev S262144x64x1 : Shape := ⟨3, ![262144, 64, 1]⟩
abbrev S262144x1 : Shape := ⟨2, ![262144, 1]⟩
abbrev S4096x4096 : Shape := ⟨2, ![4096, 4096]⟩
abbrev S1x1x4096 : Shape := ⟨3, ![1, 1, 4096]⟩
abbrev S4x2048x16 : Shape := ⟨3, ![4, 2048, 16]⟩

abbrev nBuf : Space → Nat
  | .hbm => 43
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S262144x32, .i32⟩
  | .hbm, ⟨2, _⟩ => ⟨S262144, .f32⟩
  | .hbm, ⟨3, _⟩ => ⟨S16x4096, .f32⟩
  | .hbm, ⟨4, _⟩ => ⟨S4096x16, .f32⟩
  | .hbm, ⟨5, _⟩ => ⟨S4096, .f32⟩
  | .hbm, ⟨6, _⟩ => ⟨S16, .f32⟩
  | .hbm, ⟨7, _⟩ => ⟨S_, .i32⟩
  | .hbm, ⟨8, _⟩ => ⟨S262144x32, .i32⟩
  | .hbm, ⟨9, _⟩ => ⟨S262144x32, .i32⟩
  | .hbm, ⟨10, _⟩ => ⟨S_, .i32⟩
  | .hbm, ⟨11, _⟩ => ⟨S262144x32, .i32⟩
  | .hbm, ⟨12, _⟩ => ⟨S262144x32, .i32⟩
  | .hbm, ⟨13, _⟩ => ⟨S_, .i32⟩
  | .hbm, ⟨14, _⟩ => ⟨S262144x32, .i32⟩
  | .hbm, ⟨15, _⟩ => ⟨S262144x32, .i32⟩
  | .hbm, ⟨16, _⟩ => ⟨S262144x32x1, .i32⟩
  | .hbm, ⟨17, _⟩ => ⟨S262144x32x1, .i32⟩
  | .hbm, ⟨18, _⟩ => ⟨S262144x32x2, .i32⟩
  | .hbm, ⟨19, _⟩ => ⟨S262144x64, .i32⟩
  | .hbm, ⟨20, _⟩ => ⟨S_, .i32⟩
  | .hbm, ⟨21, _⟩ => ⟨S262144x64, .i32⟩
  | .hbm, ⟨22, _⟩ => ⟨S262144x64, .i1⟩
  | .hbm, ⟨23, _⟩ => ⟨S_, .i32⟩
  | .hbm, ⟨24, _⟩ => ⟨S262144x64, .i32⟩
  | .hbm, ⟨25, _⟩ => ⟨S262144x64, .i32⟩
  | .hbm, ⟨26, _⟩ => ⟨S262144x64, .i32⟩
  | .hbm, ⟨27, _⟩ => ⟨S262144x64x1, .i32⟩
  | .hbm, ⟨28, _⟩ => ⟨S262144x64, .f32⟩
  | .hbm, ⟨29, _⟩ => ⟨S262144x1, .f32⟩
  | .hbm, ⟨30, _⟩ => ⟨S262144x64, .f32⟩
  | .hbm, ⟨31, _⟩ => ⟨S262144x64, .f32⟩
  | .hbm, ⟨32, _⟩ => ⟨S4096x4096, .f32⟩
  | .hbm, ⟨33, _⟩ => ⟨S4x2048x4096, .f32⟩
  | .hbm, ⟨34, _⟩ => ⟨S1x1x4096, .f32⟩
  | .hbm, ⟨35, _⟩ => ⟨S4x2048x4096, .f32⟩
  | .hbm, ⟨36, _⟩ => ⟨S4x2048x4096, .f32⟩
  | .hbm, ⟨37, _⟩ => ⟨S4x2048x16, .f32⟩
  | .hbm, ⟨38, _⟩ => ⟨S4x2048x4096, .f32⟩
  | .hbm, ⟨39, _⟩ => ⟨S_, .f32⟩
  | .hbm, ⟨40, _⟩ => ⟨S4x2048x4096, .f32⟩
  | .hbm, ⟨41, _⟩ => ⟨S4x2048x4096, .f32⟩
  | .hbm, ⟨42, _⟩ => ⟨S4x2048x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_c_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]

class Facts₀ : Prop where
  bcast_S_S262144x32 : S_.BroadcastsInDim S262144x32 (![] : Fin 0 → Fin S262144x32.rank)
  bcast_S262144x32_S262144x32x1_0_1 : S262144x32.BroadcastsInDim S262144x32x1 (![0, 1] : Fin 2 → Fin S262144x32x1.rank)
  concatenates_S262144x32x1_S262144x32x1_S262144x32x2_d2 : Shape.Concatenates [S262144x32x1, S262144x32x1] S262144x32x2 2
  shapeCasts_S262144x32x2_S262144x64 : S262144x32x2.ShapeCasts S262144x64
  bcast_S_S262144x64 : S_.BroadcastsInDim S262144x64 (![] : Fin 0 → Fin S262144x64.rank)
  bcast_S262144x64_S262144x64x1_0_1 : S262144x64.BroadcastsInDim S262144x64x1 (![0, 1] : Fin 2 → Fin S262144x64x1.rank)
  bcast_S262144_S262144x1_0 : S262144.BroadcastsInDim S262144x1 (![0] : Fin 1 → Fin S262144x1.rank)
  bcast_S262144x1_S262144x64_0_1 : S262144x1.BroadcastsInDim S262144x64 (![0, 1] : Fin 2 → Fin S262144x64.rank)
  shapeCasts_S262144x64_S4096x4096 : S262144x64.ShapeCasts S4096x4096
  bcast_S4096_S1x1x4096_2 : S4096.BroadcastsInDim S1x1x4096 (![2] : Fin 1 → Fin S1x1x4096.rank)
  bcast_S1x1x4096_S4x2048x4096_0_1_2 : S1x1x4096.BroadcastsInDim S4x2048x4096 (![0, 1, 2] : Fin 3 → Fin S4x2048x4096.rank)
  bcast_S_S4x2048x4096 : S_.BroadcastsInDim S4x2048x4096 (![] : Fin 0 → Fin S4x2048x4096.rank)
  gather_S16_S262144x64x1_S262144x64_n_0_n_n_0_2_1_wf : GatherDims.WF S16 S262144x64x1 S262144x64 [] [0] [] [0] [] 2 ![1]
  dot_S4x2048x4096_S4096x4096_S4x2048x4096_2_1_01_0_n_n_wf : DotDims.WF S4x2048x4096 S4096x4096 S4x2048x4096 [2] [1] [0, 1] [0] [] []
  dot_S4x2048x4096_S16x4096_S4x2048x16_2_1_01_0_n_n_wf : DotDims.WF S4x2048x4096 S16x4096 S4x2048x16 [2] [1] [0, 1] [0] [] []
  dot_S4x2048x16_S4096x16_S4x2048x4096_2_1_01_0_n_n_wf : DotDims.WF S4x2048x16 S4096x16 S4x2048x4096 [2] [1] [0, 1] [0] [] []

variable [Facts₀]

def gather_S16_S262144x64x1_S262144x64_n_0_n_n_0_2_1 : GatherDims S16 S262144x64x1 S262144x64 where
  offsetDims := []
  collapsedSliceDims := [0]
  operandBatchingDims := []
  startIndicesBatchingDims := []
  startIndexMap := [0]
  indexVectorDim := 2
  sliceSizes := ![1]
  wf := gather_S16_S262144x64x1_S262144x64_n_0_n_n_0_2_1_wf
def dot_S4x2048x4096_S4096x4096_S4x2048x4096_2_1_01_0_n_n : DotDims S4x2048x4096 S4096x4096 S4x2048x4096 where
  lhsContracting := [2]
  rhsContracting := [1]
  lhsNonContracting := [0, 1]
  rhsNonContracting := [0]
  lhsBatch := []
  rhsBatch := []
  wf := dot_S4x2048x4096_S4096x4096_S4x2048x4096_2_1_01_0_n_n_wf
def dot_S4x2048x4096_S16x4096_S4x2048x16_2_1_01_0_n_n : DotDims S4x2048x4096 S16x4096 S4x2048x16 where
  lhsContracting := [2]
  rhsContracting := [1]
  lhsNonContracting := [0, 1]
  rhsNonContracting := [0]
  lhsBatch := []
  rhsBatch := []
  wf := dot_S4x2048x4096_S16x4096_S4x2048x16_2_1_01_0_n_n_wf
def dot_S4x2048x16_S4096x16_S4x2048x4096_2_1_01_0_n_n : DotDims S4x2048x16 S4096x16 S4x2048x4096 where
  lhsContracting := [2]
  rhsContracting := [1]
  lhsNonContracting := [0, 1]
  rhsNonContracting := [0]
  lhsBatch := []
  rhsBatch := []
  wf := dot_S4x2048x16_S4096x16_S4x2048x4096_2_1_01_0_n_n_wf

class Facts : Prop extends Facts₀ where

variable [Facts]
-- ==== Proof.Spec.lean ====
/-
  The mathematics shared by both programs, stated once over plain index types (no program is imported).

  A 4-bit block-quantised linear layer with a low-rank correction. The weight matrix W (4096 x 4096) is stored as
  262144 blocks of 64 entries: block `64*o + i/64` holds row `o`, columns `64*(i/64) .. 64*(i/64)+63`; each block is
  32 packed words of two 4-bit codes (the low code first) and one scale. Entry (o, i) is

      W[o, i] = level (code) * scale (64*o + i/64),     code = nibble (i odd) of word (64*o + i/64, (i % 64) / 2)

  where `level` is a fixed table of sixteen numbers. The layer's value at (b, s, o) is

      (sum_i x[b,s,i] * W[o,i] + bias[o]) + (sum_r (sum_i x[b,s,i] * A[r,i]) * B[o,r]) * 2.

  Over the extended reals addition is commutative and associative (with the convention top + bot = bot), so a sum
  may be regrouped and reordered freely; no finiteness of the inputs is used anywhere.
-/
import Idealize.ShloMosaic.PureOps.Ideal
import Idealize.ShloMosaic.PureOps.Ideal.Laws
import Idealize.ShloMosaic.Lib.ValueIdx
import Mathlib.Algebra.BigOperators.Fin
import Mathlib.Data.EReal.Basic

noncomputable section

namespace Nf4

open Idealize.ShloMosaic Idealize.ShloMosaic.ValueIdx

/-- The sixteen levels, as the 32-bit float words both programs carry. -/
def levelBits : Fin 16 → BitVec 32 := fun
  | 0 => 0xBF800000#32 | 1 => 0xBF323A2A#32 | 2 => 0xBF066CF4#32 | 3 => 0xBECA3055#32 | 4 => 0xBE919CE0#32 | 5 => 0xBE3D3C36#32 | 6 => 0xBDBA92A3#32 | 7 => 0x00000000#32
  | 8 => 0x3DA30553#32 | 9 => 0x3E24C2F8#32 | 10 => 0x3E7C01A3#32 | 11 => 0x3EAD013B#32 | 12 => 0x3EE1A36E#32 | 13 => 0x3F10068E#32 | 14 => 0x3F391687#32 | 15 => 0x3F800000#32
  | _ => 0#32

/-- Level `i` as an extended real: the number its word denotes (never evaluated: both sides carry the same word). -/
def level (i : Fin 16) : EReal := Ideal.ofBits .f32 (levelBits i)

/-- The low (`hi = false`) or high (`hi = true`) 4-bit code of a packed word: `w AND 15`, or `(w >> 4) AND 15` with
    the shift arithmetic. -/
def nib (hi : Bool) (w : BitVec 32) : BitVec 32 :=
  if hi then (w.sshiftRight 4) &&& 15#32 else w &&& 15#32

/-- A code is below sixteen. -/
theorem nib_lt (hi : Bool) (w : BitVec 32) : (nib hi w).toNat < 16 := by
  unfold nib
  split <;> (rw [BitVec.toNat_and]; exact Nat.lt_succ_of_le Nat.and_le_right)

/-- The code as an index into the table of levels. -/
def nibIdx (hi : Bool) (w : BitVec 32) : Fin 16 := ⟨(nib hi w).toNat, nib_lt hi w⟩

/-- The block that holds entry (o, i): `64 * o + i / 64`. -/
def blockOf (o i : Fin 4096) : Fin 262144 := ⟨64 * o.val + i.val / 64, by have := o.isLt; have := i.isLt; omega⟩

/-- The word of its block that holds entry (o, i): `(i % 64) / 2`. -/
def wordOf (i : Fin 4096) : Fin 32 := ⟨i.val % 64 / 2, by omega⟩

/-- The block of word column `cb` (of 2048) in row `o`: `64 * o + cb / 32`. -/
def blockOfWord (o : Fin 4096) (cb : Fin 2048) : Fin 262144 := ⟨64 * o.val + cb.val / 32, by have := o.isLt; have := cb.isLt; omega⟩

/-- The position of word column `cb` inside its block: `cb % 32`. -/
def wordInBlock (cb : Fin 2048) : Fin 32 := ⟨cb.val % 32, by omega⟩

/-- Block `k` (of 64) of row `o`: `64 * o + k`. -/
def blockAt (o : Fin 4096) (k : Fin 64) : Fin 262144 := ⟨64 * o.val + k.val, by have := o.isLt; have := k.isLt; omega⟩

/-- Row `2048 * b + s` of the 8192 x 4096 reading of a (4, 2048, 4096) array. -/
def rowOf (b : Fin 4) (s : Fin 2048) : Fin 8192 := ⟨2048 * b.val + s.val, by have := b.isLt; have := s.isLt; omega⟩

/-- The word column that holds column `i`'s code: `i / 2` (the low code for even `i`, the high code for odd). -/
def half (i : Fin 4096) : Fin 2048 := ⟨i.val / 2, by have := i.isLt; omega⟩

/-- The dequantised weight W[o, i]. -/
def weight (pk : (⟨2, ![262144, 32]⟩ : Shape).Idx → BitVec 32) (sc : (⟨1, ![262144]⟩ : Shape).Idx → EReal)
    (o i : Fin 4096) : EReal :=
  level (nibIdx (decide (i.val % 2 = 1)) (pk (ix2 (blockOf o i) (wordOf i)))) * sc (ix1 (blockOf o i))

/-- The factor 2 of the low-rank term, as the float word both programs carry. -/
def two : EReal := Ideal.ofBits .f32 0x40000000#32

/-- The layer's value at (b, s, o), grouped as the reference computes it. -/
def out (x : (⟨3, ![4, 2048, 4096]⟩ : Shape).Idx → EReal) (pk : (⟨2, ![262144, 32]⟩ : Shape).Idx → BitVec 32)
    (sc : (⟨1, ![262144]⟩ : Shape).Idx → EReal) (A : (⟨2, ![16, 4096]⟩ : Shape).Idx → EReal)
    (B : (⟨2, ![4096, 16]⟩ : Shape).Idx → EReal) (bias : (⟨1, ![4096]⟩ : Shape).Idx → EReal)
    (b : Fin 4) (s : Fin 2048) (o : Fin 4096) : EReal :=
  ((∑ i : Fin 4096, x (ix3 b s i) * weight pk sc o i) + bias (ix1 o))
    + (∑ r : Fin 16, (∑ i : Fin 4096, x (ix3 b s i) * A (ix2 r i)) * B (ix2 o r)) * two

/-- Column `256 * kb + j` of a row of 4096, for block `kb` of sixteen and offset `j` inside it. -/
def col (kb : Fin 16) (j : Fin 256) : Fin 4096 := ⟨256 * kb.val + j.val, by have := kb.isLt; have := j.isLt; omega⟩

/-- A sum over 4096 columns is the sum over sixteen blocks of the sums over each block's 256 columns. -/
theorem sum_blocks {M : Type*} [AddCommMonoid M] (f : Fin 4096 → M) :
    ∑ kb : Fin 16, ∑ j : Fin 256, f (col kb j) = ∑ i : Fin 4096, f i := by
  rw [← Finset.sum_product', Finset.univ_product_univ]
  refine Finset.sum_equiv (finProdFinEquiv (m := 16) (n := 256)) (by simp) ?_
  rintro ⟨kb, j⟩ -
  refine congrArg f (Fin.ext ?_)
  simp [col, finProdFinEquiv, Nat.mul_comm, Nat.add_comm]

/-- The kernel's grouping of the last three terms against the reference's: `(s + l) + b = (s + b) + l`. -/
theorem regroup (s l b : EReal) : (s + l) + b = (s + b) + l := add_right_comm s l b

end Nf4

end
-- ==== Proof.Dequant.lean ====
/-
  The first kernel (one grid axis of 32 points, 128 rows of the 4096 x 2048 word matrix per point) writes two
  4096 x 2048 planes: entry (o, cb) of the low plane is the level of the LOW code of word (o, cb) times the row's
  scale for that word's block, and the high plane the same with the HIGH code. The scale is not read directly: the
  kernel multiplies the row's 64 scales by a 64 x 2048 matrix `rep` and reads column `cb` of the product, so the
  plane is stated with that sum; that `rep` is the 0/1 matrix picking block `cb / 32` is a fact about the host
  program, proved elsewhere. The sixteen levels are read from the 16-entry table one scalar at a time and chosen by
  a four-level binary tree of selects on the code's bits, which is a table lookup at the code.
-/
import proofs.«422599_j30227979829337_3_alg».proof.Proof.Gen.KernelIdeal.Frame
import proofs.«422599_j30227979829337_3_alg».proof.Proof.Spec
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.Dequant

open Cert.KernelIdeal Cert.KernelIdeal.Gen

/-! ## The table lookup -/

/-- A word below sixteen is one of the sixteen numerals. -/
theorem code_eq_ofNat (v : BitVec 32) (hv : v.toNat < 16) : ∃ n, n < 16 ∧ v = BitVec.ofNat 32 n :=
  ⟨v.toNat, hv, by simp⟩

/-- The four-level tree of selects on the bits 1, 2, 4, 8 of a code below sixteen is the table at the code: each
    level halves the candidates by one bit, the lowest bit last. By the sixteen cases of the code. -/
theorem tree_lookup {α : Type} (t : Fin 16 → α) (v : BitVec 32) (hv : v.toNat < 16) :
    Scalar.select (IntOp.cmpi .ne (IntOp.andi v 8#32) 0#32)
      (Scalar.select (IntOp.cmpi .ne (IntOp.andi v 4#32) 0#32)
        (Scalar.select (IntOp.cmpi .ne (IntOp.andi v 2#32) 0#32)
          (Scalar.select (IntOp.cmpi .ne (IntOp.andi v 1#32) 0#32) (t 15) (t 14))
          (Scalar.select (IntOp.cmpi .ne (IntOp.andi v 1#32) 0#32) (t 13) (t 12)))
        (Scalar.select (IntOp.cmpi .ne (IntOp.andi v 2#32) 0#32)
          (Scalar.select (IntOp.cmpi .ne (IntOp.andi v 1#32) 0#32) (t 11) (t 10))
          (Scalar.select (IntOp.cmpi .ne (IntOp.andi v 1#32) 0#32) (t 9) (t 8))))
      (Scalar.select (IntOp.cmpi .ne (IntOp.andi v 4#32) 0#32)
        (Scalar.select (IntOp.cmpi .ne (IntOp.andi v 2#32) 0#32)
          (Scalar.select (IntOp.cmpi .ne (IntOp.andi v 1#32) 0#32) (t 7) (t 6))
          (Scalar.select (IntOp.cmpi .ne (IntOp.andi v 1#32) 0#32) (t 5) (t 4)))
        (Scalar.select (IntOp.cmpi .ne (IntOp.andi v 2#32) 0#32)
          (Scalar.select (IntOp.cmpi .ne (IntOp.andi v 1#32) 0#32) (t 3) (t 2))
          (Scalar.select (IntOp.cmpi .ne (IntOp.andi v 1#32) 0#32) (t 1) (t 0))))
      = t ⟨v.toNat, hv⟩ := by
  obtain ⟨n, hn, rfl⟩ := code_eq_ofNat v hv
  interval_cases n <;> rfl

/-! ## The body's pieces at an index -/

theorem off00 : (![0, 0] : Fin 2 → Nat) = fun _ => 0 := funext fun a => by fin_cases a <;> rfl

/-- Entry `k` of the table: the scalar read through the one-element rectangle at offset `k`. -/
theorem table_entry (x0 : Vec Ideal S16 .f32) (k : Nat) (hk : k < 16) (inb : ∀ a, (![k] : Fin 1 → Nat) a + S1.size a ≤ S16.size a)
    (h : ∀ a, (![0] : Fin 1 → Nat) a < S1.size a) :
    extractAt ![0] (View.ld x0 (Rect.unit (s := S16) ![k] S1.size inb)) h = x0 (ix1 ⟨k, hk⟩) := by
  unfold extractAt
  show x0 _ = x0 _
  refine congrArg x0 (funext fun a => ?_)
  match a with
  | ⟨0, _⟩ => exact Fin.ext (by simp)

/-- The low code of a word. -/
theorem lowCode_apply (v : Vec Ideal S128x2048 .i32) (i : S128x2048.Idx) : k0_pay2 v i = Nf4.nib false (v i) := by
  unfold k0_pay2 k0_pay1
  rw [shapeCast_self]
  rfl

/-- The high code of a word: the shift is arithmetic and by four, inside the word's width. -/
theorem highCode_apply (v : Vec Ideal S128x2048 .i32) (i : S128x2048.Idx) : k0_pay3 v i = Nf4.nib true (v i) := by
  unfold k0_pay3 k0_pay1
  rw [shapeCast_self]
  rfl

/-! The product's operand indices, axis by axis: the left operand is read at (row of the result, contraction
    position), the right one at (contraction position, column of the result). -/

theorem dot_lhs_row (j : S128x2048.Idx) (k : dot_S128x64_S64x2048_S128x2048_1_0_0_1_n_n.contr.Idx) :
    (dot_S128x64_S64x2048_S128x2048_1_0_0_1_n_n.lhsIdx j k 0 : ℕ) = j 0 := by
  simp [DotDims.lhsIdx, dot_S128x64_S64x2048_S128x2048_1_0_0_1_n_n]; rfl

theorem dot_lhs_contr (j : S128x2048.Idx) (k : dot_S128x64_S64x2048_S128x2048_1_0_0_1_n_n.contr.Idx) :
    (dot_S128x64_S64x2048_S128x2048_1_0_0_1_n_n.lhsIdx j k 1 : ℕ) = k ⟨0, by decide⟩ :=
  DotDims.lhsIdx_val_of_single _ (cl := 1) rfl j k

theorem dot_rhs_contr (j : S128x2048.Idx) (k : dot_S128x64_S64x2048_S128x2048_1_0_0_1_n_n.contr.Idx) :
    (dot_S128x64_S64x2048_S128x2048_1_0_0_1_n_n.rhsIdx j k 0 : ℕ) = k ⟨0, by decide⟩ :=
  DotDims.rhsIdx_val_of_single _ (cr := 0) rfl j k

theorem dot_rhs_col (j : S128x2048.Idx) (k : dot_S128x64_S64x2048_S128x2048_1_0_0_1_n_n.contr.Idx) :
    (dot_S128x64_S64x2048_S128x2048_1_0_0_1_n_n.rhsIdx j k 1 : ℕ) = j 1 := by
  simp [DotDims.rhsIdx, dot_S128x64_S64x2048_S128x2048_1_0_0_1_n_n]; rfl

/-- The product at (p, q): the row's 64 scales against column `q` of the 64 x 2048 matrix. The narrowing of both
    operands is the identity on extended reals and the accumulator is the zero splat, so it is the plain sum. -/
theorem scaleDot_apply (x3 : Vec Ideal S128x64 .f32) (x1 : Vec Ideal S64x2048 .f32) (p : Fin 128) (q : Fin 2048) :
    k0_pay4 x3 x1 (ix2 p q) = ∑ k : Fin 64, x3 (ix2 p k) * x1 (ix2 k q) := by
  unfold k0_pay4
  simp only [shapeCast_self]
  refine (Ideal.matmul_constant_zero_apply dot_S128x64_S64x2048_S128x2048_1_0_0_1_n_n none _ _ (ix2 p q)).trans ?_
  rw [← Equiv.sum_comp (contrEquiv1 dot_S128x64_S64x2048_S128x2048_1_0_0_1_n_n 64 rfl rfl).symm]
  refine Finset.sum_congr rfl fun k _ => ?_
  rw [truncf_apply, truncf_apply]
  congr 1
  · refine congrArg x3 (funext fun a => Fin.ext ?_)
    match a with
    | ⟨0, _⟩ => exact dot_lhs_row _ _
    | ⟨1, _⟩ => exact (dot_lhs_contr _ _).trans (contrEquiv1_symm_val _ 64 rfl rfl k)
  · refine congrArg x1 (funext fun a => Fin.ext ?_)
    match a with
    | ⟨0, _⟩ => exact (dot_rhs_contr _ _).trans (contrEquiv1_symm_val _ 64 rfl rfl k)
    | ⟨1, _⟩ => exact dot_rhs_col _ _

/-- The low plane's tree of selects at an index, over any vector of codes: where the code at the index is the
    code of a word, the tree reads the table at that code. The sixteen scalars are the table's entries 0 to 15,
    each read through its own one-element rectangle. -/
theorem level_lo (x0 : Vec Ideal S16 .f32) (code : IVec S128x2048 32) (i : S128x2048.Idx) (hi : Bool) (w : BitVec 32)
    (hw : code i = Nf4.nib hi w) :
    select (k0_pay20 code)
      (select (k0_pay19 code)
        (select (k0_pay18 code)
          (select (k0_pay17 code) (k0_pay28 (View.ld x0 r0_18))
            (broadcast S128x2048 (k0_pay16 (View.ld x0 r0_17))))
          (k0_pay27 code (View.ld x0 r0_15) (View.ld x0 r0_16)))
        (select (k0_pay18 code) (k0_pay26 code (k0_pay15 (View.ld x0 r0_13)) (View.ld x0 r0_14))
          (k0_pay25 code (k0_pay13 (View.ld x0 r0_11)) (k0_pay14 (View.ld x0 r0_12)))))
      (select (k0_pay19 code)
        (select (k0_pay18 code)
          (k0_pay24 code (k0_pay11 (View.ld x0 r0_9)) (k0_pay12 (View.ld x0 r0_10)))
          (k0_pay23 code (k0_pay9 (View.ld x0 r0_7)) (k0_pay10 (View.ld x0 r0_8))))
        (select (k0_pay18 code) (k0_pay22 code (k0_pay7 (View.ld x0 r0_5)) (k0_pay8 (View.ld x0 r0_6)))
          (k0_pay21 code (k0_pay5 (View.ld x0 r0_3)) (k0_pay6 (View.ld x0 r0_4)))))
      i = x0 (ix1 (Nf4.nibIdx hi w)) := by
  have hv : (code i).toNat < 16 := by rw [hw]; exact Nf4.nib_lt hi w
  unfold k0_pay5 k0_pay6 k0_pay7 k0_pay8 k0_pay9 k0_pay10 k0_pay11 k0_pay12 k0_pay13 k0_pay14 k0_pay15 k0_pay16
    k0_pay26 k0_pay27 k0_pay28
  rw [table_entry x0 0 (by decide), table_entry x0 1 (by decide), table_entry x0 2 (by decide), table_entry x0 3 (by decide),
    table_entry x0 4 (by decide), table_entry x0 5 (by decide), table_entry x0 6 (by decide), table_entry x0 7 (by decide),
    table_entry x0 8 (by decide), table_entry x0 9 (by decide), table_entry x0 10 (by decide), table_entry x0 11 (by decide),
    table_entry x0 12 (by decide), table_entry x0 13 (by decide), table_entry x0 14 (by decide), table_entry x0 15 (by decide)]
  refine (tree_lookup (fun k => x0 (ix1 k)) (code i) hv).trans ?_
  refine congrArg (fun k => x0 (ix1 k)) (Fin.ext ?_)
  show (code i).toNat = (Nf4.nib hi w).toNat
  rw [hw]

/-- The low plane's block at (p, q): the table at the word's low code, times the row's scales against column `q`.
    One store over the whole block; the narrowing to 16 bits is the identity on extended reals. -/
theorem lo_block (x0 : Vec Ideal S16 .f32) (x1 : Vec Ideal S64x2048 .f32) (x2 : Vec Ideal S128x2048 .i32)
    (x3 : Vec Ideal S128x64 .f32) (p : Fin 128) (q : Fin 2048) :
    out0_4 x0 x1 x2 x3 (ix2 p q)
      = x0 (ix1 (Nf4.nibIdx false (x2 (ix2 p q)))) * ∑ k : Fin 64, x3 (ix2 p k) * x1 (ix2 k q) := by
  unfold out0_4
  rw [View.canon_unit_zero off00]
  simp only [View.ld_unit_zero (S := S128x2048) off00, View.ld_unit_zero (S := S128x64) off00, View.ld_unit_zero (S := S64x2048) off00]
  unfold k0_pay47 k0_pay29
  rw [truncf_apply, mulf_apply, scaleDot_apply]
  congr 1
  exact level_lo x0 (k0_pay2 x2) (ix2 p q) false _ (lowCode_apply x2 _)

/-- The high plane's tree of selects at an index, over any vector of codes: the same lookup, with the bit tests
    written out in place. -/
theorem level_hi (x0 : Vec Ideal S16 .f32) (code : IVec S128x2048 32) (i : S128x2048.Idx) (hi : Bool) (w : BitVec 32)
    (hw : code i = Nf4.nib hi w) :
    select (cmpi CmpIPredicate.ne (andi code (broadcast S128x2048 8#32)) (broadcast S128x2048 0#32))
      (select (cmpi CmpIPredicate.ne (andi code (broadcast S128x2048 4#32)) (broadcast S128x2048 0#32))
        (select (cmpi CmpIPredicate.ne (andi code (broadcast S128x2048 2#32)) (broadcast S128x2048 0#32))
          (select (cmpi CmpIPredicate.ne (andi code k0_pay46) (broadcast S128x2048 0#32))
            (broadcast S128x2048 (k0_pay45 (View.ld x0 r0_18))) (broadcast S128x2048 (k0_pay44 (View.ld x0 r0_17))))
          (select (cmpi CmpIPredicate.ne (andi code k0_pay46) (broadcast S128x2048 0#32))
            (broadcast S128x2048 (k0_pay43 (View.ld x0 r0_16))) (broadcast S128x2048 (k0_pay42 (View.ld x0 r0_15)))))
        (select (cmpi CmpIPredicate.ne (andi code (broadcast S128x2048 2#32)) (broadcast S128x2048 0#32))
          (select (cmpi CmpIPredicate.ne (andi code k0_pay46) (broadcast S128x2048 0#32))
            (broadcast S128x2048 (k0_pay41 (View.ld x0 r0_14))) (broadcast S128x2048 (k0_pay40 (View.ld x0 r0_13))))
          (select (cmpi CmpIPredicate.ne (andi code k0_pay46) (broadcast S128x2048 0#32))
            (broadcast S128x2048 (k0_pay39 (View.ld x0 r0_12))) (broadcast S128x2048 (k0_pay38 (View.ld x0 r0_11))))))
      (select (cmpi CmpIPredicate.ne (andi code (broadcast S128x2048 4#32)) (broadcast S128x2048 0#32))
        (select (cmpi CmpIPredicate.ne (andi code (broadcast S128x2048 2#32)) (broadcast S128x2048 0#32))
          (select (cmpi CmpIPredicate.ne (andi code k0_pay46) (broadcast S128x2048 0#32))
            (broadcast S128x2048 (k0_pay37 (View.ld x0 r0_10))) (broadcast S128x2048 (k0_pay36 (View.ld x0 r0_9))))
          (select (cmpi CmpIPredicate.ne (andi code k0_pay46) (broadcast S128x2048 0#32))
            (broadcast S128x2048 (k0_pay35 (View.ld x0 r0_8))) (broadcast S128x2048 (k0_pay34 (View.ld x0 r0_7)))))
        (select (cmpi CmpIPredicate.ne (andi code (broadcast S128x2048 2#32)) (broadcast S128x2048 0#32))
          (select (cmpi CmpIPredicate.ne (andi code k0_pay46) (broadcast S128x2048 0#32))
            (broadcast S128x2048 (k0_pay33 (View.ld x0 r0_6))) (broadcast S128x2048 (k0_pay32 (View.ld x0 r0_5))))
          (select (cmpi CmpIPredicate.ne (andi code k0_pay46) (broadcast S128x2048 0#32))
            (broadcast S128x2048 (k0_pay31 (View.ld x0 r0_4))) (broadcast S128x2048 (k0_pay30 (View.ld x0 r0_3))))))
      i = x0 (ix1 (Nf4.nibIdx hi w)) := by
  have hv : (code i).toNat < 16 := by rw [hw]; exact Nf4.nib_lt hi w
  unfold k0_pay30 k0_pay31 k0_pay32 k0_pay33 k0_pay34 k0_pay35 k0_pay36 k0_pay37 k0_pay38 k0_pay39 k0_pay40 k0_pay41
    k0_pay42 k0_pay43 k0_pay44 k0_pay45
  rw [table_entry x0 0 (by decide), table_entry x0 1 (by decide), table_entry x0 2 (by decide), table_entry x0 3 (by decide),
    table_entry x0 4 (by decide), table_entry x0 5 (by decide), table_entry x0 6 (by decide), table_entry x0 7 (by decide),
    table_entry x0 8 (by decide), table_entry x0 9 (by decide), table_entry x0 10 (by decide), table_entry x0 11 (by decide),
    table_entry x0 12 (by decide), table_entry x0 13 (by decide), table_entry x0 14 (by decide), table_entry x0 15 (by decide)]
  refine (tree_lookup (fun k => x0 (ix1 k)) (code i) hv).trans ?_
  refine congrArg (fun k => x0 (ix1 k)) (Fin.ext ?_)
  show (code i).toNat = (Nf4.nib hi w).toNat
  rw [hw]

/-- The high plane's block at (p, q): the same with the word's high code. -/
theorem hi_block (x0 : Vec Ideal S16 .f32) (x1 : Vec Ideal S64x2048 .f32) (x2 : Vec Ideal S128x2048 .i32)
    (x3 : Vec Ideal S128x64 .f32) (p : Fin 128) (q : Fin 2048) :
    out0_5 x0 x1 x2 x3 (ix2 p q)
      = x0 (ix1 (Nf4.nibIdx true (x2 (ix2 p q)))) * ∑ k : Fin 64, x3 (ix2 p k) * x1 (ix2 k q) := by
  unfold out0_5
  rw [View.canon_unit_zero off00]
  simp only [View.ld_unit_zero (S := S128x2048) off00, View.ld_unit_zero (S := S128x64) off00, View.ld_unit_zero (S := S64x2048) off00]
  unfold k0_pay48
  rw [truncf_apply, mulf_apply, scaleDot_apply]
  congr 1
  exact level_hi x0 (k0_pay3 x2) (ix2 p q) true _ (highCode_apply x2 _)

variable (V : (c : Dev nD) → (b : Ref sig .tc) → Buf (Elt Ideal) ((c : Thread nD τ).loc b))

/-- Entry (o, cb) of a plane, from the region's four input arrays: the table, the 64 x 2048 matrix, the words, the
    scales. -/
def plane (hi : Bool) (tbl : Vec Ideal S16 .f32) (rep : Vec Ideal S64x2048 .f32) (pk : Vec Ideal S4096x2048 .i32)
    (sc : Vec Ideal S4096x64 .f32) (o : Fin 4096) (cb : Fin 2048) : EReal :=
  tbl (ix1 (Nf4.nibIdx hi (pk (ix2 o cb)))) * ∑ k : Fin 64, sc (ix2 o k) * rep (ix2 k cb)

/-! ## From the blocks to the arrays -/

/-- The block index of each window at each point, decided once over the grid: the table and the 64 x 2048 matrix are
    fetched whole (block 0), the words, the scales and both planes by rows (block `t` of 128 rows, all columns). -/
theorem blockIdx_facts : ∀ t : Fin cfg0.N, win0_0.index t (0 : Fin 1) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- The table's block at any point is the table: an element of a block sits at block index times block size plus
    its own coordinate, and the block index is 0. -/
theorem tbl_blk (c : Dev nD) (t : Fin cfg0.N) (e : Fin 16) : iblk0 V c 0 t (ix1 e) = V c main_cst (ix1 e) := by
  obtain ⟨h0, -⟩ := blockIdx_facts t
  unfold iblk0
  rw [View.read_apply]
  show V c main_cst _ = V c main_cst _
  refine congrArg (V c main_cst) (funext fun a => Fin.ext ?_)
  match a with
  | ⟨0, _⟩ => show win0_0.index t (0 : Fin 1) * 16 + 1 * e.val = e.val; rw [h0]; omega

/-- The 64 x 2048 matrix's block at any point is the matrix. -/
theorem rep_blk (c : Dev nD) (t : Fin cfg0.N) (k : Fin 64) (q : Fin 2048) :
    iblk0 V c 1 t (ix2 k q) = V c main_v10 (ix2 k q) := by
  obtain ⟨-, h0, h1, -⟩ := blockIdx_facts t
  unfold iblk0
  rw [View.read_apply]
  show V c main_v10 _ = V c main_v10 _
  refine congrArg (V c main_v10) (funext fun a => Fin.ext ?_)
  match a with
  | ⟨0, _⟩ => show win0_1.index t (0 : Fin 2) * 64 + 1 * k.val = k.val; rw [h0]; omega
  | ⟨1, _⟩ => show win0_1.index t (1 : Fin 2) * 2048 + 1 * q.val = q.val; rw [h1]; omega

/-- The words' block at point `t` is rows `128 t .. 128 t + 127` of the words. -/
theorem pk_blk (c : Dev nD) (t : Fin cfg0.N) (p : Fin 128) (q : Fin 2048) (o : Fin 4096) (ho : o.val = 128 * t.val + p.val) :
    iblk0 V c 2 t (ix2 p q) = V c main_v0 (ix2 o q) := by
  obtain ⟨-, -, -, h0, h1, -⟩ := blockIdx_facts t
  unfold iblk0
  rw [View.read_apply]
  show V c main_v0 _ = V c main_v0 _
  refine congrArg (V c main_v0) (funext fun a => Fin.ext ?_)
  match a with
  | ⟨0, _⟩ => show win0_2.index t (0 : Fin 2) * 128 + 1 * p.val = o.val; rw [h0, ho]; omega
  | ⟨1, _⟩ => show win0_2.index t (1 : Fin 2) * 2048 + 1 * q.val = q.val; rw [h1]; omega

/-- The scales' block at point `t` is the same rows of the scales. -/
theorem sc_blk (c : Dev nD) (t : Fin cfg0.N) (p : Fin 128) (k : Fin 64) (o : Fin 4096) (ho : o.val = 128 * t.val + p.val) :
    iblk0 V c 3 t (ix2 p k) = V c main_v1 (ix2 o k) := by
  obtain ⟨-, -, -, -, -, h0, h1, -⟩ := blockIdx_facts t
  unfold iblk0
  rw [View.read_apply]
  show V c main_v1 _ = V c main_v1 _
  refine congrArg (V c main_v1) (funext fun a => Fin.ext ?_)
  match a with
  | ⟨0, _⟩ => show win0_3.index t (0 : Fin 2) * 128 + 1 * p.val = o.val; rw [h0, ho]; omega
  | ⟨1, _⟩ => show win0_3.index t (1 : Fin 2) * 64 + 1 * k.val = k.val; rw [h1]; omega

/-- A plane as one function of the array's index. -/
def planeArr (hi : Bool) (c : Dev nD) : S4096x2048.Idx → EReal :=
  fun i => plane hi (V c main_cst) (V c main_v10) (V c main_v0) (V c main_v1) (i 0) (i 1)

/-- Row `128 t + p` is a row of the array. -/
theorem row_lt (t : Fin cfg0.N) (p : Fin 128) : 128 * t.val + p.val < 4096 := by
  have hN : cfg0.N = 32 := N_0
  have := t.isLt; have := p.isLt; omega

/-- What point `t` writes back to the low plane is block `t` of the plane: each input block read where the output's
    rectangle says, then the block's arithmetic at the index. -/
theorem flushed_lo (c : Dev nD) (t : Fin cfg0.N) :
    (dat0 (F := Ideal) V c).flushed 4 t = ((cfg0.win 4).blk t).view.read (Elt Ideal) (planeArr V false c) := by
  show (cfg0.win 4).cut (grid0.coords t) ((dat0 V c).after 4 t) = _
  rw [after0_4]
  refine funext fun (j : S128x2048.Idx) => ?_
  obtain ⟨p, q, rfl⟩ : ∃ (p : Fin 128) (q : Fin 2048), j = ix2 p q := ⟨j 0, j 1, eq_ix2 j⟩
  obtain ⟨-, -, -, -, -, -, -, h0, h1, -⟩ := blockIdx_facts t
  have hemb : ((cfg0.win 4).blk t).view.emb (ix2 p q) = ix2 (⟨128 * t.val + p.val, row_lt t p⟩ : Fin 4096) q := by
    funext a; apply Fin.ext
    match a with
    | ⟨0, _⟩ => show win0_4.index t (0 : Fin 2) * 128 + 1 * p.val = 128 * t.val + p.val; rw [h0]; omega
    | ⟨1, _⟩ => show win0_4.index t (1 : Fin 2) * 2048 + 1 * q.val = q.val; rw [h1]; omega
  rw [View.read_apply]
  show out0_4 (iblk0 V c 0 t) (iblk0 V c 1 t) (iblk0 V c 2 t) (iblk0 V c 3 t) (ix2 p q)
    = planeArr V false c (((cfg0.win 4).blk t).view.emb (ix2 p q))
  rw [hemb]
  refine (lo_block _ _ _ _ p q).trans ?_
  show _ = plane false (V c main_cst) (V c main_v10) (V c main_v0) (V c main_v1) ⟨128 * t.val + p.val, row_lt t p⟩ q
  unfold plane
  rw [pk_blk V c t p q ⟨128 * t.val + p.val, row_lt t p⟩ rfl, tbl_blk]
  congr 1
  refine Finset.sum_congr rfl fun k _ => ?_
  rw [sc_blk V c t p k ⟨128 * t.val + p.val, row_lt t p⟩ rfl, rep_blk]

/-- The same for the high plane. -/
theorem flushed_hi (c : Dev nD) (t : Fin cfg0.N) :
    (dat0 (F := Ideal) V c).flushed 5 t = ((cfg0.win 5).blk t).view.read (Elt Ideal) (planeArr V true c) := by
  show (cfg0.win 5).cut (grid0.coords t) ((dat0 V c).after 5 t) = _
  rw [after0_5]
  refine funext fun (j : S128x2048.Idx) => ?_
  obtain ⟨p, q, rfl⟩ : ∃ (p : Fin 128) (q : Fin 2048), j = ix2 p q := ⟨j 0, j 1, eq_ix2 j⟩
  obtain ⟨-, -, -, -, -, -, -, -, -, h0, h1⟩ := blockIdx_facts t
  have hemb : ((cfg0.win 5).blk t).view.emb (ix2 p q) = ix2 (⟨128 * t.val + p.val, row_lt t p⟩ : Fin 4096) q := by
    funext a; apply Fin.ext
    match a with
    | ⟨0, _⟩ => show win0_5.index t (0 : Fin 2) * 128 + 1 * p.val = 128 * t.val + p.val; rw [h0]; omega
    | ⟨1, _⟩ => show win0_5.index t (1 : Fin 2) * 2048 + 1 * q.val = q.val; rw [h1]; omega
  rw [View.read_apply]
  show out0_5 (iblk0 V c 0 t) (iblk0 V c 1 t) (iblk0 V c 2 t) (iblk0 V c 3 t) (ix2 p q)
    = planeArr V true c (((cfg0.win 5).blk t).view.emb (ix2 p q))
  rw [hemb]
  refine (hi_block _ _ _ _ p q).trans ?_
  show _ = plane true (V c main_cst) (V c main_v10) (V c main_v0) (V c main_v1) ⟨128 * t.val + p.val, row_lt t p⟩ q
  unfold plane
  rw [pk_blk V c t p q ⟨128 * t.val + p.val, row_lt t p⟩ rfl, tbl_blk]
  congr 1
  refine Finset.sum_congr rfl fun k _ => ?_
  rw [sc_blk V c t p k ⟨128 * t.val + p.val, row_lt t p⟩ rfl, rep_blk]

/-- An index of the low plane is in point `t`'s block iff each coordinate is in the block's range on its axis. -/
theorem mem_blk_lo (t : Fin cfg0.N) (i : S4096x2048.Idx) :
    i ∈ ((cfg0.win 4).blk t).view.set ↔ ∀ a : Fin 2, win0_4.index t a * S128x2048.size a ≤ (i a).val
      ∧ (i a).val < win0_4.index t a * S128x2048.size a + S128x2048.size a := by
  show i ∈ ((View.whole main_v11_0).slice (win0_4.rect t)).set ↔ _
  rw [View.set_slice_whole, Rect.mem_set_unit]
  exact Iff.rfl

/-- The same for the high plane. -/
theorem mem_blk_hi (t : Fin cfg0.N) (i : S4096x2048.Idx) :
    i ∈ ((cfg0.win 5).blk t).view.set ↔ ∀ a : Fin 2, win0_5.index t a * S128x2048.size a ≤ (i a).val
      ∧ (i a).val < win0_5.index t a * S128x2048.size a + S128x2048.size a := by
  show i ∈ ((View.whole main_v11_1).slice (win0_5.rect t)).set ↔ _
  rw [View.set_slice_whole, Rect.mem_set_unit]
  exact Iff.rfl

/-- The point that covers row `r`: `r / 128`. -/
def pointOf (i : S4096x2048.Idx) : Fin cfg0.N :=
  ⟨(i 0).val / 128, by have hN : cfg0.N = 32 := N_0; have h : (i 0).val < 4096 := (i 0).isLt; rw [hN]; omega⟩

/-- Every index of the low plane is in the block of the point its row belongs to, and every point writes back. -/
theorem cover_lo (i : S4096x2048.Idx) :
    ∃ t : Fin cfg0.N, (cfg0.win 4).flush t = true ∧ i ∈ ((cfg0.win 4).blk t).view.set := by
  have hi0 : (i 0).val < 4096 := (i 0).isLt
  have hi1 : (i 1).val < 2048 := (i 1).isLt
  refine ⟨pointOf i, flush0_4 _, ?_⟩
  rw [mem_blk_lo]
  obtain ⟨-, -, -, -, -, -, -, h0, h1, -⟩ := blockIdx_facts (pointOf i)
  have ht : (pointOf i).val = (i 0).val / 128 := rfl
  intro a
  match a with
  | ⟨0, _⟩ =>
    show win0_4.index (pointOf i) (0 : Fin 2) * 128 ≤ (i 0).val ∧ (i 0).val < win0_4.index (pointOf i) (0 : Fin 2) * 128 + 128
    rw [h0, ht]; omega
  | ⟨1, _⟩ =>
    show win0_4.index (pointOf i) (1 : Fin 2) * 2048 ≤ (i 1).val ∧ (i 1).val < win0_4.index (pointOf i) (1 : Fin 2) * 2048 + 2048
    rw [h1]; omega

/-- The same for the high plane. -/
theorem cover_hi (i : S4096x2048.Idx) :
    ∃ t : Fin cfg0.N, (cfg0.win 5).flush t = true ∧ i ∈ ((cfg0.win 5).blk t).view.set := by
  have hi0 : (i 0).val < 4096 := (i 0).isLt
  have hi1 : (i 1).val < 2048 := (i 1).isLt
  refine ⟨pointOf i, flush0_5 _, ?_⟩
  rw [mem_blk_hi]
  obtain ⟨-, -, -, -, -, -, -, -, -, h0, h1⟩ := blockIdx_facts (pointOf i)
  have ht : (pointOf i).val = (i 0).val / 128 := rfl
  intro a
  match a with
  | ⟨0, _⟩ =>
    show win0_5.index (pointOf i) (0 : Fin 2) * 128 ≤ (i 0).val ∧ (i 0).val < win0_5.index (pointOf i) (0 : Fin 2) * 128 + 128
    rw [h0, ht]; omega
  | ⟨1, _⟩ =>
    show win0_5.index (pointOf i) (1 : Fin 2) * 2048 ≤ (i 1).val ∧ (i 1).val < win0_5.index (pointOf i) (1 : Fin 2) * 2048 + 2048
    rw [h1]; omega

/-- The low plane after the region's run. -/
theorem arr_lo (c : Dev nD) (o : Fin 4096) (cb : Fin 2048) :
    (dat0 (F := Ideal) V c).arrAt 4 cfg0.N (ix2 o cb)
      = plane false (V c main_cst) (V c main_v10) (V c main_v0) (V c main_v1) o cb :=
  congrFun ((dat0 (F := Ideal) V c).arrAt_eq_of_cover 4 (planeArr V false c) (fun t _ => flushed_lo V c t) cover_lo) (ix2 o cb)

/-- The high plane after the region's run. -/
theorem arr_hi (c : Dev nD) (o : Fin 4096) (cb : Fin 2048) :
    (dat0 (F := Ideal) V c).arrAt 5 cfg0.N (ix2 o cb)
      = plane true (V c main_cst) (V c main_v10) (V c main_v0) (V c main_v1) o cb :=
  congrFun ((dat0 (F := Ideal) V c).arrAt_eq_of_cover 5 (planeArr V true c) (fun t _ => flushed_hi V c t) cover_hi) (ix2 o cb)

end Cert.KernelIdeal.Dequant

end
-- ==== Proof.Matmul.lean ====
/-
  The second kernel is a tiled matrix product over a grid of 8 x 2 x 16 points (row tile, column tile, reduction
  block, the reduction block running fastest). The output tile stays in its buffer across the sixteen reduction
  blocks of one (row tile, column tile): the first block zeroes it, every block adds its 1024 x 2048 partial product
  `x_tile * w_tile^T` over 256 columns, and the last block adds the low-rank term `(xa * b^T) * 2` and the bias row
  before the tile is written back. So entry (r, n) of the result is

      ((0 + d_0 + ... + d_15) + (sum_q xa[r,q] * b[n,q]) * 2) + bias[0,n],   d_kb = sum_{j<256} x[r,256kb+j] * w[n,256kb+j].
-/
import proofs.«422599_j30227979829337_3_alg».proof.Proof.Gen.KernelIdeal.Frame
import proofs.«422599_j30227979829337_3_alg».proof.Proof.Spec
import Idealize.ShloMosaic.Lib.Pipeline.Value
import Idealize.ShloMosaic.PureOps.Ideal.Laws
import Idealize.ShloMosaic.Lib.ValueLayout

noncomputable section

open Idealize.ShloMosaic Idealize.ShloMosaic.TcCoe Idealize.SL.Sem Idealize.ShloMosaic.ValueIdx
open Idealize.ShloMosaic.Pipeline (Dat)

namespace Cert.KernelIdeal.Matmul

open Cert.KernelIdeal Cert.KernelIdeal.Gen

variable (V : (c : Dev nD) → (b : Ref sig .tc) → Buf (Elt Ideal) ((c : Thread nD τ).loc b))

/-- The offsets of every store and load of the body: none. -/
theorem hz : (![0, 0] : Fin 2 → Nat) = fun _ => 0 := funext fun a => by fin_cases a <;> rfl

/-- The first reduction block of a tile: the zero block is stored, read back, and the partial product of the two
    loaded blocks added to it. -/
theorem pieceA (c : Dev nD) (i : grid1.Coords) (a3 : Memref sig .tc .vmem S1024x256 .bf16) (h3 : a3.IsWhole)
    (a4 : Memref sig .tc .vmem S2048x256 .bf16) (h4 : a4.IsWhole) (a5 : Memref sig .tc .vmem S1024x16 .f32) (h5 : a5.IsWhole)
    (a6 : Memref sig .tc .vmem S2048x16 .f32) (h6 : a6.IsWhole) (a7 : Memref sig .tc .vmem S1x2048 .f32) (h7 : a7.IsWhole)
    (a8 : Memref sig .tc .vmem S1024x2048 .f32) (h8 : a8.IsWhole) (hc0 : cond1_0 i) (hc1 : ¬cond1_1 i)
    (x0 : Vec Ideal S1024x256 .bf16) (x1 : Vec Ideal S2048x256 .bf16) (x2 : Vec Ideal S1024x16 .f32)
    (x3 : Vec Ideal S2048x16 .f32) (x4 : Vec Ideal S1x2048 .f32) :
    out1_A_5 (F := Ideal) c i a3 h3 a4 h4 a5 h5 a6 h6 a7 h7 a8 h8 hc0 hc1 x0 x1 x2 x3 x4
      = k1_pay2 x0 x1 (k1_pay1 (F := Ideal)) := by
  unfold out1_A_5
  rw [View.read_writes_eq_canon _ _ _ (cover1_A_5 c i a3 h3 a4 h4 a5 h5 a6 h6 a7 h7 a8 h8 hc0 hc1 x0 x1 x2 x3 x4)]
  unfold kernelRun1_A
  dsimp only
  sl_unfold_words
  rw [View.canon_cons_unit_zero (S := S1024x2048) hz, View.readCov_unit_zero (S := S1024x2048) _ hz]
  simp only [View.readAt_eq_ld, h3.read_unread, h4.read_unread, View.ld_unit_zero (S := S1024x256) hz,
    View.ld_unit_zero (S := S2048x256) hz]

/-- A middle reduction block: the partial product is added to what the tile's buffer holds. -/
theorem pieceB (c : Dev nD) (i : grid1.Coords) (a3 : Memref sig .tc .vmem S1024x256 .bf16) (h3 : a3.IsWhole)
    (a4 : Memref sig .tc .vmem S2048x256 .bf16) (h4 : a4.IsWhole) (a5 : Memref sig .tc .vmem S1024x16 .f32) (h5 : a5.IsWhole)
    (a6 : Memref sig .tc .vmem S2048x16 .f32) (h6 : a6.IsWhole) (a7 : Memref sig .tc .vmem S1x2048 .f32) (h7 : a7.IsWhole)
    (a8 : Memref sig .tc .vmem S1024x2048 .f32) (h8 : a8.IsWhole) (hc0 : ¬cond1_0 i) (hc1 : ¬cond1_1 i)
    (x0 : Vec Ideal S1024x256 .bf16) (x1 : Vec Ideal S2048x256 .bf16) (x2 : Vec Ideal S1024x16 .f32)
    (x3 : Vec Ideal S2048x16 .f32) (x4 : Vec Ideal S1x2048 .f32) (xo : Vec Ideal S1024x2048 .f32) :
    out1_B_5 (F := Ideal) c i a3 h3 a4 h4 a5 h5 a6 h6 a7 h7 a8 h8 hc0 hc1 x0 x1 x2 x3 x4 xo
      = k1_pay2 x0 x1 xo := by
  unfold out1_B_5
  rw [View.read_writes_eq_canon _ _ _ (cover1_B_5 c i a3 h3 a4 h4 a5 h5 a6 h6 a7 h7 a8 h8 hc0 hc1 x0 x1 x2 x3 x4 xo)]
  unfold kernelRun1_B
  dsimp only
  sl_unfold_words
  rw [View.canon_unit_zero hz]
  simp only [View.readAt_eq_ld, h3.read_unread, h4.read_unread, h8.read_unread, View.ld_unit_zero (S := S1024x256) hz,
    View.ld_unit_zero (S := S2048x256) hz, View.ld_unit_zero (S := S1024x2048) hz]

/-- The last reduction block: the partial product is added, the sum read back, and the low-rank term and the bias
    row added to it. -/
theorem pieceC (c : Dev nD) (i : grid1.Coords) (a3 : Memref sig .tc .vmem S1024x256 .bf16) (h3 : a3.IsWhole)
    (a4 : Memref sig .tc .vmem S2048x256 .bf16) (h4 : a4.IsWhole) (a5 : Memref sig .tc .vmem S1024x16 .f32) (h5 : a5.IsWhole)
    (a6 : Memref sig .tc .vmem S2048x16 .f32) (h6 : a6.IsWhole) (a7 : Memref sig .tc .vmem S1x2048 .f32) (h7 : a7.IsWhole)
    (a8 : Memref sig .tc .vmem S1024x2048 .f32) (h8 : a8.IsWhole) (hc0 : ¬cond1_0 i) (hc1 : cond1_1 i)
    (x0 : Vec Ideal S1024x256 .bf16) (x1 : Vec Ideal S2048x256 .bf16) (x2 : Vec Ideal S1024x16 .f32)
    (x3 : Vec Ideal S2048x16 .f32) (x4 : Vec Ideal S1x2048 .f32) (xo : Vec Ideal S1024x2048 .f32) :
    out1_C_5 (F := Ideal) c i a3 h3 a4 h4 a5 h5 a6 h6 a7 h7 a8 h8 hc0 hc1 x0 x1 x2 x3 x4 xo
      = k1_pay3 x2 x3 (k1_pay2 x0 x1 xo) x4 := by
  unfold out1_C_5
  rw [View.read_writes_eq_canon _ _ _ (cover1_C_5 c i a3 h3 a4 h4 a5 h5 a6 h6 a7 h7 a8 h8 hc0 hc1 x0 x1 x2 x3 x4 xo)]
  unfold kernelRun1_C
  dsimp only
  sl_unfold_words
  rw [View.canon_cons_unit_zero (S := S1024x2048) hz, View.readCov_unit_zero (S := S1024x2048) _ hz]
  simp only [View.readAt_eq_ld, h3.read_unread, h4.read_unread, h5.read_unread, h6.read_unread, h7.read_unread,
    h8.read_unread, View.ld_unit_zero (S := S1024x256) hz, View.ld_unit_zero (S := S2048x256) hz,
    View.ld_unit_zero (S := S1024x16) hz, View.ld_unit_zero (S := S2048x16) hz, View.ld_unit_zero (S := S1x2048) hz,
    View.ld_unit_zero (S := S1024x2048) hz]

/-! ## The body's arithmetic at an entry (p, q) of the 1024 x 2048 tile -/

/-- Left operand of the partial product, row axis: the tile's row. -/
theorem lhs_mm_0 (i : S1024x2048.Idx) (k : dot_S1024x256_S2048x256_S1024x2048_1_1_0_0_n_n.contr.Idx) :
    (dot_S1024x256_S2048x256_S1024x2048_1_1_0_0_n_n.lhsIdx i k 0).val = (i 0).val := by
  unfold DotDims.lhsIdx
  rw [dif_neg (show ¬(0 : Fin S1024x256.rank) ∈ dot_S1024x256_S2048x256_S1024x2048_1_1_0_0_n_n.lhsBatch by decide),
    dif_pos (show (0 : Fin S1024x256.rank) ∈ dot_S1024x256_S2048x256_S1024x2048_1_1_0_0_n_n.lhsNonContracting by decide)]
  rfl
/-- Left operand, column axis: the summation index. -/
theorem lhs_mm_1 (i : S1024x2048.Idx) (k : dot_S1024x256_S2048x256_S1024x2048_1_1_0_0_n_n.contr.Idx) :
    (dot_S1024x256_S2048x256_S1024x2048_1_1_0_0_n_n.lhsIdx i k 1).val = (k ⟨0, by decide⟩).val :=
  dot_S1024x256_S2048x256_S1024x2048_1_1_0_0_n_n.lhsIdx_val_of_single rfl i k
/-- Right operand, row axis: the tile's column (the right operand enters transposed). -/
theorem rhs_mm_0 (i : S1024x2048.Idx) (k : dot_S1024x256_S2048x256_S1024x2048_1_1_0_0_n_n.contr.Idx) :
    (dot_S1024x256_S2048x256_S1024x2048_1_1_0_0_n_n.rhsIdx i k 0).val = (i 1).val := by
  unfold DotDims.rhsIdx
  rw [dif_neg (show ¬(0 : Fin S2048x256.rank) ∈ dot_S1024x256_S2048x256_S1024x2048_1_1_0_0_n_n.rhsBatch by decide),
    dif_pos (show (0 : Fin S2048x256.rank) ∈ dot_S1024x256_S2048x256_S1024x2048_1_1_0_0_n_n.rhsNonContracting by decide)]
  rfl
/-- Right operand, column axis: the summation index. -/
theorem rhs_mm_1 (i : S1024x2048.Idx) (k : dot_S1024x256_S2048x256_S1024x2048_1_1_0_0_n_n.contr.Idx) :
    (dot_S1024x256_S2048x256_S1024x2048_1_1_0_0_n_n.rhsIdx i k 1).val = (k ⟨0, by decide⟩).val :=
  dot_S1024x256_S2048x256_S1024x2048_1_1_0_0_n_n.rhsIdx_val_of_single rfl i k

/-- The partial product into the zero accumulator, at (p, q): the sum over the block's 256 columns. -/
theorem mm_apply (x : FVec Ideal S1024x256 .bf16) (w : FVec Ideal S2048x256 .bf16) (p : Fin 1024) (q : Fin 2048) :
    matmul dot_S1024x256_S2048x256_S1024x2048_1_1_0_0_n_n none x w (constant (F := Ideal) S1024x2048 .f32 0x00000000#32) (ix2 p q)
      = ∑ k : Fin 256, x (ix2 p k) * w (ix2 q k) := by
  simp only [matmul]
  rw [Ideal.matmul_constant_zero_apply,
    ← Equiv.sum_comp (contrEquiv1 dot_S1024x256_S2048x256_S1024x2048_1_1_0_0_n_n 256 rfl rfl).symm]
  refine Finset.sum_congr rfl fun k _ => ?_
  have hk := contrEquiv1_symm_val dot_S1024x256_S2048x256_S1024x2048_1_1_0_0_n_n 256 rfl rfl k
  have el : dot_S1024x256_S2048x256_S1024x2048_1_1_0_0_n_n.lhsIdx (ix2 p q)
      ((contrEquiv1 dot_S1024x256_S2048x256_S1024x2048_1_1_0_0_n_n 256 rfl rfl).symm k) = ix2 p k :=
    funext fun a => Fin.ext (by
      match a with
      | ⟨0, _⟩ => exact lhs_mm_0 _ _
      | ⟨1, _⟩ => exact (lhs_mm_1 _ _).trans hk)
  have er : dot_S1024x256_S2048x256_S1024x2048_1_1_0_0_n_n.rhsIdx (ix2 p q)
      ((contrEquiv1 dot_S1024x256_S2048x256_S1024x2048_1_1_0_0_n_n 256 rfl rfl).symm k) = ix2 q k :=
    funext fun a => Fin.ext (by
      match a with
      | ⟨0, _⟩ => exact rhs_mm_0 _ _
      | ⟨1, _⟩ => exact (rhs_mm_1 _ _).trans hk)
  rw [el, er]

/-- The zero block at an entry. -/
theorem pay1_apply (p : Fin 1024) (q : Fin 2048) : k1_pay1 (F := Ideal) (ix2 p q) = 0 := by
  unfold k1_pay1
  exact Ideal.ofBits_zero_f32

/-- The accumulation step at an entry: what the buffer holds plus the partial product's entry. -/
theorem pay2_apply (x : Vec Ideal S1024x256 .bf16) (w : Vec Ideal S2048x256 .bf16) (o : Vec Ideal S1024x2048 .f32)
    (p : Fin 1024) (q : Fin 2048) :
    k1_pay2 x w o (ix2 p q) = o (ix2 p q) + ∑ k : Fin 256, x (ix2 p k) * w (ix2 q k) := by
  unfold k1_pay2
  simp only [shapeCast_self]
  exact congrArg (o (ix2 p q) + ·) (mm_apply x w p q)

/-- Left operand of the low-rank product, row axis: the tile's row. -/
theorem lhs_lr_0 (i : S1024x2048.Idx) (k : dot_S1024x16_S2048x16_S1024x2048_1_1_0_0_n_n.contr.Idx) :
    (dot_S1024x16_S2048x16_S1024x2048_1_1_0_0_n_n.lhsIdx i k 0).val = (i 0).val := by
  unfold DotDims.lhsIdx
  rw [dif_neg (show ¬(0 : Fin S1024x16.rank) ∈ dot_S1024x16_S2048x16_S1024x2048_1_1_0_0_n_n.lhsBatch by decide),
    dif_pos (show (0 : Fin S1024x16.rank) ∈ dot_S1024x16_S2048x16_S1024x2048_1_1_0_0_n_n.lhsNonContracting by decide)]
  rfl
/-- Left operand, column axis: the summation index. -/
theorem lhs_lr_1 (i : S1024x2048.Idx) (k : dot_S1024x16_S2048x16_S1024x2048_1_1_0_0_n_n.contr.Idx) :
    (dot_S1024x16_S2048x16_S1024x2048_1_1_0_0_n_n.lhsIdx i k 1).val = (k ⟨0, by decide⟩).val :=
  dot_S1024x16_S2048x16_S1024x2048_1_1_0_0_n_n.lhsIdx_val_of_single rfl i k
/-- Right operand, row axis: the tile's column. -/
theorem rhs_lr_0 (i : S1024x2048.Idx) (k : dot_S1024x16_S2048x16_S1024x2048_1_1_0_0_n_n.contr.Idx) :
    (dot_S1024x16_S2048x16_S1024x2048_1_1_0_0_n_n.rhsIdx i k 0).val = (i 1).val := by
  unfold DotDims.rhsIdx
  rw [dif_neg (show ¬(0 : Fin S2048x16.rank) ∈ dot_S1024x16_S2048x16_S1024x2048_1_1_0_0_n_n.rhsBatch by decide),
    dif_pos (show (0 : Fin S2048x16.rank) ∈ dot_S1024x16_S2048x16_S1024x2048_1_1_0_0_n_n.rhsNonContracting by decide)]
  rfl
/-- Right operand, column axis: the summation index. -/
theorem rhs_lr_1 (i : S1024x2048.Idx) (k : dot_S1024x16_S2048x16_S1024x2048_1_1_0_0_n_n.contr.Idx) :
    (dot_S1024x16_S2048x16_S1024x2048_1_1_0_0_n_n.rhsIdx i k 1).val = (k ⟨0, by decide⟩).val :=
  dot_S1024x16_S2048x16_S1024x2048_1_1_0_0_n_n.rhsIdx_val_of_single rfl i k

/-- The low-rank product into the zero accumulator, at (p, q): the sum over the sixteen ranks. -/
theorem lr_apply (xa : FVec Ideal S1024x16 .f32) (b : FVec Ideal S2048x16 .f32) (p : Fin 1024) (q : Fin 2048) :
    matmul dot_S1024x16_S2048x16_S1024x2048_1_1_0_0_n_n none xa b (constant (F := Ideal) S1024x2048 .f32 0x00000000#32) (ix2 p q)
      = ∑ k : Fin 16, xa (ix2 p k) * b (ix2 q k) := by
  simp only [matmul]
  rw [Ideal.matmul_constant_zero_apply,
    ← Equiv.sum_comp (contrEquiv1 dot_S1024x16_S2048x16_S1024x2048_1_1_0_0_n_n 16 rfl rfl).symm]
  refine Finset.sum_congr rfl fun k _ => ?_
  have hk := contrEquiv1_symm_val dot_S1024x16_S2048x16_S1024x2048_1_1_0_0_n_n 16 rfl rfl k
  have el : dot_S1024x16_S2048x16_S1024x2048_1_1_0_0_n_n.lhsIdx (ix2 p q)
      ((contrEquiv1 dot_S1024x16_S2048x16_S1024x2048_1_1_0_0_n_n 16 rfl rfl).symm k) = ix2 p k :=
    funext fun a => Fin.ext (by
      match a with
      | ⟨0, _⟩ => exact lhs_lr_0 _ _
      | ⟨1, _⟩ => exact (lhs_lr_1 _ _).trans hk)
  have er : dot_S1024x16_S2048x16_S1024x2048_1_1_0_0_n_n.rhsIdx (ix2 p q)
      ((contrEquiv1 dot_S1024x16_S2048x16_S1024x2048_1_1_0_0_n_n 16 rfl rfl).symm k) = ix2 q k :=
    funext fun a => Fin.ext (by
      match a with
      | ⟨0, _⟩ => exact rhs_lr_0 _ _
      | ⟨1, _⟩ => exact (rhs_lr_1 _ _).trans hk)
  rw [el, er]

/-- The closing step at an entry: the low-rank product's entry times two is added to what the buffer holds, then the
    bias row's entry at the column. -/
theorem pay3_apply (xa : Vec Ideal S1024x16 .f32) (b : Vec Ideal S2048x16 .f32) (o : Vec Ideal S1024x2048 .f32)
    (bias : Vec Ideal S1x2048 .f32) (p : Fin 1024) (q : Fin 2048) :
    k1_pay3 xa b o bias (ix2 p q)
      = (o (ix2 p q) + (∑ k : Fin 16, xa (ix2 p k) * b (ix2 q k)) * Nf4.two) + bias (ix2 (0 : Fin 1) q) := by
  unfold k1_pay3
  simp only [shapeCast_self]
  exact congrArg₂ (· + ·) (congrArg (o (ix2 p q) + ·) (congrArg (· * Nf4.two) (lr_apply xa b p q)))
    (broadcastTo_1b_ab_apply bias broadcasts_S1x2048_S1024x2048 p q)

/-! ## The input blocks, read at the arrays

Point `t` of the grid has row tile `t / 32`, column tile `t / 16 % 2` and reduction block `t % 16`. -/

/-- Every window's block indices at a point, decided over the grid's 256 points. -/
theorem idx_facts : ∀ t : Fin cfg1.N,
    win1_0.index t (0 : Fin 2) = t.val / 32 ∧ win1_0.index t (1 : Fin 2) = t.val % 16
    ∧ win1_1.index t (0 : Fin 2) = t.val / 16 % 2 ∧ win1_1.index t (1 : Fin 2) = t.val % 16
    ∧ win1_2.index t (0 : Fin 2) = t.val / 32 ∧ win1_2.index t (1 : Fin 2) = 0
    ∧ win1_3.index t (0 : Fin 2) = t.val / 16 % 2 ∧ win1_3.index t (1 : Fin 2) = 0
    ∧ win1_4.index t (0 : Fin 2) = 0 ∧ win1_4.index t (1 : Fin 2) = t.val / 16 % 2
    ∧ win1_5.index t (0 : Fin 2) = t.val / 32 ∧ win1_5.index t (1 : Fin 2) = t.val / 16 % 2 :=
  (by decide +kernel : ∀ t : Fin grid1.N, _)

/-- The five input blocks at a point, and the five input arrays. -/
abbrev xblk (c : Dev nD) (t : Fin cfg1.N) : Vec Ideal S1024x256 .bf16 := iblk1 V c 0 t
abbrev wblk (c : Dev nD) (t : Fin cfg1.N) : Vec Ideal S2048x256 .bf16 := iblk1 V c 1 t
abbrev ablk (c : Dev nD) (t : Fin cfg1.N) : Vec Ideal S1024x16 .f32 := iblk1 V c 2 t
abbrev bblk (c : Dev nD) (t : Fin cfg1.N) : Vec Ideal S2048x16 .f32 := iblk1 V c 3 t
abbrev sblk (c : Dev nD) (t : Fin cfg1.N) : Vec Ideal S1x2048 .f32 := iblk1 V c 4 t
abbrev xarr (c : Dev nD) : Vec Ideal S8192x4096 .bf16 := V c main_v17
abbrev warr (c : Dev nD) : Vec Ideal S4096x4096 .bf16 := V c main_v15
abbrev aarr (c : Dev nD) : Vec Ideal S8192x16 .f32 := V c main_v20
abbrev barr (c : Dev nD) : Vec Ideal S4096x16 .f32 := V c main_arg4
abbrev sarr (c : Dev nD) : Vec Ideal S1x4096 .f32 := V c main_v21

/-- The left block at `t` holds rows `1024 (t / 32) ..` and columns `256 (t % 16) ..` of the left array. -/
theorem xblk_apply (c : Dev nD) (t : Fin cfg1.N) (p : Fin 1024) (j : Fin 256) (r : Fin 8192) (k : Fin 4096)
    (hr : r.val = 1024 * (t.val / 32) + p.val) (hk : k.val = 256 * (t.val % 16) + j.val) :
    xblk V c t (ix2 p j) = xarr V c (ix2 r k) := by
  show V c main_v17 (((cfg1.win 0).blk t).view.emb (ix2 p j)) = V c main_v17 (ix2 r k)
  refine congrArg (V c main_v17) (funext fun a => Fin.ext ?_)
  obtain ⟨e0, e1, -⟩ := idx_facts t
  match a with
  | ⟨0, _⟩ => show win1_0.index t (0 : Fin 2) * 1024 + 1 * p.val = r.val; omega
  | ⟨1, _⟩ => show win1_0.index t (1 : Fin 2) * 256 + 1 * j.val = k.val; omega

/-- The right block at `t` holds rows `2048 (t / 16 % 2) ..` and columns `256 (t % 16) ..` of the right array. -/
theorem wblk_apply (c : Dev nD) (t : Fin cfg1.N) (q : Fin 2048) (j : Fin 256) (n : Fin 4096) (k : Fin 4096)
    (hn : n.val = 2048 * (t.val / 16 % 2) + q.val) (hk : k.val = 256 * (t.val % 16) + j.val) :
    wblk V c t (ix2 q j) = warr V c (ix2 n k) := by
  show V c main_v15 (((cfg1.win 1).blk t).view.emb (ix2 q j)) = V c main_v15 (ix2 n k)
  refine congrArg (V c main_v15) (funext fun a => Fin.ext ?_)
  obtain ⟨-, -, e0, e1, -⟩ := idx_facts t
  match a with
  | ⟨0, _⟩ => show win1_1.index t (0 : Fin 2) * 2048 + 1 * q.val = n.val; omega
  | ⟨1, _⟩ => show win1_1.index t (1 : Fin 2) * 256 + 1 * j.val = k.val; omega

/-- The left low-rank block at `t` holds rows `1024 (t / 32) ..` of its array, all sixteen columns. -/
theorem ablk_apply (c : Dev nD) (t : Fin cfg1.N) (p : Fin 1024) (s : Fin 16) (r : Fin 8192)
    (hr : r.val = 1024 * (t.val / 32) + p.val) :
    ablk V c t (ix2 p s) = aarr V c (ix2 r s) := by
  show V c main_v20 (((cfg1.win 2).blk t).view.emb (ix2 p s)) = V c main_v20 (ix2 r s)
  refine congrArg (V c main_v20) (funext fun a => Fin.ext ?_)
  obtain ⟨-, -, -, -, e0, e1, -⟩ := idx_facts t
  match a with
  | ⟨0, _⟩ => show win1_2.index t (0 : Fin 2) * 1024 + 1 * p.val = r.val; omega
  | ⟨1, _⟩ => show win1_2.index t (1 : Fin 2) * 16 + 1 * s.val = s.val; omega

/-- The right low-rank block at `t` holds rows `2048 (t / 16 % 2) ..` of its array, all sixteen columns. -/
theorem bblk_apply (c : Dev nD) (t : Fin cfg1.N) (q : Fin 2048) (s : Fin 16) (n : Fin 4096)
    (hn : n.val = 2048 * (t.val / 16 % 2) + q.val) :
    bblk V c t (ix2 q s) = barr V c (ix2 n s) := by
  show V c main_arg4 (((cfg1.win 3).blk t).view.emb (ix2 q s)) = V c main_arg4 (ix2 n s)
  refine congrArg (V c main_arg4) (funext fun a => Fin.ext ?_)
  obtain ⟨-, -, -, -, -, -, e0, e1, -⟩ := idx_facts t
  match a with
  | ⟨0, _⟩ => show win1_3.index t (0 : Fin 2) * 2048 + 1 * q.val = n.val; omega
  | ⟨1, _⟩ => show win1_3.index t (1 : Fin 2) * 16 + 1 * s.val = s.val; omega

/-- The bias block at `t` holds columns `2048 (t / 16 % 2) ..` of the bias row. -/
theorem sblk_apply (c : Dev nD) (t : Fin cfg1.N) (q : Fin 2048) (n : Fin 4096)
    (hn : n.val = 2048 * (t.val / 16 % 2) + q.val) :
    sblk V c t (ix2 (0 : Fin 1) q) = sarr V c (ix2 (0 : Fin 1) n) := by
  show V c main_v21 (((cfg1.win 4).blk t).view.emb (ix2 (0 : Fin 1) q)) = V c main_v21 (ix2 (0 : Fin 1) n)
  refine congrArg (V c main_v21) (funext fun a => Fin.ext ?_)
  obtain ⟨-, -, -, -, -, -, -, -, e0, e1, -⟩ := idx_facts t
  match a with
  | ⟨0, _⟩ => show win1_4.index t (0 : Fin 2) * 1 + 1 * 0 = 0; omega
  | ⟨1, _⟩ => show win1_4.index t (1 : Fin 2) * 2048 + 1 * q.val = n.val; omega

/-! ## What the tile's buffer holds after each point -/

/-- Reduction block `kb`'s share of entry (r, n): the sum over its 256 columns (nothing past the sixteenth block). -/
def term (c : Dev nD) (r : Fin 8192) (n : Fin 4096) (kb : ℕ) : EReal :=
  if h : kb < 16 then
    ∑ j : Fin 256, xarr V c (ix2 r (Nf4.col ⟨kb, h⟩ j)) * warr V c (ix2 n (Nf4.col ⟨kb, h⟩ j))
  else 0

/-- The partial product of the two blocks at `t` is reduction block `t % 16`'s share. -/
theorem step_eq (c : Dev nD) (t : Fin cfg1.N) (p : Fin 1024) (q : Fin 2048) (r : Fin 8192) (n : Fin 4096)
    (hr : r.val = 1024 * (t.val / 32) + p.val) (hn : n.val = 2048 * (t.val / 16 % 2) + q.val) :
    ∑ j : Fin 256, xblk V c t (ix2 p j) * wblk V c t (ix2 q j) = term V c r n (t.val % 16) := by
  unfold term
  rw [dif_pos (Nat.mod_lt _ (by decide))]
  refine Finset.sum_congr rfl fun j _ => ?_
  rw [xblk_apply V c t p j r (Nf4.col ⟨t.val % 16, Nat.mod_lt _ (by decide)⟩ j) hr rfl,
    wblk_apply V c t q j n (Nf4.col ⟨t.val % 16, Nat.mod_lt _ (by decide)⟩ j) hn rfl]

/-- At the first reduction block of a tile the buffer holds that block's share. -/
theorem atA (c : Dev nD) (t : Fin cfg1.N) (h0 : t.val % 16 = 0) (p : Fin 1024) (q : Fin 2048) (r : Fin 8192)
    (n : Fin 4096) (hr : r.val = 1024 * (t.val / 32) + p.val) (hn : n.val = 2048 * (t.val / 16 % 2) + q.val) :
    outsAt1 V c t.val t.isLt (ix2 p q) = term V c r n 0 := by
  have h1 : ¬t.val % 16 = 15 := by omega
  rw [outsAt1_A V c t h0 h1]
  refine (congrFun (pieceA c (grid1.coords t) (ms1_0 t) (hs1_0 t) (ms1_1 t) (hs1_1 t) (ms1_2 t) (hs1_2 t) (ms1_3 t)
    (hs1_3 t) (ms1_4 t) (hs1_4 t) (ms1_5 t) (hs1_5 t) ((hcond1_0 t).mpr h0) (fun h => h1 ((hcond1_1 t).mp h))
    (xblk V c t) (wblk V c t) (ablk V c t) (bblk V c t) (sblk V c t)) (ix2 p q)).trans ?_
  rw [pay2_apply, pay1_apply, zero_add, step_eq V c t p q r n hr hn, h0]

/-- At a middle reduction block the buffer holds what the point before left plus the block's share. -/
theorem atB (c : Dev nD) (t : Fin cfg1.N) (h0 : ¬t.val % 16 = 0) (h1 : ¬t.val % 16 = 15) (p : Fin 1024)
    (q : Fin 2048) (r : Fin 8192) (n : Fin 4096) (hr : r.val = 1024 * (t.val / 32) + p.val)
    (hn : n.val = 2048 * (t.val / 16 % 2) + q.val) :
    outsAt1 V c t.val t.isLt (ix2 p q)
      = outsAt1 V c (t.val - 1) (Nat.lt_of_le_of_lt (Nat.sub_le _ _) t.isLt) (ix2 p q) + term V c r n (t.val % 16) := by
  rw [outsAt1_B V c t h0 h1]
  refine (congrFun (pieceB c (grid1.coords t) (ms1_0 t) (hs1_0 t) (ms1_1 t) (hs1_1 t) (ms1_2 t) (hs1_2 t) (ms1_3 t)
    (hs1_3 t) (ms1_4 t) (hs1_4 t) (ms1_5 t) (hs1_5 t) (fun h => h0 ((hcond1_0 t).mp h)) (fun h => h1 ((hcond1_1 t).mp h))
    (xblk V c t) (wblk V c t) (ablk V c t) (bblk V c t) (sblk V c t)
    (outsAt1 V c (t.val - 1) (Nat.lt_of_le_of_lt (Nat.sub_le _ _) t.isLt))) (ix2 p q)).trans ?_
  rw [pay2_apply, step_eq V c t p q r n hr hn]

/-- At the last reduction block the buffer holds what the point before left plus the block's share, then the
    low-rank term times two, then the bias entry. -/
theorem atC (c : Dev nD) (t : Fin cfg1.N) (h0 : ¬t.val % 16 = 0) (h1 : t.val % 16 = 15) (p : Fin 1024)
    (q : Fin 2048) (r : Fin 8192) (n : Fin 4096) (hr : r.val = 1024 * (t.val / 32) + p.val)
    (hn : n.val = 2048 * (t.val / 16 % 2) + q.val) :
    outsAt1 V c t.val t.isLt (ix2 p q)
      = ((outsAt1 V c (t.val - 1) (Nat.lt_of_le_of_lt (Nat.sub_le _ _) t.isLt) (ix2 p q) + term V c r n 15)
          + (∑ s : Fin 16, aarr V c (ix2 r s) * barr V c (ix2 n s)) * Nf4.two)
        + sarr V c (ix2 (0 : Fin 1) n) := by
  rw [outsAt1_C V c t h0 h1]
  refine (congrFun (pieceC c (grid1.coords t) (ms1_0 t) (hs1_0 t) (ms1_1 t) (hs1_1 t) (ms1_2 t) (hs1_2 t) (ms1_3 t)
    (hs1_3 t) (ms1_4 t) (hs1_4 t) (ms1_5 t) (hs1_5 t) (fun h => h0 ((hcond1_0 t).mp h)) ((hcond1_1 t).mpr h1)
    (xblk V c t) (wblk V c t) (ablk V c t) (bblk V c t) (sblk V c t)
    (outsAt1 V c (t.val - 1) (Nat.lt_of_le_of_lt (Nat.sub_le _ _) t.isLt))) (ix2 p q)).trans ?_
  rw [pay3_apply, pay2_apply, step_eq V c t p q r n hr hn, h1, sblk_apply V c t q n hn]
  refine congrArg (· + sarr V c (ix2 (0 : Fin 1) n)) (congrArg (_ + ·) (congrArg (· * Nf4.two) ?_))
  exact Finset.sum_congr rfl fun s _ => by rw [ablk_apply V c t p s r hr, bblk_apply V c t q s n hn]

/-- Entry (r, n) of the result over the five input arrays: the sixteen blocks' shares, the low-rank term times
    two, the bias entry. -/
def entry (c : Dev nD) (r : Fin 8192) (n : Fin 4096) : EReal :=
  ((∑ kb : Fin 16, ∑ j : Fin 256, xarr V c (ix2 r (Nf4.col kb j)) * warr V c (ix2 n (Nf4.col kb j)))
      + (∑ s : Fin 16, aarr V c (ix2 r s) * barr V c (ix2 n s)) * Nf4.two)
    + sarr V c (ix2 (0 : Fin 1) n)

/-- THE INVARIANT. After point `n`, entry (p, q) of the tile's buffer is the sum of the shares of the reduction
    blocks `0 .. n % 16` of its entry (r, m) of the result; after a tile's last point it is the whole entry. By
    induction on the point: a point that is not a tile's first continues from the point before, in the same tile. -/
theorem acc_eq (c : Dev nD) : ∀ (n : ℕ) (h : n < cfg1.N) (p : Fin 1024) (q : Fin 2048) (r : Fin 8192) (m : Fin 4096),
    r.val = 1024 * (n / 32) + p.val → m.val = 2048 * (n / 16 % 2) + q.val →
    (¬n % 16 = 15 → outsAt1 V c n h (ix2 p q) = ∑ kb ∈ Finset.range (n % 16 + 1), term V c r m kb)
    ∧ (n % 16 = 15 → outsAt1 V c n h (ix2 p q)
        = entry V c r m)
  | 0, h, p, q, r, m, hr, hm =>
    ⟨fun _ => by
      rw [atA V c ⟨0, h⟩ rfl p q r m hr hm]
      exact (Finset.sum_range_one _).symm, fun h15 => absurd h15 (by decide)⟩
  | n + 1, h, p, q, r, m, hr, hm => by
    by_cases h0 : (n + 1) % 16 = 0
    · refine ⟨fun _ => ?_, fun h15 => absurd h15 (by omega)⟩
      rw [atA V c ⟨n + 1, h⟩ h0 p q r m hr hm, h0]
      exact (Finset.sum_range_one _).symm
    · have ih := acc_eq c n (Nat.lt_of_succ_lt h) p q r m (by omega) (by omega)
      have hprev : ¬n % 16 = 15 := by omega
      have e := ih.1 hprev
      by_cases h1 : (n + 1) % 16 = 15
      · refine ⟨fun hne => absurd h1 hne, fun _ => ?_⟩
        rw [atC V c ⟨n + 1, h⟩ h0 h1 p q r m hr hm]
        show ((outsAt1 V c n _ (ix2 p q) + term V c r m 15) + _) + _ = _
        rw [e]
        have hn14 : n % 16 + 1 = 15 := by omega
        rw [hn14, ← Finset.sum_range_succ (fun kb => term V c r m kb) 15]
        unfold entry
        rw [Finset.sum_range]
        refine congrArg (· + _) (congrArg (· + _) (Finset.sum_congr rfl fun kb _ => ?_))
        unfold term
        rw [dif_pos kb.isLt]
      · refine ⟨fun _ => ?_, fun h15 => absurd h15 h1⟩
        rw [atB V c ⟨n + 1, h⟩ h0 h1 p q r m hr hm]
        show outsAt1 V c n _ (ix2 p q) + term V c r m ((n + 1) % 16) = _
        rw [e]
        have hs : (n + 1) % 16 = n % 16 + 1 := by omega
        rw [hs]
        exact (Finset.sum_range_succ (fun kb => term V c r m kb) (n % 16 + 1)).symm

/-! ## From the tiles to the array -/

/-- The whole result array as one function of the five input arrays. -/
def result (c : Dev nD) : S8192x4096.Idx → EReal :=
  fun i => entry V c (i 0) (i 1)

/-- A tile's last point writes back its tile of `result`. -/
theorem flushed_eq (c : Dev nD) (t : Fin cfg1.N) (hf : (cfg1.win 5).flush t = true) :
    (dat1 (F := Ideal) V c).flushed 5 t = ((cfg1.win 5).blk t).view.read (Elt Ideal) (result V c) := by
  have h15 : t.val % 16 = 15 := (flush1_5 t).mp hf
  show (cfg1.win 5).cut (grid1.coords t) ((dat1 (F := Ideal) V c).after 5 t) = _
  rw [after1_5]
  funext y
  obtain ⟨p, q, rfl⟩ : ∃ (p : Fin 1024) (q : Fin 2048), y = ix2 p q := ⟨y 0, y 1, eq_ix2 y⟩
  show outsAt1 V c t.val t.isLt (ix2 p q) = result V c (((cfg1.win 5).blk t).view.emb (ix2 p q))
  obtain ⟨-, -, -, -, -, -, -, -, -, -, e0, e1⟩ := idx_facts t
  have hN : t.val < 256 := lt_of_lt_of_eq t.isLt N_1
  refine ((acc_eq V c t.val t.isLt p q ⟨1024 * (t.val / 32) + p.val, by omega⟩
    ⟨2048 * (t.val / 16 % 2) + q.val, by omega⟩ rfl rfl).2 h15).trans ?_
  unfold result
  congr 1
  · refine Fin.ext ?_
    show 1024 * (t.val / 32) + p.val = win1_5.index t (0 : Fin 2) * 1024 + 1 * p.val
    omega
  · refine Fin.ext ?_
    show 2048 * (t.val / 16 % 2) + q.val = win1_5.index t (1 : Fin 2) * 2048 + 1 * q.val
    omega

/-- Entry (r, n) lies in the tile of the point with row tile `r / 1024`, column tile `n / 2048` and the last
    reduction block, which writes back. -/
theorem covered (i : S8192x4096.Idx) :
    ∃ t : Fin cfg1.N, (cfg1.win 5).flush t = true ∧ i ∈ ((cfg1.win 5).blk t).view.set := by
  have hi0 : (i 0).val < 8192 := (i 0).isLt
  have hi1 : (i 1).val < 4096 := (i 1).isLt
  have hN : cfg1.N = 256 := N_1
  have ht : 32 * ((i 0).val / 1024) + 16 * ((i 1).val / 2048) + 15 < cfg1.N := by rw [hN]; omega
  refine ⟨⟨_, ht⟩, (flush1_5 ⟨_, ht⟩).mpr (by dsimp only; omega), ?_⟩
  show i ∈ ((View.whole main_v22).slice (win1_5.rect ⟨_, ht⟩)).set
  rw [View.set_slice_whole, Rect.mem_set_unit]
  intro a
  obtain ⟨-, -, -, -, -, -, -, -, -, -, e0, e1⟩ := idx_facts ⟨_, ht⟩
  dsimp only at e0 e1
  match a with
  | ⟨0, _⟩ =>
    show win1_5.index ⟨_, ht⟩ (0 : Fin 2) * 1024 ≤ (i 0).val ∧ (i 0).val < win1_5.index ⟨_, ht⟩ (0 : Fin 2) * 1024 + 1024
    omega
  | ⟨1, _⟩ =>
    show win1_5.index ⟨_, ht⟩ (1 : Fin 2) * 2048 ≤ (i 1).val ∧ (i 1).val < win1_5.index ⟨_, ht⟩ (1 : Fin 2) * 2048 + 2048
    omega

/-- So the result array ends holding `result`: every entry is in some tile that is written back. -/
theorem final (c : Dev nD) : (dat1 (F := Ideal) V c).arrAt 5 cfg1.N = result V c :=
  (dat1 (F := Ideal) V c).arrAt_eq_of_cover 5 (result V c) (flushed_eq V c) covered

/-! ## The statement -/

/-- Entry (r, n) of the product, from the region's five input arrays. -/
def prod (x : Vec Ideal S8192x4096 .bf16) (w : Vec Ideal S4096x4096 .bf16) (xa : Vec Ideal S8192x16 .f32)
    (b : Vec Ideal S4096x16 .f32) (bias : Vec Ideal S1x4096 .f32) (r : Fin 8192) (n : Fin 4096) : EReal :=
  ((∑ kb : Fin 16, ∑ j : Fin 256, x (ix2 r (Nf4.col kb j)) * w (ix2 n (Nf4.col kb j)))
      + (∑ q : Fin 16, xa (ix2 r q) * b (ix2 n q)) * Nf4.two)
    + bias (ix2 (0 : Fin 1) n)

/-- The result array after the region's run. -/
theorem arr_out (c : Dev nD) (r : Fin 8192) (n : Fin 4096) :
    (dat1 (F := Ideal) V c).arrAt 5 cfg1.N (ix2 r n)
      = prod (V c main_v17) (V c main_v15) (V c main_v20) (V c main_arg4) (V c main_v21) r n := by
  rw [final V c]
  rfl

end Cert.KernelIdeal.Matmul

end
-- ==== Proof.KArgs.lean ====
/-
  The program's six argument arrays, each named at its literal type: x (4, 2048, 4096), the packed words
  (262144, 32), the scales (262144), A (16, 4096), B (4096, 16) and the bias (4096), as the launch memory holds them
  on core `c`. Floats are extended reals; a word is 32 bits.
-/
import proofs.«422599_j30227979829337_3_alg».proof.Proof.Gen.KernelIdeal.Frame
import proofs.«422599_j30227979829337_3_alg».proof.Proof.Spec

noncomputable section

open Idealize.ShloMosaic Idealize.ShloMosaic.TcCoe Idealize.SL.Sem Idealize.ShloMosaic.ValueIdx
open Idealize.ShloMosaic.Pipeline (Dat)

namespace Cert.KernelIdeal.Args

open Cert.KernelIdeal

variable (m : (ℓ : Loc nD τ sig) → Buf (Elt Ideal) ℓ)

abbrev x (c : Dev nD) : S4x2048x4096.Idx → EReal := m ((c : Thread nD τ).loc main_arg0)
abbrev pk (c : Dev nD) : S262144x32.Idx → BitVec 32 := m ((c : Thread nD τ).loc main_arg1)
abbrev sc (c : Dev nD) : S262144.Idx → EReal := m ((c : Thread nD τ).loc main_arg2)
abbrev A (c : Dev nD) : S16x4096.Idx → EReal := m ((c : Thread nD τ).loc main_arg3)
abbrev B (c : Dev nD) : S4096x16.Idx → EReal := m ((c : Thread nD τ).loc main_arg4)
abbrev bias (c : Dev nD) : S4096.Idx → EReal := m ((c : Thread nD τ).loc main_arg5)

end Cert.KernelIdeal.Args

end
-- ==== Proof.HostPre.lean ====
/-
  What the first kernel finds in its four input arrays, as functions of the program's arguments. The host
  operations before it build: the table of sixteen levels (a literal); the packed words re-read as 4096 rows of 2048
  (row `o`, word column `cb` is word `cb % 32` of block `64 o + cb / 32`); the scales re-read as 4096 rows of 64;
  and the 64 x 2048 matrix whose entry (k, cb) is 1 when `cb / 32 = k` and 0 otherwise — computed as a 32-bit
  floor division of the column number by 32 (a truncating division, corrected downwards when the signs differ and
  the remainder is not zero; for a column number below 2048 and the divisor 32 no correction applies), compared
  with the row number, the truth value converted to a float.
-/
import proofs.«422599_j30227979829337_3_alg».proof.Proof.Gen.KernelIdeal.Frame
import proofs.«422599_j30227979829337_3_alg».proof.Proof.Spec
import proofs.«422599_j30227979829337_3_alg».proof.Proof.KArgs
import Idealize.ShloMosaic.Lib.Pipeline.Value
import Idealize.ShloMosaic.Lib.StableHlo.Run

noncomputable section

open Idealize.ShloMosaic Idealize.ShloMosaic.TcCoe Idealize.SL.Sem Idealize.ShloMosaic.ValueIdx
open Idealize.ShloMosaic.Pipeline (Dat)

namespace Cert.KernelIdeal.HostPre

open Cert.KernelIdeal Cert.KernelIdeal.Gen

variable (m : (ℓ : Loc nD τ sig) → Buf (Elt Ideal) ℓ) (ρ : Dev nD → PrngReg)

/-! ## The 64 x 2048 matrix: the operations' term, then the term at an index -/

/-- The floor division of a row of words by a scalar word, as the outlined function spells it: the truncating
    quotient, less one where the signs differ and the remainder is not zero. -/
def fdiv (x : S1x2048.Idx → BitVec 32) (d : S_.Idx → BitVec 32) : S1x2048.Idx → BitVec 32 :=
  let q := Host.divsi x (broadcastInDim S1x2048 ![] bcast_S_S1x2048 d)
  select
    (andi (cmpi .ne (signi x) (broadcastInDim S1x2048 ![] bcast_S_S1x2048 (signi d)))
          (cmpi .ne (Host.remsi x (broadcastInDim S1x2048 ![] bcast_S_S1x2048 d))
                    (broadcastInDim S1x2048 ![] bcast_S_S1x2048 (constantI S_ 32 0#32))))
    (subi q (broadcastInDim S1x2048 ![] bcast_S_S1x2048 (constantI S_ 32 1#32)))
    q

/-- The sign of a word read as a two's-complement integer: 0, -1 or 1. -/
def sgnS (x : BitVec 32) : BitVec 32 := if x = 0 then 0 else if x.msb then -1 else 1

/-- One word's floor division: the truncating quotient, less one where the signs differ and the remainder is
    not zero. -/
def fdivS (x d : BitVec 32) : BitVec 32 :=
  Scalar.select
    (IntOp.andi (IntOp.cmpi .ne (sgnS x) (sgnS d)) (IntOp.cmpi .ne (IntOp.remsi .host x d) 0#32))
    (IntOp.subi (IntOp.divsi .host x d) 1#32)
    (IntOp.divsi .host x d)

/-- The row's floor division is the word's, index by index. -/
theorem fdiv_apply (x : S1x2048.Idx → BitVec 32) (d : S_.Idx → BitVec 32) (i : S1x2048.Idx) :
    fdiv x d i = fdivS (x i) (d ix0) := by
  have hb : ∀ y : S_.Idx → BitVec 32, broadcastInDim S1x2048 ![] bcast_S_S1x2048 y i = y ix0 := fun y => by
    unfold broadcastInDim; exact congrArg y (funext fun a => a.elim0)
  unfold fdiv
  show Scalar.select
      (IntOp.andi (IntOp.cmpi .ne (signi x i) (broadcastInDim S1x2048 ![] bcast_S_S1x2048 (signi d) i))
        (IntOp.cmpi .ne (IntOp.remsi .host (x i) (broadcastInDim S1x2048 ![] bcast_S_S1x2048 d i))
          (broadcastInDim S1x2048 ![] bcast_S_S1x2048 (constantI S_ 32 0#32) i)))
      (IntOp.subi (IntOp.divsi .host (x i) (broadcastInDim S1x2048 ![] bcast_S_S1x2048 d i))
        (broadcastInDim S1x2048 ![] bcast_S_S1x2048 (constantI S_ 32 1#32) i))
      (IntOp.divsi .host (x i) (broadcastInDim S1x2048 ![] bcast_S_S1x2048 d i)) = _
  rw [hb, hb, hb, hb]
  rfl

/-- For a column number below 2048 and the divisor 32 the floor division is the plain quotient. -/
theorem fdivS_32 : ∀ j : Fin 2048, fdivS (BitVec.ofNat 32 j.val) 32#32 = BitVec.ofNat 32 (j.val / 32) := by
  decide +kernel

/-- What the last four operations leave in the matrix's buffer, over any contents before them. -/
theorem stageC (V : Valuation τ sig (Elt Ideal)) :
    (StableHlo.after hostOps0_2 V (Proc.devRef .tc main_v10) : S64x2048.Idx → EReal)
      = uitofp (F := Ideal) .f32 (cmpi .eq
          (broadcastInDim S64x2048 ![0, 1] bcast_S1x2048_S64x2048_0_1 (V (Proc.devRef .tc main_v6) : S1x2048.Idx → BitVec 32))
          (broadcastInDim S64x2048 ![0, 1] bcast_S64x1_S64x2048_0_1 (V (Proc.devRef .tc main_v3) : S64x1.Idx → BitVec 32))) := by
  simp only [Gen.hostOps0_2]
  after_results

/-- What the outlined floor division leaves in its result's buffer, over any contents before it. -/
theorem stageB (V : Valuation τ sig (Elt Ideal)) :
    (StableHlo.after hostOps0_1 V (Proc.devRef .tc main_v6) : S1x2048.Idx → BitVec 32)
      = fdiv (V (Proc.devRef .tc main_v5)) (V (Proc.devRef .tc main_c)) := by
  simp only [Gen.hostOps0_1]
  after_results
  rfl

/-- The outlined floor division does not write the column of row numbers. -/
theorem stageB3 (V : Valuation τ sig (Elt Ideal)) :
    StableHlo.after hostOps0_1 V (Proc.devRef .tc main_v3) = V (Proc.devRef .tc main_v3) := by
  simp only [Gen.hostOps0_1]
  after_results

/-- The first eight operations leave the row of column numbers, -/
theorem stageA5 (V : Valuation τ sig (Elt Ideal)) :
    (StableHlo.after hostOps0 V (Proc.devRef .tc main_v5) : S1x2048.Idx → BitVec 32)
      = broadcastInDim S1x2048 ![1] bcast_S2048_S1x2048_1 (iotaInDim S2048 32 0) := by
  simp only [Gen.hostOps0]
  after_results

/-- the column of row numbers, -/
theorem stageA3 (V : Valuation τ sig (Elt Ideal)) :
    (StableHlo.after hostOps0 V (Proc.devRef .tc main_v3) : S64x1.Idx → BitVec 32)
      = broadcastInDim S64x1 ![0] bcast_S64_S64x1_0 (iotaInDim S64 32 0) := by
  simp only [Gen.hostOps0]
  after_results

/-- and the divisor 32. -/
theorem stageAc (V : Valuation τ sig (Elt Ideal)) :
    (StableHlo.after hostOps0 V (Proc.devRef .tc main_c) : S_.Idx → BitVec 32) = constantI S_ 32 32#32 := by
  simp only [Gen.hostOps0]
  after_results

/-- Two words below 2^32 compare equal exactly when the numbers do. -/
theorem cmpi_eq_ofNat (a b : Nat) (ha : a < 4294967296) (hb : b < 4294967296) :
    (IntOp.cmpi .eq (BitVec.ofNat 32 a) (BitVec.ofNat 32 b)).toNat = if a = b then 1 else 0 := by
  unfold IntOp.cmpi
  by_cases h : a = b
  · subst h; simp
  · have hne : BitVec.ofNat 32 a ≠ BitVec.ofNat 32 b := by
      intro e
      have e' := congrArg BitVec.toNat e
      rw [BitVec.toNat_ofNat, BitVec.toNat_ofNat, Nat.mod_eq_of_lt ha, Nat.mod_eq_of_lt hb] at e'
      exact h e'
    simp [h, hne]

/-- The matrix's buffer as one term of the operations. -/
theorem rep_term (c : Dev nD) :
    (V3 m ρ c main_v10 : S64x2048.Idx → EReal)
      = uitofp (F := Ideal) .f32 (cmpi .eq
          (broadcastInDim S64x2048 ![0, 1] bcast_S1x2048_S64x2048_0_1
            (fdiv (broadcastInDim S1x2048 ![1] bcast_S2048_S1x2048_1 (iotaInDim S2048 32 0)) (constantI S_ 32 32#32)))
          (broadcastInDim S64x2048 ![0, 1] bcast_S64x1_S64x2048_0_1
            (broadcastInDim S64x1 ![0] bcast_S64_S64x1_0 (iotaInDim S64 32 0)))) := by
  show (StableHlo.after hostOps0_2 (StableHlo.after hostOps0_1 (StableHlo.after hostOps0 (W0 m ρ c)))
      (Proc.devRef .tc main_v10) : S64x2048.Idx → EReal) = _
  rw [stageC, stageB, stageB3, stageA5, stageA3, stageAc]

/-- The table the first kernel reads holds the sixteen levels. -/
theorem table_eq (c : Dev nD) (i : Fin 16) : V3 m ρ c main_cst (ix1 i) = Nf4.level i := by
  have e : (V3 m ρ c main_cst : S16.Idx → EReal)
      = (fun i => (FloatOps.ofBits (F := Ideal) .f32 (lit0 (S16.rowMajor i)) : EReal)) := by
    dsimp only [Gen.V3, Gen.W3, Gen.W2, Gen.W1]
    simp only [Gen.hostOps0, Gen.hostOps0_1, Gen.hostOps0_2]
    after_results
    rfl
  have hi : S16.rowMajor (ix1 i) = i := Fin.ext (Shape.rowMajor_val_one (ix1 i))
  have ht : lit0 = Nf4.levelBits := rfl
  refine (congrFun e (ix1 i)).trans ?_
  show Ideal.ofBits .f32 (lit0 (S16.rowMajor (ix1 i))) = Ideal.ofBits .f32 (Nf4.levelBits i)
  rw [hi, ht]

/-- The words, as 4096 rows of 2048. -/
theorem words_eq (c : Dev nD) (o : Fin 4096) (cb : Fin 2048) :
    V3 m ρ c main_v0 (ix2 o cb)
      = Args.pk m c (ix2 (Nf4.blockOfWord o cb) (Nf4.wordInBlock cb)) := by
  have e : (V3 m ρ c main_v0 : S4096x2048.Idx → BitVec 32)
      = shapeCast S4096x2048 (Args.pk m c) shapeCasts_S262144x32_S4096x2048 := by
    dsimp only [Gen.V3, Gen.W3, Gen.W2, Gen.W1]
    simp only [Gen.hostOps0, Gen.hostOps0_1, Gen.hostOps0_2]
    after_results
    rfl
  refine (congrFun e (ix2 o cb)).trans ?_
  refine shapeCast_apply _ _ _ _ ?_
  rw [Shape.rowMajor_val_two, Shape.rowMajor_val_two]
  show (64 * o.val + cb.val / 32) * 32 + cb.val % 32 = o.val * 2048 + cb.val
  omega

/-- The scales, as 4096 rows of 64. -/
theorem scales_eq (c : Dev nD) (o : Fin 4096) (k : Fin 64) :
    V3 m ρ c main_v1 (ix2 o k) = Args.sc m c (ix1 (Nf4.blockAt o k)) := by
  have e : (V3 m ρ c main_v1 : S4096x64.Idx → EReal)
      = shapeCast S4096x64 (Args.sc m c) shapeCasts_S262144_S4096x64 := by
    dsimp only [Gen.V3, Gen.W3, Gen.W2, Gen.W1]
    simp only [Gen.hostOps0, Gen.hostOps0_1, Gen.hostOps0_2]
    after_results
    rfl
  refine (congrFun e (ix2 o k)).trans ?_
  refine shapeCast_apply _ _ _ _ ?_
  rw [Shape.rowMajor_val_two, Shape.rowMajor_val_one]
  show 64 * o.val + k.val = o.val * 64 + k.val
  omega

/-- The 64 x 2048 matrix picks, in column `cb`, block `cb / 32`. -/
theorem rep_eq (c : Dev nD) (k : Fin 64) (cb : Fin 2048) :
    V3 m ρ c main_v10 (ix2 k cb) = if cb.val / 32 = k.val then (1 : EReal) else 0 := by
  refine (congrFun (rep_term m ρ c) (ix2 k cb)).trans ?_
  show ((((IntOp.cmpi .eq
      (broadcastInDim S64x2048 ![0, 1] bcast_S1x2048_S64x2048_0_1
            (fdiv (broadcastInDim S1x2048 ![1] bcast_S2048_S1x2048_1 (iotaInDim S2048 32 0)) (constantI S_ 32 32#32)) (ix2 k cb))
      (broadcastInDim S64x2048 ![0, 1] bcast_S64x1_S64x2048_0_1
            (broadcastInDim S64x1 ![0] bcast_S64_S64x1_0 (iotaInDim S64 32 0)) (ix2 k cb))).toNat : ℝ) : EReal)) = _
  rw [broadcastInDim_apply _ bcast_S1x2048_S64x2048_0_1 _ (ix2 k cb) (ix2 (0 : Fin 1) cb)
        (fun a => match a with | ⟨0, _⟩ => rfl | ⟨1, _⟩ => rfl),
      broadcastInDim_apply _ bcast_S64x1_S64x2048_0_1 _ (ix2 k cb) (ix2 k (0 : Fin 1))
        (fun a => match a with | ⟨0, _⟩ => rfl | ⟨1, _⟩ => rfl),
      broadcastInDim_apply _ bcast_S64_S64x1_0 _ (ix2 k (0 : Fin 1)) (ix1 k)
        (fun a => match a with | ⟨0, _⟩ => rfl),
      fdiv_apply,
      broadcastInDim_apply _ bcast_S2048_S1x2048_1 _ (ix2 (0 : Fin 1) cb) (ix1 cb)
        (fun a => match a with | ⟨0, _⟩ => rfl)]
  show ((((IntOp.cmpi .eq (fdivS (BitVec.ofNat 32 cb.val) 32#32) (BitVec.ofNat 32 k.val)).toNat : ℝ) : EReal)) = _
  rw [fdivS_32 cb, cmpi_eq_ofNat _ _ (by have := cb.isLt; omega) (by have := k.isLt; omega)]
  split <;> simp

end Cert.KernelIdeal.HostPre

end
-- ==== Proof.HostMid.lean ====
/-
  What the second kernel finds in its five input arrays, and what the program returns, as functions of the
  arguments and of the two planes the first kernel left. Between the kernels the host interleaves the planes into
  the 4096 x 4096 weight matrix (column `i` is the low plane's column `i / 2` for even `i`, the high plane's for odd
  `i`), re-reads x as 8192 rows (row `2048 b + s`), multiplies it by A transposed (a sum over the 4096 columns),
  and re-reads the bias as one row; the conversions to a narrower float format are the identity on extended reals.
  B is passed as it is. After the second kernel the result is re-read as (4, 2048, 4096).
-/
import proofs.«422599_j30227979829337_3_alg».proof.Proof.Gen.KernelIdeal.Frame
import proofs.«422599_j30227979829337_3_alg».proof.Proof.Spec
import proofs.«422599_j30227979829337_3_alg».proof.Proof.KArgs
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.KernelIdeal.HostMid

open Cert.KernelIdeal Cert.KernelIdeal.Gen

variable (m : (ℓ : Loc nD τ sig) → Buf (Elt Ideal) ℓ) (ρ : Dev nD → PrngReg)

/-! ## Row-major re-readings -/

section Layout
variable {α : Type}

/-- A (4, 2048, 4096) array re-read as 8192 rows: row `2048 b + s` is the row (b, s). -/
theorem rows_apply (x : S4x2048x4096.Idx → α) (h : S4x2048x4096.ShapeCasts S8192x4096)
    (b : Fin 4) (s : Fin 2048) (i : Fin 4096) :
    shapeCast S8192x4096 x h (ix2 (Nf4.rowOf b s) i) = x (ix3 b s i) :=
  shapeCast_apply x h _ _ (by
    rw [Shape.rowMajor_val_three, Shape.rowMajor_val_two]
    show (b.val * 2048 + s.val) * 4096 + i.val = (2048 * b.val + s.val) * 4096 + i.val
    omega)

/-- 8192 rows re-read as (4, 2048, 4096): the entry (b, s, o) is row `2048 b + s`, column `o`. -/
theorem unrows_apply (y : S8192x4096.Idx → α) (h : S8192x4096.ShapeCasts S4x2048x4096)
    (b : Fin 4) (s : Fin 2048) (o : Fin 4096) :
    shapeCast S4x2048x4096 y h (ix3 b s o) = y (ix2 (Nf4.rowOf b s) o) :=
  shapeCast_apply y h _ _ (by
    rw [Shape.rowMajor_val_three, Shape.rowMajor_val_two]
    show (2048 * b.val + s.val) * 4096 + o.val = (b.val * 2048 + s.val) * 4096 + o.val
    omega)

/-- A vector of 4096 re-read as one row. -/
theorem one_row_apply (x : S4096.Idx → α) (h : S4096.ShapeCasts S1x4096) (n : Fin 4096) :
    shapeCast S1x4096 x h (ix2 (0 : Fin 1) n) = x (ix1 n) :=
  shapeCast_apply x h _ _ (by
    rw [Shape.rowMajor_val_one, Shape.rowMajor_val_two]
    show n.val = 0 * 4096 + n.val
    omega)

/-- A (16, 4096) matrix transposed. -/
theorem transposed_apply (a : S16x4096.Idx → α) (h : S16x4096.Transposes [1, 0] S4096x16) (k : Fin 4096) (q : Fin 16) :
    transpose S4096x16 [1, 0] a h (ix2 k q) = a (ix2 q k) :=
  transpose_apply _ a h _ _ fun c => match c with | ⟨0, _⟩ => rfl | ⟨1, _⟩ => rfl

end Layout

section Interleave
variable {α : Type}

/-- A plane given a trailing unit axis reads the plane. -/
theorem unit_axis_apply (p : S4096x2048.Idx → α)
    (hb : S4096x2048.BroadcastsInDim S4096x2048x1 (![0, 1] : Fin 2 → Fin S4096x2048x1.rank))
    (n : Fin 4096) (k : Fin 2048) (u : Fin 1) :
    broadcastInDim S4096x2048x1 ![0, 1] hb p (ix3 n k u) = p (ix2 n k) :=
  broadcastInDim_apply _ hb p _ _ fun a => match a with | ⟨0, _⟩ => rfl | ⟨1, _⟩ => rfl

/-- The two planes joined along a new last axis and re-read as 4096 columns: column `i` is column `i / 2` of the
    low plane for even `i`, of the high plane for odd `i`. -/
theorem interleave_apply (lo hi : S4096x2048.Idx → α)
    (hb : S4096x2048.BroadcastsInDim S4096x2048x1 (![0, 1] : Fin 2 → Fin S4096x2048x1.rank))
    (hc : Shape.Concatenates [S4096x2048x1, S4096x2048x1] S4096x2048x2 2)
    (hs : S4096x2048x2.ShapeCasts S4096x4096) (n i : Fin 4096) :
    shapeCast S4096x4096
        (concatenate S4096x2048x2 2 [⟨S4096x2048x1, broadcastInDim S4096x2048x1 ![0, 1] hb lo⟩,
          ⟨S4096x2048x1, broadcastInDim S4096x2048x1 ![0, 1] hb hi⟩] hc) hs (ix2 n i)
      = if i.val % 2 = 1 then hi (ix2 n (Nf4.half i)) else lo (ix2 n (Nf4.half i)) := by
  -- the entry (n, i) of 4096 x 4096 is the entry (n, i / 2, i % 2) of 4096 x 2048 x 2
  refine (shapeCast_apply _ hs (ix2 n i) (ix3 n (Nf4.half i) (⟨i.val % 2, by omega⟩ : Fin 2)) (by
    rw [Shape.rowMajor_val_three, Shape.rowMajor_val_two]
    show (n.val * 2048 + i.val / 2) * 2 + i.val % 2 = n.val * 4096 + i.val
    omega)).trans ?_
  by_cases hodd : i.val % 2 = 1
  · rw [if_pos hodd]
    refine (concatenate_pair_apply_right (t := S4096x2048x2) (s₁ := S4096x2048x1) (s₂ := S4096x2048x1) 2 _ _ hc
      (ix3 n (Nf4.half i) (⟨i.val % 2, by omega⟩ : Fin 2)) rfl rfl (ix3 n (Nf4.half i) (0 : Fin 1))
      (fun b => match b with
        | ⟨0, _⟩ => fun _ => rfl
        | ⟨1, _⟩ => fun _ => rfl
        | ⟨2, _⟩ => fun h => absurd rfl h)
      (by show 0 + 1 = i.val % 2; omega)).trans ?_
    exact unit_axis_apply hi hb n (Nf4.half i) 0
  · rw [if_neg hodd]
    refine (concatenate_pair_apply_left (t := S4096x2048x2) (s₁ := S4096x2048x1) (s₂ := S4096x2048x1) 2 _ _ hc
      (ix3 n (Nf4.half i) (⟨i.val % 2, by omega⟩ : Fin 2)) rfl (ix3 n (Nf4.half i) (0 : Fin 1))
      (fun b => match b with
        | ⟨0, _⟩ => rfl
        | ⟨1, _⟩ => rfl
        | ⟨2, _⟩ => by show 0 = i.val % 2; omega)).trans ?_
    exact unit_axis_apply lo hb n (Nf4.half i) 0

end Interleave

section Product

/-- The host's product of 8192 rows of 4096 by a 4096 x 16 matrix, on extended reals: the entry (a, q) is the sum
    over the 4096 of the products of the entries. -/
theorem product_apply {φ₁ φ₂ : FTy} (prec : Option ContractPrecision)
    (l : FVec Ideal S8192x4096 φ₁) (r : FVec Ideal S4096x16 φ₂) (a : Fin 8192) (q : Fin 16) :
    Host.dotGeneral dot_S8192x4096_S4096x16_S8192x16_1_0_0_1_n_n prec l r (ix2 a q)
      = ∑ k : Fin 4096, l (ix2 a k) * r (ix2 k q) := by
  show FloatOps.dotGeneral _ prec _ l r (ix2 a q) = _
  rw [Ideal.dotGeneral_apply,
    ← Equiv.sum_comp (contrEquiv1 dot_S8192x4096_S4096x16_S8192x16_1_0_0_1_n_n 4096 rfl rfl).symm]
  refine Finset.sum_congr rfl fun k _ => ?_
  have ck := contrEquiv1_symm_val dot_S8192x4096_S4096x16_S8192x16_1_0_0_1_n_n 4096 rfl rfl k
  have el : dot_S8192x4096_S4096x16_S8192x16_1_0_0_1_n_n.lhsIdx (ix2 a q)
      ((contrEquiv1 _ 4096 rfl rfl).symm k) = ix2 a k := by
    funext ax; apply Fin.ext
    match ax with
    | ⟨0, _⟩ => simp [DotDims.lhsIdx, dot_S8192x4096_S4096x16_S8192x16_1_0_0_1_n_n]; rfl
    | ⟨1, _⟩ => simp [DotDims.lhsIdx, dot_S8192x4096_S4096x16_S8192x16_1_0_0_1_n_n]; exact ck
  have er : dot_S8192x4096_S4096x16_S8192x16_1_0_0_1_n_n.rhsIdx (ix2 a q)
      ((contrEquiv1 _ 4096 rfl rfl).symm k) = ix2 k q := by
    funext ax; apply Fin.ext
    match ax with
    | ⟨0, _⟩ => simp [DotDims.rhsIdx, dot_S8192x4096_S4096x16_S8192x16_1_0_0_1_n_n]; exact ck
    | ⟨1, _⟩ => simp [DotDims.rhsIdx, dot_S8192x4096_S4096x16_S8192x16_1_0_0_1_n_n]; rfl
  rw [el, er]

end Product

section Narrowed

/-- x re-read as 8192 rows and converted to the narrower format, on extended reals. -/
theorem narrowed_rows_apply (x : FVec Ideal S4x2048x4096 .f32) (h : S4x2048x4096.ShapeCasts S8192x4096)
    (hb : FTy.bits .bf16 < FTy.bits .f32) (b : Fin 4) (s : Fin 2048) (i : Fin 4096) :
    truncf .bf16 (shapeCast S8192x4096 x h : FVec Ideal S8192x4096 .f32) hb (ix2 (Nf4.rowOf b s) i) = x (ix3 b s i) :=
  (truncf_apply _ hb _).trans (rows_apply x h b s i)

/-- A converted to the narrower format and transposed, on extended reals. -/
theorem narrowed_transposed_apply (A : FVec Ideal S16x4096 .f32) (h : S16x4096.Transposes [1, 0] S4096x16)
    (hb : FTy.bits .bf16 < FTy.bits .f32) (k : Fin 4096) (q : Fin 16) :
    transpose S4096x16 [1, 0] (truncf .bf16 A hb) h (ix2 k q) = A (ix2 q k) :=
  (transposed_apply (truncf .bf16 A hb) h k q).trans (truncf_apply A hb (ix2 q k))

end Narrowed

/-! ## The arguments between the kernels

No host operation writes an argument and the first kernel's arrays are other buffers, so an argument's buffer holds
at the first kernel's exit what the launch memory holds. -/

/-- A stretch of host operations leaves a buffer none of them writes as it was: each operation writes one buffer,
    another reference. -/
local macro "unwritten" : tactic => `(tactic| (
  refine StableHlo.after_of_forall_not_mem _ _ (List.forall_iff_forall_mem.mp ?_)
  simp only [hostOps0, hostOps0_1, hostOps0_2, hostOps1, hostOps2, List.Forall, StableHlo.nullary_writes, StableHlo.unary_writes,
    StableHlo.binary_writes, StableHlo.ternary_writes, StableHlo.reshape_writes, Finset.mem_singleton]
  repeat' apply And.intro
  all_goals exact StableHlo.devRef_ne_of_ne (by decide)))

theorem W4_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := by unwritten
    _ = W1 m ρ c (Proc.devRef .tc main_arg0) := by unwritten
    _ = W0 m ρ c (Proc.devRef .tc main_arg0) := by unwritten
    _ = m ((c : Thread nD τ).loc main_arg0) := rfl

theorem W4_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := by unwritten
    _ = W1 m ρ c (Proc.devRef .tc main_arg3) := by unwritten
    _ = W0 m ρ c (Proc.devRef .tc main_arg3) := by unwritten
    _ = m ((c : Thread nD τ).loc main_arg3) := rfl

theorem W4_arg4 (c : Dev nD) : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := by unwritten
    _ = W1 m ρ c (Proc.devRef .tc main_arg4) := by unwritten
    _ = W0 m ρ c (Proc.devRef .tc main_arg4) := by unwritten
    _ = m ((c : Thread nD τ).loc main_arg4) := rfl

theorem W4_arg5 (c : Dev nD) : W4 m ρ c (Proc.devRef .tc main_arg5) = m ((c : Thread nD τ).loc main_arg5) :=
  calc W4 m ρ c (Proc.devRef .tc main_arg5)
    _ = W3 m ρ c (Proc.devRef .tc main_arg5) := W4_of_ne m ρ c main_arg5 (by decide)
    _ = W2 m ρ c (Proc.devRef .tc main_arg5) := by unwritten
    _ = W1 m ρ c (Proc.devRef .tc main_arg5) := by unwritten
    _ = W0 m ρ c (Proc.devRef .tc main_arg5) := by unwritten
    _ = m ((c : Thread nD τ).loc main_arg5) := rfl

/-! ## What the second kernel finds, and what the program returns -/

/-- x as 8192 rows. -/
theorem x_eq (c : Dev nD) (b : Fin 4) (s : Fin 2048) (i : Fin 4096) :
    V5 m ρ c main_v17 (ix2 (Nf4.rowOf b s) i) = Args.x m c (ix3 b s i) := by
  dsimp only [Gen.V5, Gen.W5]
  after_results
  rw [W4_arg0]
  exact rows_apply (Args.x m c) shapeCasts_S4x2048x4096_S8192x4096 b s i

/-- The weight matrix: the two planes interleaved, the low plane at the even columns. -/
theorem w_eq (c : Dev nD) (n i : Fin 4096) :
    V5 m ρ c main_v15 (ix2 n i)
      = if i.val % 2 = 1 then V4 m ρ c main_v11_1 (ix2 n (Nf4.half i)) else V4 m ρ c main_v11_0 (ix2 n (Nf4.half i)) := by
  dsimp only [Gen.V5, Gen.W5]
  after_results
  exact interleave_apply (V4 m ρ c main_v11_0) (V4 m ρ c main_v11_1) bcast_S4096x2048_S4096x2048x1_0_1
    concatenates_S4096x2048x1_S4096x2048x1_S4096x2048x2_d2 shapeCasts_S4096x2048x2_S4096x4096 n i

/-- x times A transposed. -/
theorem xa_eq (c : Dev nD) (b : Fin 4) (s : Fin 2048) (q : Fin 16) :
    V5 m ρ c main_v20 (ix2 (Nf4.rowOf b s) q)
      = ∑ i : Fin 4096, Args.x m c (ix3 b s i) * Args.A m c (ix2 q i) := by
  dsimp only [Gen.V5, Gen.W5]
  after_results
  rw [W4_arg0, W4_arg3]
  refine (product_apply (φ₁ := .bf16) (φ₂ := .bf16) none _ _ (Nf4.rowOf b s) q).trans ?_
  refine Finset.sum_congr rfl fun k _ => ?_
  exact congrArg₂ (· * ·)
    (narrowed_rows_apply (Args.x m c) shapeCasts_S4x2048x4096_S8192x4096 bitsLt_bf16_f32 b s k)
    (narrowed_transposed_apply (Args.A m c) transposes_S16x4096_S4096x16_1_0 bitsLt_bf16_f32 k q)

/-- B reaches the second kernel as launched. -/
theorem b_eq (c : Dev nD) (n : Fin 4096) (q : Fin 16) : V5 m ρ c main_arg4 (ix2 n q) = Args.B m c (ix2 n q) := by
  dsimp only [Gen.V5, Gen.W5]
  after_results
  rw [W4_arg4]

/-- The bias as one row. -/
theorem bias_eq (c : Dev nD) (n : Fin 4096) :
    V5 m ρ c main_v21 (ix2 (0 : Fin 1) n) = Args.bias m c (ix1 n) := by
  dsimp only [Gen.V5, Gen.W5]
  after_results
  rw [W4_arg5]
  exact one_row_apply (Args.bias m c) shapeCasts_S4096_S1x4096 n

/-- The program's result is the second kernel's result array re-read as (4, 2048, 4096). -/
theorem out_eq (c : Dev nD) (b : Fin 4) (s : Fin 2048) (o : Fin 4096) :
    W7 m ρ c (Proc.devRef .tc main_v23) (ix3 b s o) = V6 m ρ c main_v22 (ix2 (Nf4.rowOf b s) o) := by
  dsimp only [Gen.W7]
  after_results
  exact unrows_apply (V6 m ρ c main_v22) shapeCasts_S8192x4096_S4x2048x4096 b s o

end Cert.KernelIdeal.HostMid

end
-- ==== Proof.KValue.lean ====
/-
  The kernel program's result, as the specification states it. Reading from the end: the result is the second
  kernel's result array re-read as (4, 2048, 4096); that array is the tiled product of the five arrays the second
  kernel finds; of those, x, A-product, B and the bias are the arguments re-read, and the weight matrix is the two
  planes interleaved; a plane's entry is a level times a sum of the row's scales against a 0/1 column that picks one
  scale. Entry (n, i) of the weight matrix is therefore `level(code) * scale(64 n + i / 64)` with the code the nibble
  (i odd) of word `(i % 64) / 2` of that block: the specification's W[n, i]. Last, sixteen blocks of 256 columns are
  one sum over 4096 columns, and the three last terms are regrouped.
-/
import proofs.«422599_j30227979829337_3_alg».proof.Proof.Dequant
import proofs.«422599_j30227979829337_3_alg».proof.Proof.Matmul
import proofs.«422599_j30227979829337_3_alg».proof.Proof.HostPre
import proofs.«422599_j30227979829337_3_alg».proof.Proof.HostMid
import proofs.«422599_j30227979829337_3_alg».proof.Proof.KArgs

noncomputable section

open Idealize.ShloMosaic Idealize.ShloMosaic.TcCoe Idealize.SL.Sem Idealize.ShloMosaic.ValueIdx
open Idealize.ShloMosaic.Pipeline (Dat)

namespace Cert.KernelIdeal.KValue

open Cert.KernelIdeal Cert.KernelIdeal.Gen

/-- A row's 64 scales against a 0/1 column that is 1 exactly at block `cb / 32`: that block's scale. -/
theorem pick_scale (sck : Vec Ideal S4096x64 .f32) (rep : Vec Ideal S64x2048 .f32) (n : Fin 4096) (cb : Fin 2048)
    (hrep : ∀ k : Fin 64, rep (ix2 k cb) = if cb.val / 32 = k.val then (1 : EReal) else 0) :
    ∑ k : Fin 64, sck (ix2 n k) * rep (ix2 k cb)
      = sck (ix2 n (⟨cb.val / 32, by have := cb.isLt; omega⟩ : Fin 64)) := by
  rw [Finset.sum_eq_single (⟨cb.val / 32, by have := cb.isLt; omega⟩ : Fin 64)]
  · rw [hrep, if_pos rfl, mul_one]
  · intro k _ hne
    rw [hrep, if_neg (fun h => hne (Fin.ext h.symm)), mul_zero]
  · intro h; exact absurd (Finset.mem_univ _) h

/-- A plane's entry, when its four input arrays are the table of levels, the 0/1 matrix, and the words and scales
    re-read by rows. -/
theorem plane_eq (tbl : Vec Ideal S16 .f32) (rep : Vec Ideal S64x2048 .f32) (pkk : Vec Ideal S4096x2048 .i32)
    (sck : Vec Ideal S4096x64 .f32) (pk : S262144x32.Idx → BitVec 32) (sc : S262144.Idx → EReal)
    (hi : Bool) (n : Fin 4096) (cb : Fin 2048)
    (htbl : ∀ i : Fin 16, tbl (ix1 i) = Nf4.level i)
    (hrep : ∀ k : Fin 64, rep (ix2 k cb) = if cb.val / 32 = k.val then (1 : EReal) else 0)
    (hpk : pkk (ix2 n cb) = pk (ix2 (Nf4.blockOfWord n cb) (Nf4.wordInBlock cb)))
    (hsc : ∀ k : Fin 64, sck (ix2 n k) = sc (ix1 (Nf4.blockAt n k))) :
    Dequant.plane hi tbl rep pkk sck n cb
      = Nf4.level (Nf4.nibIdx hi (pk (ix2 (Nf4.blockOfWord n cb) (Nf4.wordInBlock cb))))
          * sc (ix1 (Nf4.blockOfWord n cb)) := by
  unfold Dequant.plane
  rw [pick_scale sck rep n cb hrep, htbl, hpk, hsc]
  rfl

theorem block_half (n i : Fin 4096) : Nf4.blockOfWord n (Nf4.half i) = Nf4.blockOf n i :=
  Fin.ext (by show 64 * n.val + i.val / 2 / 32 = 64 * n.val + i.val / 64; omega)

theorem word_half (i : Fin 4096) : Nf4.wordInBlock (Nf4.half i) = Nf4.wordOf i :=
  Fin.ext (by show i.val / 2 % 32 = i.val % 64 / 2; omega)

/-- The tiled product, when its five input arrays are x re-read by rows, the specification's weight matrix, x times
    A transposed, B and the bias row: the layer's value. Sixteen blocks of 256 columns are one sum over 4096, and the
    low-rank term and the bias change places. -/
theorem prod_eq_out (xk : Vec Ideal S8192x4096 .bf16) (wk : Vec Ideal S4096x4096 .bf16) (xak : Vec Ideal S8192x16 .f32)
    (bk : Vec Ideal S4096x16 .f32) (biask : Vec Ideal S1x4096 .f32)
    (x : S4x2048x4096.Idx → EReal) (pk : S262144x32.Idx → BitVec 32) (sc : S262144.Idx → EReal)
    (A : S16x4096.Idx → EReal) (B : S4096x16.Idx → EReal) (bias : S4096.Idx → EReal)
    (b : Fin 4) (s : Fin 2048) (o : Fin 4096)
    (hx : ∀ i : Fin 4096, xk (ix2 (Nf4.rowOf b s) i) = x (ix3 b s i))
    (hw : ∀ i : Fin 4096, wk (ix2 o i) = Nf4.weight pk sc o i)
    (hxa : ∀ q : Fin 16, xak (ix2 (Nf4.rowOf b s) q) = ∑ i : Fin 4096, x (ix3 b s i) * A (ix2 q i))
    (hb : ∀ q : Fin 16, bk (ix2 o q) = B (ix2 o q))
    (hbias : biask (ix2 (0 : Fin 1) o) = bias (ix1 o)) :
    Matmul.prod xk wk xak bk biask (Nf4.rowOf b s) o = Nf4.out x pk sc A B bias b s o := by
  unfold Matmul.prod Nf4.out
  simp only [hx, hw, hxa, hb, hbias]
  rw [Nf4.sum_blocks (fun i => x (ix3 b s i) * Nf4.weight pk sc o i)]
  exact Nf4.regroup _ _ _

variable (m : (ℓ : Loc nD τ sig) → Buf (Elt Ideal) ℓ) (ρ : Dev nD → PrngReg)

/-- The weight matrix the second kernel finds is the specification's: column `i` is the low plane's column `i / 2`
    for even `i` and the high plane's for odd `i`, and block `64 n + (i / 2) / 32` is block `64 n + i / 64`. -/
theorem weight_eq (c : Dev nD) (n i : Fin 4096) :
    V5 m ρ c main_v15 (ix2 n i) = Nf4.weight (Args.pk m c) (Args.sc m c) n i := by
  rw [HostMid.w_eq]
  unfold Nf4.weight
  have hpl : ∀ hi : Bool, Dequant.plane hi (V3 m ρ c main_cst) (V3 m ρ c main_v10) (V3 m ρ c main_v0) (V3 m ρ c main_v1) n (Nf4.half i)
      = Nf4.level (Nf4.nibIdx hi (Args.pk m c (ix2 (Nf4.blockOf n i) (Nf4.wordOf i)))) * Args.sc m c (ix1 (Nf4.blockOf n i)) := by
    intro hi
    rw [plane_eq _ _ _ _ (Args.pk m c) (Args.sc m c) hi n (Nf4.half i) (HostPre.table_eq m ρ c)
      (fun k => HostPre.rep_eq m ρ c k (Nf4.half i)) (HostPre.words_eq m ρ c n (Nf4.half i))
      (fun k => HostPre.scales_eq m ρ c n k), block_half, word_half]
  by_cases h : i.val % 2 = 1
  · rw [if_pos h, ← hF0 m ρ c 5, Dequant.arr_hi (V3 m ρ) c n (Nf4.half i), hpl true, decide_eq_true h]
  · rw [if_neg h, ← hF0 m ρ c 4, Dequant.arr_lo (V3 m ρ) c n (Nf4.half i), hpl false, decide_eq_false h]

/-- The program's result at (b, s, o) is the layer's value there. -/
theorem kernel_apply (c : Dev nD) (b : Fin 4) (s : Fin 2048) (o : Fin 4096) :
    W7 m ρ c (Proc.devRef .tc main_v23) (ix3 b s o)
      = Nf4.out (Args.x m c) (Args.pk m c) (Args.sc m c) (Args.A m c) (Args.B m c) (Args.bias m c) b s o := by
  rw [HostMid.out_eq, ← hF1 m ρ c 5, Matmul.arr_out (V5 m ρ) c (Nf4.rowOf b s) o]
  exact prod_eq_out _ _ _ _ _ _ _ _ _ _ _ b s o (fun i => HostMid.x_eq m ρ c b s i) (fun i => weight_eq m ρ c o i)
    (fun q => HostMid.xa_eq m ρ c b s q) (fun q => HostMid.b_eq m ρ c o q) (HostMid.bias_eq m ρ c o)

end Cert.KernelIdeal.KValue

end
-- ==== Proof.RefRun.lean ====
/-
  The reference program is 37 host operations in a straight line. Its result is stated here as one term of the six
  argument arrays, built in stages that follow the mathematics:

    codes   the 262144 x 64 array of 4-bit codes: each packed word's low code then its high code, side by side,
    lookup  the level at each code (the index first moved into range the way array indexing does: 16 is added to
            a negative index; then the gather, which clamps into 0..15),
    wmat    the 4096 x 4096 weight matrix: levels times the block's scale, re-read row-major as 4096 rows,
    result  (x . wmat^T + bias) + ((x . A^T) . B^T) * 2.

  Every weakly fair execution of the program terminates with its result buffer at that term and its arguments
  unchanged: the operations are run one after the other, each writing the buffer of its result.
-/
import proofs.«422599_j30227979829337_3_alg».proof.Defs
import proofs.«422599_j30227979829337_3_alg».proof.Proof.Gen.ReferenceIdeal
import Idealize.ShloMosaic.Lib.StableHlo.Run
import Idealize.ShloMosaic.Lib.ValueIdx
import Idealize.ShloMosaic.Lib.Tactic

noncomputable section

open Idealize.ShloMosaic Idealize.ShloMosaic.TcCoe Idealize.SL.Sem Idealize.ShloMosaic.ValueIdx

namespace Cert.ReferenceIdeal.Hand

open Cert.ReferenceIdeal Idealize.ShloMosaic.StableHlo
open Cert.ReferenceIdeal.Facts₀

variable {F : FTy → Type} [FloatOps F]

/-- @main's 37 operations, in order. -/
abbrev ops : List (HloOp τ sig (Elt F)) :=
  [
    nullary main_cst (fun i => FloatOps.ofBits .f32 (lit0 (S16.rowMajor i))),
    nullary main_c (constantI S_ 32 15#32),
    unary main_c main_v0 (broadcastInDim S262144x32 ![] bcast_S_S262144x32 : (⟨S_, .i32⟩ : BufTy).Contents (Elt F) → (⟨S262144x32, .i32⟩ : BufTy).Contents (Elt F)),
    binary main_arg1 main_v0 main_v1 (andi : (⟨S262144x32, .i32⟩ : BufTy).Contents (Elt F) → (⟨S262144x32, .i32⟩ : BufTy).Contents (Elt F) → (⟨S262144x32, .i32⟩ : BufTy).Contents (Elt F)),
    nullary main_c_0 (constantI S_ 32 4#32),
    unary main_c_0 main_v2 (broadcastInDim S262144x32 ![] bcast_S_S262144x32 : (⟨S_, .i32⟩ : BufTy).Contents (Elt F) → (⟨S262144x32, .i32⟩ : BufTy).Contents (Elt F)),
    binary main_arg1 main_v2 main_v3 (Host.shrsi : (⟨S262144x32, .i32⟩ : BufTy).Contents (Elt F) → (⟨S262144x32, .i32⟩ : BufTy).Contents (Elt F) → (⟨S262144x32, .i32⟩ : BufTy).Contents (Elt F)),
    nullary main_c_1 (constantI S_ 32 15#32),
    unary main_c_1 main_v4 (broadcastInDim S262144x32 ![] bcast_S_S262144x32 : (⟨S_, .i32⟩ : BufTy).Contents (Elt F) → (⟨S262144x32, .i32⟩ : BufTy).Contents (Elt F)),
    binary main_v3 main_v4 main_v5 (andi : (⟨S262144x32, .i32⟩ : BufTy).Contents (Elt F) → (⟨S262144x32, .i32⟩ : BufTy).Contents (Elt F) → (⟨S262144x32, .i32⟩ : BufTy).Contents (Elt F)),
    unary main_v1 main_v6 (broadcastInDim S262144x32x1 ![0, 1] bcast_S262144x32_S262144x32x1_0_1 : (⟨S262144x32, .i32⟩ : BufTy).Contents (Elt F) → (⟨S262144x32x1, .i32⟩ : BufTy).Contents (Elt F)),
    unary main_v5 main_v7 (broadcastInDim S262144x32x1 ![0, 1] bcast_S262144x32_S262144x32x1_0_1 : (⟨S262144x32, .i32⟩ : BufTy).Contents (Elt F) → (⟨S262144x32x1, .i32⟩ : BufTy).Contents (Elt F)),
    binary main_v6 main_v7 main_v8 ((fun a b => concatenate S262144x32x2 2 [⟨S262144x32x1, a⟩, ⟨S262144x32x1, b⟩] concatenates_S262144x32x1_S262144x32x1_S262144x32x2_d2) : (⟨S262144x32x1, .i32⟩ : BufTy).Contents (Elt F) → (⟨S262144x32x1, .i32⟩ : BufTy).Contents (Elt F) → (⟨S262144x32x2, .i32⟩ : BufTy).Contents (Elt F)),
    reshape main_v8 main_v9 rfl shapeCasts_S262144x32x2_S262144x64,
    nullary main_c_2 (constantI S_ 32 0#32),
    unary main_c_2 main_v10 (broadcastInDim S262144x64 ![] bcast_S_S262144x64 : (⟨S_, .i32⟩ : BufTy).Contents (Elt F) → (⟨S262144x64, .i32⟩ : BufTy).Contents (Elt F)),
    binary main_v9 main_v10 main_v11 (cmpi .slt : (⟨S262144x64, .i32⟩ : BufTy).Contents (Elt F) → (⟨S262144x64, .i32⟩ : BufTy).Contents (Elt F) → (⟨S262144x64, .i1⟩ : BufTy).Contents (Elt F)),
    nullary main_c_3 (constantI S_ 32 16#32),
    unary main_c_3 main_v12 (broadcastInDim S262144x64 ![] bcast_S_S262144x64 : (⟨S_, .i32⟩ : BufTy).Contents (Elt F) → (⟨S262144x64, .i32⟩ : BufTy).Contents (Elt F)),
    binary main_v9 main_v12 main_v13 (addi : (⟨S262144x64, .i32⟩ : BufTy).Contents (Elt F) → (⟨S262144x64, .i32⟩ : BufTy).Contents (Elt F) → (⟨S262144x64, .i32⟩ : BufTy).Contents (Elt F)),
    ternary main_v11 main_v13 main_v9 main_v14 (select : (⟨S262144x64, .i1⟩ : BufTy).Contents (Elt F) → (⟨S262144x64, .i32⟩ : BufTy).Contents (Elt F) → (⟨S262144x64, .i32⟩ : BufTy).Contents (Elt F) → (⟨S262144x64, .i32⟩ : BufTy).Contents (Elt F)),
    unary main_v14 main_v15 (broadcastInDim S262144x64x1 ![0, 1] bcast_S262144x64_S262144x64x1_0_1 : (⟨S262144x64, .i32⟩ : BufTy).Contents (Elt F) → (⟨S262144x64x1, .i32⟩ : BufTy).Contents (Elt F)),
    binary main_cst main_v15 main_v16 ((fun x i => Host.gather gather_S16_S262144x64x1_S262144x64_n_0_n_n_0_2_1 x i) : (⟨S16, .f32⟩ : BufTy).Contents (Elt F) → (⟨S262144x64x1, .i32⟩ : BufTy).Contents (Elt F) → (⟨S262144x64, .f32⟩ : BufTy).Contents (Elt F)),
    unary main_arg2 main_v17 (broadcastInDim S262144x1 ![0] bcast_S262144_S262144x1_0 : (⟨S262144, .f32⟩ : BufTy).Contents (Elt F) → (⟨S262144x1, .f32⟩ : BufTy).Contents (Elt F)),
    unary main_v17 main_v18 (broadcastInDim S262144x64 ![0, 1] bcast_S262144x1_S262144x64_0_1 : (⟨S262144x1, .f32⟩ : BufTy).Contents (Elt F) → (⟨S262144x64, .f32⟩ : BufTy).Contents (Elt F)),
    binary main_v16 main_v18 main_v19 (mulf : (⟨S262144x64, .f32⟩ : BufTy).Contents (Elt F) → (⟨S262144x64, .f32⟩ : BufTy).Contents (Elt F) → (⟨S262144x64, .f32⟩ : BufTy).Contents (Elt F)),
    reshape main_v19 main_v20 rfl shapeCasts_S262144x64_S4096x4096,
    binary main_arg0 main_v20 main_v21 ((fun l r => Host.dotGeneral dot_S4x2048x4096_S4096x4096_S4x2048x4096_2_1_01_0_n_n none l r) : (⟨S4x2048x4096, .f32⟩ : BufTy).Contents (Elt F) → (⟨S4096x4096, .f32⟩ : BufTy).Contents (Elt F) → (⟨S4x2048x4096, .f32⟩ : BufTy).Contents (Elt F)),
    unary main_arg5 main_v22 (broadcastInDim S1x1x4096 ![2] bcast_S4096_S1x1x4096_2 : (⟨S4096, .f32⟩ : BufTy).Contents (Elt F) → (⟨S1x1x4096, .f32⟩ : BufTy).Contents (Elt F)),
    unary main_v22 main_v23 (broadcastInDim S4x2048x4096 ![0, 1, 2] bcast_S1x1x4096_S4x2048x4096_0_1_2 : (⟨S1x1x4096, .f32⟩ : BufTy).Contents (Elt F) → (⟨S4x2048x4096, .f32⟩ : BufTy).Contents (Elt F)),
    binary main_v21 main_v23 main_v24 (addf : (⟨S4x2048x4096, .f32⟩ : BufTy).Contents (Elt F) → (⟨S4x2048x4096, .f32⟩ : BufTy).Contents (Elt F) → (⟨S4x2048x4096, .f32⟩ : BufTy).Contents (Elt F)),
    binary main_arg0 main_arg3 main_v25 ((fun l r => Host.dotGeneral dot_S4x2048x4096_S16x4096_S4x2048x16_2_1_01_0_n_n none l r) : (⟨S4x2048x4096, .f32⟩ : BufTy).Contents (Elt F) → (⟨S16x4096, .f32⟩ : BufTy).Contents (Elt F) → (⟨S4x2048x16, .f32⟩ : BufTy).Contents (Elt F)),
    binary main_v25 main_arg4 main_v26 ((fun l r => Host.dotGeneral dot_S4x2048x16_S4096x16_S4x2048x4096_2_1_01_0_n_n none l r) : (⟨S4x2048x16, .f32⟩ : BufTy).Contents (Elt F) → (⟨S4096x16, .f32⟩ : BufTy).Contents (Elt F) → (⟨S4x2048x4096, .f32⟩ : BufTy).Contents (Elt F)),
    nullary main_cst_4 (constant S_ .f32 0x40000000#32),
    unary main_cst_4 main_v27 (broadcastInDim S4x2048x4096 ![] bcast_S_S4x2048x4096 : (⟨S_, .f32⟩ : BufTy).Contents (Elt F) → (⟨S4x2048x4096, .f32⟩ : BufTy).Contents (Elt F)),
    binary main_v26 main_v27 main_v28 (mulf : (⟨S4x2048x4096, .f32⟩ : BufTy).Contents (Elt F) → (⟨S4x2048x4096, .f32⟩ : BufTy).Contents (Elt F) → (⟨S4x2048x4096, .f32⟩ : BufTy).Contents (Elt F)),
    binary main_v24 main_v28 main_v29 (addf : (⟨S4x2048x4096, .f32⟩ : BufTy).Contents (Elt F) → (⟨S4x2048x4096, .f32⟩ : BufTy).Contents (Elt F) → (⟨S4x2048x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., unary_bufs_sub .., binary_bufs_sub .., nullary_bufs_sub .., unary_bufs_sub .., binary_bufs_sub .., nullary_bufs_sub .., unary_bufs_sub .., binary_bufs_sub .., unary_bufs_sub .., unary_bufs_sub .., binary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., unary_bufs_sub .., binary_bufs_sub .., reshape_bufs_sub .., binary_bufs_sub .., unary_bufs_sub .., unary_bufs_sub .., binary_bufs_sub .., binary_bufs_sub .., binary_bufs_sub .., nullary_bufs_sub .., unary_bufs_sub .., binary_bufs_sub .., binary_bufs_sub ..⟩

/-- The sixteen levels as the program's table. -/
def table : Vec F S16 .f32 := fun i => FloatOps.ofBits .f32 (lit0 (S16.rowMajor i))

/-- The codes, 64 to a block: word `j`'s low code at position `2j`, its high code at `2j + 1`. -/
def codes (pk : Vec F S262144x32 .i32) : Vec F S262144x64 .i32 :=
  shapeCast S262144x64
    (concatenate S262144x32x2 2
      [⟨S262144x32x1, broadcastInDim S262144x32x1 ![0, 1] bcast_S262144x32_S262144x32x1_0_1
          (andi pk (broadcastInDim S262144x32 ![] bcast_S_S262144x32 (constantI S_ 32 15#32)))⟩,
       ⟨S262144x32x1, broadcastInDim S262144x32x1 ![0, 1] bcast_S262144x32_S262144x32x1_0_1
          (andi (Host.shrsi pk (broadcastInDim S262144x32 ![] bcast_S_S262144x32 (constantI S_ 32 4#32)))
            (broadcastInDim S262144x32 ![] bcast_S_S262144x32 (constantI S_ 32 15#32)))⟩]
      concatenates_S262144x32x1_S262144x32x1_S262144x32x2_d2)
    shapeCasts_S262144x32x2_S262144x64

/-- The level at each code: a negative index has 16 added, then the table is gathered (clamped into range). -/
def lookup (cd : Vec F S262144x64 .i32) : Vec F S262144x64 .f32 :=
  Host.gather gather_S16_S262144x64x1_S262144x64_n_0_n_n_0_2_1 (table (F := F))
    (broadcastInDim S262144x64x1 ![0, 1] bcast_S262144x64_S262144x64x1_0_1
      (select (cmpi .slt cd (broadcastInDim S262144x64 ![] bcast_S_S262144x64 (constantI S_ 32 0#32)))
        (addi cd (broadcastInDim S262144x64 ![] bcast_S_S262144x64 (constantI S_ 32 16#32))) cd))

/-- The weight matrix: each block's levels times its scale, the 262144 x 64 array re-read as 4096 x 4096. -/
def wmat (pk : Vec F S262144x32 .i32) (sc : Vec F S262144 .f32) : Vec F S4096x4096 .f32 :=
  shapeCast S4096x4096
    (mulf (lookup (codes pk))
      (broadcastInDim S262144x64 ![0, 1] bcast_S262144x1_S262144x64_0_1
        (broadcastInDim S262144x1 ![0] bcast_S262144_S262144x1_0 sc)))
    shapeCasts_S262144x64_S4096x4096

/-- The program's result as one term of its six arguments. -/
def result (x : Vec F S4x2048x4096 .f32) (pk : Vec F S262144x32 .i32) (sc : Vec F S262144 .f32)
    (A : Vec F S16x4096 .f32) (B : Vec F S4096x16 .f32) (bias : Vec F S4096 .f32) : Vec F S4x2048x4096 .f32 :=
  addf
    (addf (Host.dotGeneral dot_S4x2048x4096_S4096x4096_S4x2048x4096_2_1_01_0_n_n none x (wmat pk sc))
      (broadcastInDim S4x2048x4096 ![0, 1, 2] bcast_S1x1x4096_S4x2048x4096_0_1_2
        (broadcastInDim S1x1x4096 ![2] bcast_S4096_S1x1x4096_2 bias)))
    (mulf
      (Host.dotGeneral dot_S4x2048x16_S4096x16_S4x2048x4096_2_1_01_0_n_n none
        (Host.dotGeneral dot_S4x2048x4096_S16x4096_S4x2048x16_2_1_01_0_n_n none x A) B)
      (broadcastInDim S4x2048x4096 ![] bcast_S_S4x2048x4096 (constant S_ .f32 0x40000000#32)))

set_option maxHeartbeats 4000000 in
/-- From any memory with zero counters every weakly fair execution of @main terminates with the result buffer at
    `result` of the launch contents of the six arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = result (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
      ⟨(h c main_v29).trans (by after_results; rfl), (h c main_arg0).trans (by after_results),
        (h c main_arg1).trans (by after_results), (h c main_arg2).trans (by after_results),
        (h c main_arg3).trans (by after_results), (h c main_arg4).trans (by after_results),
        (h c main_arg5).trans (by after_results)⟩)
    (run_seq scopedRefs_eq scopedSems_eq defs main (fun _ => ops) main_eq (fun _ => ops_sub) m ρ)

end Cert.ReferenceIdeal.Hand

end
-- ==== Proof.RefValue.lean ====
/-
  The reference's result read at one index (b, s, o): the layer's value as the specification states it. The codes
  array at (block, 2j + n) is nibble n of word j of the block; a code is in 0..15, so the index normalisation and the
  gather's clamp leave it alone and the gather reads the level at the code; the 262144 x 64 array re-read as
  4096 x 4096 puts entry (o, i) at block `64 o + i / 64`, position `i % 64`; each of the three matrix products is a
  plain sum over its one contracted axis.
-/
import proofs.«422599_j30227979829337_3_alg».proof.Proof.RefRun
import proofs.«422599_j30227979829337_3_alg».proof.Proof.Spec
import Idealize.ShloMosaic.Lib.Pipeline.Value
import Idealize.ShloMosaic.PureOps.Ideal.Laws

noncomputable section

open Idealize.ShloMosaic Idealize.ShloMosaic.TcCoe Idealize.SL.Sem Idealize.ShloMosaic.ValueIdx
open Idealize.ShloMosaic.Pipeline (Dat)

namespace Cert.ReferenceIdeal.Hand

open Cert.ReferenceIdeal
open Cert.ReferenceIdeal.Facts₀

/-! ## The codes -/

/-- The arithmetic shift of a 32-bit word by the literal amount 4 is in range: the plain shift. -/
theorem shrsi_four (w : BitVec 32) : IntOp.shrsi .host w 4#32 = w.sshiftRight 4 := by
  unfold IntOp.shrsi
  rw [if_pos (by decide)]
  rfl

/-- The low codes: the packed words masked to four bits, with a trailing unit axis. -/
theorem lowPlane_apply (pk : Vec Ideal S262144x32 .i32) (blk : Fin 262144) (w : Fin 32) (z : Fin 1) :
    broadcastInDim S262144x32x1 ![0, 1] bcast_S262144x32_S262144x32x1_0_1
        (andi pk (broadcastInDim S262144x32 ![] bcast_S_S262144x32 (constantI S_ 32 15#32))) (ix3 blk w z)
      = Nf4.nib false (pk (ix2 blk w)) := by
  refine (broadcastInDim_apply _ _ _ (ix3 blk w z) (ix2 blk w) fun a => ?_).trans ?_
  · match a with
    | ⟨0, _⟩ => rfl
    | ⟨1, _⟩ => rfl
  · rfl

/-- The high codes: the packed words shifted right by four and masked, with a trailing unit axis. -/
theorem highPlane_apply (pk : Vec Ideal S262144x32 .i32) (blk : Fin 262144) (w : Fin 32) (z : Fin 1) :
    broadcastInDim S262144x32x1 ![0, 1] bcast_S262144x32_S262144x32x1_0_1
        (andi (Host.shrsi pk (broadcastInDim S262144x32 ![] bcast_S_S262144x32 (constantI S_ 32 4#32)))
          (broadcastInDim S262144x32 ![] bcast_S_S262144x32 (constantI S_ 32 15#32))) (ix3 blk w z)
      = Nf4.nib true (pk (ix2 blk w)) := by
  refine (broadcastInDim_apply _ _ _ (ix3 blk w z) (ix2 blk w) fun a => ?_).trans ?_
  · match a with
    | ⟨0, _⟩ => rfl
    | ⟨1, _⟩ => rfl
  · show IntOp.andi (IntOp.shrsi .host (pk (ix2 blk w)) 4#32) 15#32 = _
    rw [shrsi_four]
    rfl

/-- Word `j`'s low code sits at position `2j` of its block and its high code at `2j + 1`: the codes array at
    (block, p) is nibble `p % 2` of word `p / 2`. -/
theorem codes_apply (pk : Vec Ideal S262144x32 .i32) (blk : Fin 262144) (p : Fin 64) :
    codes (F := Ideal) pk (ix2 blk p)
      = Nf4.nib (decide (p.val % 2 = 1)) (pk (ix2 blk ⟨p.val / 2, by omega⟩)) := by
  unfold codes
  refine (shapeCast_apply _ _ (ix2 blk p)
    (ix3 blk (⟨p.val / 2, by omega⟩ : Fin 32) (⟨p.val % 2, by omega⟩ : Fin 2)) ?_).trans ?_
  · rw [Shape.rowMajor_val_three, Shape.rowMajor_val_two]
    show (blk.val * 32 + p.val / 2) * 2 + p.val % 2 = blk.val * 64 + p.val
    omega
  · by_cases hp : p.val % 2 = 1
    · rw [decide_eq_true hp]
      refine (concatenate_pair_apply_right (t := S262144x32x2) (s₁ := S262144x32x1) (s₂ := S262144x32x1) 2 _ _ _ _ rfl rfl
        (ix3 blk (⟨p.val / 2, by omega⟩ : Fin 32) (0 : Fin 1)) (fun b hb => ?_) ?_).trans
        (highPlane_apply pk blk _ _)
      · match b with
        | ⟨0, _⟩ => rfl
        | ⟨1, _⟩ => rfl
        | ⟨2, _⟩ => exact absurd rfl hb
      · show 0 + 1 = p.val % 2
        omega
    · rw [decide_eq_false hp]
      refine (concatenate_pair_apply_left (t := S262144x32x2) (s₁ := S262144x32x1) (s₂ := S262144x32x1) 2 _ _ _ _ rfl
        (ix3 blk (⟨p.val / 2, by omega⟩ : Fin 32) (0 : Fin 1)) (fun b => ?_)).trans
        (lowPlane_apply pk blk _ _)
      match b with
      | ⟨0, _⟩ => rfl
      | ⟨1, _⟩ => rfl
      | ⟨2, _⟩ =>
        show 0 = p.val % 2
        omega

/-! ## The level at a code -/

/-- A word below sixteen is not negative read signed … -/
theorem toInt_of_lt_sixteen (c : BitVec 32) (h : c.toNat < 16) : c.toInt = (c.toNat : Int) :=
  BitVec.toInt_eq_toNat_of_lt (by omega)

/-- … so the signed comparison with zero answers no. -/
theorem slt_zero_of_lt_sixteen (c : BitVec 32) (h : c.toNat < 16) : IntOp.cmpi .slt c 0#32 = 0#1 := by
  have hs : c.slt 0#32 = false := by
    rw [BitVec.slt_eq_decide, toInt_of_lt_sixteen c h, BitVec.toInt_zero]
    exact decide_eq_false (by omega)
  show BitVec.ofBool (c.slt 0#32) = 0#1
  rw [hs]
  rfl

/-- The program's sixteen words are the specification's. -/
theorem lit0_eq_levelBits : ∀ i : Fin 16, lit0 i = Nf4.levelBits i := by decide

/-- The program's table of levels is the specification's. -/
theorem table_apply (i : Fin 16) : table (F := Ideal) (ix1 i) = Nf4.level i := by
  have hi : S16.rowMajor (ix1 i) = i := Fin.ext (Shape.rowMajor_val_one _)
  show Ideal.ofBits .f32 (lit0 (S16.rowMajor (ix1 i))) = Ideal.ofBits .f32 (Nf4.levelBits i)
  rw [hi, lit0_eq_levelBits i]

/-- The level looked up at a code below sixteen: the index normalisation keeps the code (it is not negative) and the
    gather's clamp into 0..15 keeps it too. -/
theorem lookup_apply (cd : Vec Ideal S262144x64 .i32) (blk : Fin 262144) (p : Fin 64) (c : BitVec 32)
    (hc : cd (ix2 blk p) = c) (h : c.toNat < 16) :
    lookup (F := Ideal) cd (ix2 blk p) = Nf4.level ⟨c.toNat, h⟩ := by
  unfold lookup
  show Host.gather (takeDims 16 262144 64 gather_S16_S262144x64x1_S262144x64_n_0_n_n_0_2_1_wf) _ _ _ = _
  refine (gather_take_apply (by decide) _ _ _ _).trans ?_
  have hidx : broadcastInDim S262144x64x1 ![0, 1] bcast_S262144x64_S262144x64x1_0_1
      (select (cmpi .slt cd (broadcastInDim S262144x64 ![] bcast_S_S262144x64 (constantI S_ 32 0#32)))
        (addi cd (broadcastInDim S262144x64 ![] bcast_S_S262144x64 (constantI S_ 32 16#32))) cd)
      (takeIdx (ix2 blk p)) = c := by
    refine (broadcastInDim_apply _ _ _ (takeIdx (ix2 blk p)) (ix2 blk p) fun a => ?_).trans ?_
    · match a with
      | ⟨0, _⟩ => rfl
      | ⟨1, _⟩ => rfl
    · show Scalar.select (IntOp.cmpi .slt (cd (ix2 blk p)) 0#32) (IntOp.addi (cd (ix2 blk p)) 16#32) (cd (ix2 blk p)) = c
      rw [hc, slt_zero_of_lt_sixteen c h, select_zero]
  refine Eq.trans (congrArg (table (F := Ideal)) (congrArg ix1 (Fin.ext ?_))) (table_apply ⟨c.toNat, h⟩)
  show min (BitVec.toInt _).toNat (16 - 1) = c.toNat
  rw [hidx, toInt_of_lt_sixteen c h, Int.toNat_natCast]
  omega

/-! ## The weight matrix -/

/-- A block's scale spread over its 64 positions. -/
theorem scales_apply (sc : Vec Ideal S262144 .f32) (blk : Fin 262144) (p : Fin 64) :
    broadcastInDim S262144x64 ![0, 1] bcast_S262144x1_S262144x64_0_1
        (broadcastInDim S262144x1 ![0] bcast_S262144_S262144x1_0 sc) (ix2 blk p) = sc (ix1 blk) := by
  refine (broadcastInDim_apply _ _ _ (ix2 blk p) (ix2 blk (0 : Fin 1)) fun a => ?_).trans ?_
  · match a with
    | ⟨0, _⟩ => rfl
    | ⟨1, _⟩ => rfl
  · refine broadcastInDim_apply _ _ _ (ix2 blk (0 : Fin 1)) (ix1 blk) fun a => ?_
    match a with
    | ⟨0, _⟩ => rfl

/-- Entry (o, i) of the 4096 x 4096 reading is position `i % 64` of block `64 o + i / 64`: the level at that code
    times the block's scale. -/
theorem wmat_apply (pk : Vec Ideal S262144x32 .i32) (sc : Vec Ideal S262144 .f32) (o i : Fin 4096) :
    wmat (F := Ideal) pk sc (ix2 o i) = Nf4.weight pk sc o i := by
  unfold wmat
  refine (shapeCast_apply _ _ (ix2 o i) (ix2 (Nf4.blockOf o i) (⟨i.val % 64, by omega⟩ : Fin 64)) ?_).trans ?_
  · rw [Shape.rowMajor_val_two, Shape.rowMajor_val_two]
    show (64 * o.val + i.val / 64) * 64 + i.val % 64 = o.val * 4096 + i.val
    omega
  · rw [mulf_apply, scales_apply]
    have hdec : decide (i.val % 64 % 2 = 1) = decide (i.val % 2 = 1) := by
      congr 1
      exact propext ⟨fun h => by omega, fun h => by omega⟩
    have hcode : codes (F := Ideal) pk (ix2 (Nf4.blockOf o i) (⟨i.val % 64, by omega⟩ : Fin 64))
        = Nf4.nib (decide (i.val % 2 = 1)) (pk (ix2 (Nf4.blockOf o i) (Nf4.wordOf i))) := by
      refine (codes_apply pk _ _).trans ?_
      show Nf4.nib (decide (i.val % 64 % 2 = 1)) (pk (ix2 (Nf4.blockOf o i) (Nf4.wordOf i))) = _
      rw [hdec]
    rw [lookup_apply _ _ _ _ hcode (Nf4.nib_lt _ _)]
    rfl

/-! ## The three matrix products

Each contracts the last axis of its left operand with the last axis of its right operand; at the ideal values it is
the plain sum over that axis. For each product: the operand indices' coordinates, axis by axis, then the product at
an index. -/

theorem lhs_xw_0 (i : S4x2048x4096.Idx) (q : dot_S4x2048x4096_S4096x4096_S4x2048x4096_2_1_01_0_n_n.contr.Idx) :
    (dot_S4x2048x4096_S4096x4096_S4x2048x4096_2_1_01_0_n_n.lhsIdx i q 0).val = (i 0).val := by
  unfold DotDims.lhsIdx
  rw [dif_neg (show ¬(0 : Fin S4x2048x4096.rank) ∈ dot_S4x2048x4096_S4096x4096_S4x2048x4096_2_1_01_0_n_n.lhsBatch by decide), dif_pos (show (0 : Fin S4x2048x4096.rank) ∈ dot_S4x2048x4096_S4096x4096_S4x2048x4096_2_1_01_0_n_n.lhsNonContracting by decide)]
  rfl
theorem lhs_xw_1 (i : S4x2048x4096.Idx) (q : dot_S4x2048x4096_S4096x4096_S4x2048x4096_2_1_01_0_n_n.contr.Idx) :
    (dot_S4x2048x4096_S4096x4096_S4x2048x4096_2_1_01_0_n_n.lhsIdx i q 1).val = (i 1).val := by
  unfold DotDims.lhsIdx
  rw [dif_neg (show ¬(1 : Fin S4x2048x4096.rank) ∈ dot_S4x2048x4096_S4096x4096_S4x2048x4096_2_1_01_0_n_n.lhsBatch by decide), dif_pos (show (1 : Fin S4x2048x4096.rank) ∈ dot_S4x2048x4096_S4096x4096_S4x2048x4096_2_1_01_0_n_n.lhsNonContracting by decide)]
  rfl
theorem lhs_xw_2 (i : S4x2048x4096.Idx) (q : dot_S4x2048x4096_S4096x4096_S4x2048x4096_2_1_01_0_n_n.contr.Idx) :
    (dot_S4x2048x4096_S4096x4096_S4x2048x4096_2_1_01_0_n_n.lhsIdx i q 2).val = (q ⟨0, by decide⟩).val :=
  dot_S4x2048x4096_S4096x4096_S4x2048x4096_2_1_01_0_n_n.lhsIdx_val_of_single rfl i q
theorem rhs_xw_0 (i : S4x2048x4096.Idx) (q : dot_S4x2048x4096_S4096x4096_S4x2048x4096_2_1_01_0_n_n.contr.Idx) :
    (dot_S4x2048x4096_S4096x4096_S4x2048x4096_2_1_01_0_n_n.rhsIdx i q 0).val = (i 2).val := by
  unfold DotDims.rhsIdx
  rw [dif_neg (show ¬(0 : Fin S4096x4096.rank) ∈ dot_S4x2048x4096_S4096x4096_S4x2048x4096_2_1_01_0_n_n.rhsBatch by decide), dif_pos (show (0 : Fin S4096x4096.rank) ∈ dot_S4x2048x4096_S4096x4096_S4x2048x4096_2_1_01_0_n_n.rhsNonContracting by decide)]
  rfl
theorem rhs_xw_1 (i : S4x2048x4096.Idx) (q : dot_S4x2048x4096_S4096x4096_S4x2048x4096_2_1_01_0_n_n.contr.Idx) :
    (dot_S4x2048x4096_S4096x4096_S4x2048x4096_2_1_01_0_n_n.rhsIdx i q 1).val = (q ⟨0, by decide⟩).val :=
  dot_S4x2048x4096_S4096x4096_S4x2048x4096_2_1_01_0_n_n.rhsIdx_val_of_single rfl i q

/-- `x · wᵀ` at (b, s, c): the sum over the 4096 columns. -/
theorem dot_xw_apply (x : FVec Ideal S4x2048x4096 .f32) (w : FVec Ideal S4096x4096 .f32)
    (b : Fin 4) (s : Fin 2048) (c : Fin 4096) :
    Host.dotGeneral (F := Ideal) dot_S4x2048x4096_S4096x4096_S4x2048x4096_2_1_01_0_n_n none x w (ix3 b s c)
      = ∑ k : Fin 4096, x (ix3 b s k) * w (ix2 c k) := by
  simp only [Host.dotGeneral]
  rw [Ideal.dotGeneral_apply, ← Equiv.sum_comp (contrEquiv1 dot_S4x2048x4096_S4096x4096_S4x2048x4096_2_1_01_0_n_n 4096 rfl rfl).symm]
  refine Finset.sum_congr rfl fun k _ => ?_
  have hk := contrEquiv1_symm_val dot_S4x2048x4096_S4096x4096_S4x2048x4096_2_1_01_0_n_n 4096 rfl rfl k
  have el : dot_S4x2048x4096_S4096x4096_S4x2048x4096_2_1_01_0_n_n.lhsIdx (ix3 b s c) ((contrEquiv1 dot_S4x2048x4096_S4096x4096_S4x2048x4096_2_1_01_0_n_n 4096 rfl rfl).symm k) = ix3 b s k :=
    funext fun a => Fin.ext (by
      match a with
      | ⟨0, _⟩ => exact lhs_xw_0 _ _
      | ⟨1, _⟩ => exact lhs_xw_1 _ _
      | ⟨2, _⟩ => exact (lhs_xw_2 _ _).trans hk)
  have er : dot_S4x2048x4096_S4096x4096_S4x2048x4096_2_1_01_0_n_n.rhsIdx (ix3 b s c) ((contrEquiv1 dot_S4x2048x4096_S4096x4096_S4x2048x4096_2_1_01_0_n_n 4096 rfl rfl).symm k) = ix2 c k :=
    funext fun a => Fin.ext (by
      match a with
      | ⟨0, _⟩ => exact rhs_xw_0 _ _
      | ⟨1, _⟩ => exact (rhs_xw_1 _ _).trans hk)
  rw [el, er]

theorem lhs_xa_0 (i : S4x2048x16.Idx) (q : dot_S4x2048x4096_S16x4096_S4x2048x16_2_1_01_0_n_n.contr.Idx) :
    (dot_S4x2048x4096_S16x4096_S4x2048x16_2_1_01_0_n_n.lhsIdx i q 0).val = (i 0).val := by
  unfold DotDims.lhsIdx
  rw [dif_neg (show ¬(0 : Fin S4x2048x4096.rank) ∈ dot_S4x2048x4096_S16x4096_S4x2048x16_2_1_01_0_n_n.lhsBatch by decide), dif_pos (show (0 : Fin S4x2048x4096.rank) ∈ dot_S4x2048x4096_S16x4096_S4x2048x16_2_1_01_0_n_n.lhsNonContracting by decide)]
  rfl
theorem lhs_xa_1 (i : S4x2048x16.Idx) (q : dot_S4x2048x4096_S16x4096_S4x2048x16_2_1_01_0_n_n.contr.Idx) :
    (dot_S4x2048x4096_S16x4096_S4x2048x16_2_1_01_0_n_n.lhsIdx i q 1).val = (i 1).val := by
  unfold DotDims.lhsIdx
  rw [dif_neg (show ¬(1 : Fin S4x2048x4096.rank) ∈ dot_S4x2048x4096_S16x4096_S4x2048x16_2_1_01_0_n_n.lhsBatch by decide), dif_pos (show (1 : Fin S4x2048x4096.rank) ∈ dot_S4x2048x4096_S16x4096_S4x2048x16_2_1_01_0_n_n.lhsNonContracting by decide)]
  rfl
theorem lhs_xa_2 (i : S4x2048x16.Idx) (q : dot_S4x2048x4096_S16x4096_S4x2048x16_2_1_01_0_n_n.contr.Idx) :
    (dot_S4x2048x4096_S16x4096_S4x2048x16_2_1_01_0_n_n.lhsIdx i q 2).val = (q ⟨0, by decide⟩).val :=
  dot_S4x2048x4096_S16x4096_S4x2048x16_2_1_01_0_n_n.lhsIdx_val_of_single rfl i q
theorem rhs_xa_0 (i : S4x2048x16.Idx) (q : dot_S4x2048x4096_S16x4096_S4x2048x16_2_1_01_0_n_n.contr.Idx) :
    (dot_S4x2048x4096_S16x4096_S4x2048x16_2_1_01_0_n_n.rhsIdx i q 0).val = (i 2).val := by
  unfold DotDims.rhsIdx
  rw [dif_neg (show ¬(0 : Fin S16x4096.rank) ∈ dot_S4x2048x4096_S16x4096_S4x2048x16_2_1_01_0_n_n.rhsBatch by decide), dif_pos (show (0 : Fin S16x4096.rank) ∈ dot_S4x2048x4096_S16x4096_S4x2048x16_2_1_01_0_n_n.rhsNonContracting by decide)]
  rfl
theorem rhs_xa_1 (i : S4x2048x16.Idx) (q : dot_S4x2048x4096_S16x4096_S4x2048x16_2_1_01_0_n_n.contr.Idx) :
    (dot_S4x2048x4096_S16x4096_S4x2048x16_2_1_01_0_n_n.rhsIdx i q 1).val = (q ⟨0, by decide⟩).val :=
  dot_S4x2048x4096_S16x4096_S4x2048x16_2_1_01_0_n_n.rhsIdx_val_of_single rfl i q

/-- `x · Aᵀ` at (b, s, c): the sum over the 4096 columns. -/
theorem dot_xa_apply (x : FVec Ideal S4x2048x4096 .f32) (A : FVec Ideal S16x4096 .f32)
    (b : Fin 4) (s : Fin 2048) (c : Fin 16) :
    Host.dotGeneral (F := Ideal) dot_S4x2048x4096_S16x4096_S4x2048x16_2_1_01_0_n_n none x A (ix3 b s c)
      = ∑ k : Fin 4096, x (ix3 b s k) * A (ix2 c k) := by
  simp only [Host.dotGeneral]
  rw [Ideal.dotGeneral_apply, ← Equiv.sum_comp (contrEquiv1 dot_S4x2048x4096_S16x4096_S4x2048x16_2_1_01_0_n_n 4096 rfl rfl).symm]
  refine Finset.sum_congr rfl fun k _ => ?_
  have hk := contrEquiv1_symm_val dot_S4x2048x4096_S16x4096_S4x2048x16_2_1_01_0_n_n 4096 rfl rfl k
  have el : dot_S4x2048x4096_S16x4096_S4x2048x16_2_1_01_0_n_n.lhsIdx (ix3 b s c) ((contrEquiv1 dot_S4x2048x4096_S16x4096_S4x2048x16_2_1_01_0_n_n 4096 rfl rfl).symm k) = ix3 b s k :=
    funext fun a => Fin.ext (by
      match a with
      | ⟨0, _⟩ => exact lhs_xa_0 _ _
      | ⟨1, _⟩ => exact lhs_xa_1 _ _
      | ⟨2, _⟩ => exact (lhs_xa_2 _ _).trans hk)
  have er : dot_S4x2048x4096_S16x4096_S4x2048x16_2_1_01_0_n_n.rhsIdx (ix3 b s c) ((contrEquiv1 dot_S4x2048x4096_S16x4096_S4x2048x16_2_1_01_0_n_n 4096 rfl rfl).symm k) = ix2 c k :=
    funext fun a => Fin.ext (by
      match a with
      | ⟨0, _⟩ => exact rhs_xa_0 _ _
      | ⟨1, _⟩ => exact (rhs_xa_1 _ _).trans hk)
  rw [el, er]

theorem lhs_yb_0 (i : S4x2048x4096.Idx) (q : dot_S4x2048x16_S4096x16_S4x2048x4096_2_1_01_0_n_n.contr.Idx) :
    (dot_S4x2048x16_S4096x16_S4x2048x4096_2_1_01_0_n_n.lhsIdx i q 0).val = (i 0).val := by
  unfold DotDims.lhsIdx
  rw [dif_neg (show ¬(0 : Fin S4x2048x16.rank) ∈ dot_S4x2048x16_S4096x16_S4x2048x4096_2_1_01_0_n_n.lhsBatch by decide), dif_pos (show (0 : Fin S4x2048x16.rank) ∈ dot_S4x2048x16_S4096x16_S4x2048x4096_2_1_01_0_n_n.lhsNonContracting by decide)]
  rfl
theorem lhs_yb_1 (i : S4x2048x4096.Idx) (q : dot_S4x2048x16_S4096x16_S4x2048x4096_2_1_01_0_n_n.contr.Idx) :
    (dot_S4x2048x16_S4096x16_S4x2048x4096_2_1_01_0_n_n.lhsIdx i q 1).val = (i 1).val := by
  unfold DotDims.lhsIdx
  rw [dif_neg (show ¬(1 : Fin S4x2048x16.rank) ∈ dot_S4x2048x16_S4096x16_S4x2048x4096_2_1_01_0_n_n.lhsBatch by decide), dif_pos (show (1 : Fin S4x2048x16.rank) ∈ dot_S4x2048x16_S4096x16_S4x2048x4096_2_1_01_0_n_n.lhsNonContracting by decide)]
  rfl
theorem lhs_yb_2 (i : S4x2048x4096.Idx) (q : dot_S4x2048x16_S4096x16_S4x2048x4096_2_1_01_0_n_n.contr.Idx) :
    (dot_S4x2048x16_S4096x16_S4x2048x4096_2_1_01_0_n_n.lhsIdx i q 2).val = (q ⟨0, by decide⟩).val :=
  dot_S4x2048x16_S4096x16_S4x2048x4096_2_1_01_0_n_n.lhsIdx_val_of_single rfl i q
theorem rhs_yb_0 (i : S4x2048x4096.Idx) (q : dot_S4x2048x16_S4096x16_S4x2048x4096_2_1_01_0_n_n.contr.Idx) :
    (dot_S4x2048x16_S4096x16_S4x2048x4096_2_1_01_0_n_n.rhsIdx i q 0).val = (i 2).val := by
  unfold DotDims.rhsIdx
  rw [dif_neg (show ¬(0 : Fin S4096x16.rank) ∈ dot_S4x2048x16_S4096x16_S4x2048x4096_2_1_01_0_n_n.rhsBatch by decide), dif_pos (show (0 : Fin S4096x16.rank) ∈ dot_S4x2048x16_S4096x16_S4x2048x4096_2_1_01_0_n_n.rhsNonContracting by decide)]
  rfl
theorem rhs_yb_1 (i : S4x2048x4096.Idx) (q : dot_S4x2048x16_S4096x16_S4x2048x4096_2_1_01_0_n_n.contr.Idx) :
    (dot_S4x2048x16_S4096x16_S4x2048x4096_2_1_01_0_n_n.rhsIdx i q 1).val = (q ⟨0, by decide⟩).val :=
  dot_S4x2048x16_S4096x16_S4x2048x4096_2_1_01_0_n_n.rhsIdx_val_of_single rfl i q

/-- `y · Bᵀ` at (b, s, c): the sum over the sixteen ranks. -/
theorem dot_yb_apply (y : FVec Ideal S4x2048x16 .f32) (B : FVec Ideal S4096x16 .f32)
    (b : Fin 4) (s : Fin 2048) (c : Fin 4096) :
    Host.dotGeneral (F := Ideal) dot_S4x2048x16_S4096x16_S4x2048x4096_2_1_01_0_n_n none y B (ix3 b s c)
      = ∑ k : Fin 16, y (ix3 b s k) * B (ix2 c k) := by
  simp only [Host.dotGeneral]
  rw [Ideal.dotGeneral_apply, ← Equiv.sum_comp (contrEquiv1 dot_S4x2048x16_S4096x16_S4x2048x4096_2_1_01_0_n_n 16 rfl rfl).symm]
  refine Finset.sum_congr rfl fun k _ => ?_
  have hk := contrEquiv1_symm_val dot_S4x2048x16_S4096x16_S4x2048x4096_2_1_01_0_n_n 16 rfl rfl k
  have el : dot_S4x2048x16_S4096x16_S4x2048x4096_2_1_01_0_n_n.lhsIdx (ix3 b s c) ((contrEquiv1 dot_S4x2048x16_S4096x16_S4x2048x4096_2_1_01_0_n_n 16 rfl rfl).symm k) = ix3 b s k :=
    funext fun a => Fin.ext (by
      match a with
      | ⟨0, _⟩ => exact lhs_yb_0 _ _
      | ⟨1, _⟩ => exact lhs_yb_1 _ _
      | ⟨2, _⟩ => exact (lhs_yb_2 _ _).trans hk)
  have er : dot_S4x2048x16_S4096x16_S4x2048x4096_2_1_01_0_n_n.rhsIdx (ix3 b s c) ((contrEquiv1 dot_S4x2048x16_S4096x16_S4x2048x4096_2_1_01_0_n_n 16 rfl rfl).symm k) = ix2 c k :=
    funext fun a => Fin.ext (by
      match a with
      | ⟨0, _⟩ => exact rhs_yb_0 _ _
      | ⟨1, _⟩ => exact (rhs_yb_1 _ _).trans hk)
  rw [el, er]

/-! ## The bias, the factor two, and the result -/

/-- The bias spread over the batch and sequence axes. -/
theorem bias_apply (bias : Vec Ideal S4096 .f32) (b : Fin 4) (s : Fin 2048) (o : Fin 4096) :
    broadcastInDim S4x2048x4096 ![0, 1, 2] bcast_S1x1x4096_S4x2048x4096_0_1_2
        (broadcastInDim S1x1x4096 ![2] bcast_S4096_S1x1x4096_2 bias) (ix3 b s o) = bias (ix1 o) := by
  refine (broadcastInDim_apply _ _ _ (ix3 b s o) (ix3 (0 : Fin 1) (0 : Fin 1) o) fun a => ?_).trans ?_
  · match a with
    | ⟨0, _⟩ => rfl
    | ⟨1, _⟩ => rfl
    | ⟨2, _⟩ => rfl
  · refine broadcastInDim_apply _ _ _ (ix3 (0 : Fin 1) (0 : Fin 1) o) (ix1 o) fun a => ?_
    match a with
    | ⟨0, _⟩ => rfl

/-- The splat of the word of 2.0 reads the specification's factor everywhere. -/
theorem two_apply (j : S4x2048x4096.Idx) :
    broadcastInDim S4x2048x4096 ![] bcast_S_S4x2048x4096 (constant (F := Ideal) S_ .f32 0x40000000#32) j = Nf4.two := rfl

/-- The reference's result at (b, s, o) is the layer's value there. -/
theorem result_apply (x : Vec Ideal S4x2048x4096 .f32) (pk : Vec Ideal S262144x32 .i32) (sc : Vec Ideal S262144 .f32)
    (A : Vec Ideal S16x4096 .f32) (B : Vec Ideal S4096x16 .f32) (bias : Vec Ideal S4096 .f32)
    (b : Fin 4) (s : Fin 2048) (o : Fin 4096) :
    result (F := Ideal) x pk sc A B bias (ix3 b s o) = Nf4.out x pk sc A B bias b s o := by
  unfold result Nf4.out
  rw [addf_apply, addf_apply, mulf_apply, two_apply, bias_apply, dot_xw_apply, dot_yb_apply]
  simp only [wmat_apply, dot_xa_apply]

end Cert.ReferenceIdeal.Hand

end
-- ==== Proof.lean ====
/-
  A 4-bit block-quantised linear layer with a low-rank correction, as a two-kernel program against its plain
  reference, over the extended reals.

  Both programs compute, at (b, s, o),

      (sum_i x[b,s,i] * W[o,i] + bias[o]) + (sum_r (sum_i x[b,s,i] * A[r,i]) * B[o,r]) * 2,
      W[o,i] = level(code(o,i)) * scale(64 o + i / 64),

  the code the low or high nibble of a packed word. The kernel program looks a level up by a tree of selects on the
  code's four bits and reads a block's scale through a product with a 0/1 matrix; the reference gathers from the
  table and broadcasts the scale. The kernel program sums the 4096 columns in sixteen blocks of 256 and adds the
  low-rank term before the bias; the reference sums them at once and adds the bias first. Addition of extended reals
  is commutative and associative, so the two groupings agree; no finiteness of the inputs is used.

  The three frames: each kernel program's is its frame certificate; the reference's is its run with the result
  dropped. The idealization changed no operation, so there is nothing to preserve.
-/
import proofs.«422599_j30227979829337_3_alg».proof.Defs
import proofs.«422599_j30227979829337_3_alg».proof.Proof.Gen.Kernel
import proofs.«422599_j30227979829337_3_alg».proof.Proof.Gen.Kernel.Frame
import proofs.«422599_j30227979829337_3_alg».proof.Proof.Gen.KernelIdeal
import proofs.«422599_j30227979829337_3_alg».proof.Proof.Gen.KernelIdeal.Frame
import proofs.«422599_j30227979829337_3_alg».proof.Proof.Gen.ReferenceIdeal
import proofs.«422599_j30227979829337_3_alg».proof.Proof.Gen.Pre_finite_inputs
import proofs.«422599_j30227979829337_3_alg».proof.Proof.KRun
import proofs.«422599_j30227979829337_3_alg».proof.Proof.KValue
import proofs.«422599_j30227979829337_3_alg».proof.Proof.RefRun
import proofs.«422599_j30227979829337_3_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Hand.run (F := Ideal) m ρ)

/-- Both programs end with the layer's value in their result buffer: the kernel program by its value run and the
    composition through its two kernels, the reference by its run read at an index, at arguments that agree. -/
theorem algebraic : Cert.algebraic_KernelIdeal_ReferenceIdeal := by
  intro m ρ m' ρ' _ hagree
  refine ⟨fun c => fun y => Nf4.out (Cert.KernelIdeal.Args.x m c) (Cert.KernelIdeal.Args.pk m c)
      (Cert.KernelIdeal.Args.sc m c) (Cert.KernelIdeal.Args.A m c) (Cert.KernelIdeal.Args.B m c)
      (Cert.KernelIdeal.Args.bias m c) (y 0) (y 1) (y 2), ?_, ?_⟩
  · refine (θ_run Cert.KernelIdeal.defs _ _).mono (fun _ h c => ⟨(h c).1.trans ?_, (h c).2⟩)
      (Cert.KernelIdeal.RunValue.run_value (F := Ideal) m ρ)
    funext y
    rw [eq_ix3 y]
    exact Cert.KernelIdeal.KValue.kernel_apply m ρ c (y 0) (y 1) (y 2)
  · refine (θ_run Cert.ReferenceIdeal.defs _ _).mono (fun _ h c => ⟨(h c).1.trans ?_, (h c).2⟩)
      (Cert.ReferenceIdeal.Hand.run (F := Ideal) m' ρ')
    obtain ⟨h0, h1, h2, h3, h4, h5⟩ := hagree c
    rw [h0, h1, h2, h3, h4, h5]
    funext y
    rw [eq_ix3 y]
    exact Cert.ReferenceIdeal.Hand.result_apply _ _ _ _ _ _ (y 0) (y 1) (y 2)

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
